-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v87_2)) (v1 : (c : Dev Cert.KernelIdeal.nD) → Buf (Elt Ideal) ((c.tc : Thread Cert.KernelIdeal.nD Cert.KernelIdeal.τ).loc Cert.KernelIdeal.main_v87_0)) (v2 : (c : Dev Cert.KernelIdeal.nD) → Buf (Elt Ideal) ((c.tc : Thread Cert.KernelIdeal.nD Cert.KernelIdeal.τ).loc Cert.KernelIdeal.main_v87_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87_2) = v0 c
          ∧ r.2.mem ((c.tc : Thread Cert.KernelIdeal.nD Cert.KernelIdeal.τ).loc Cert.KernelIdeal.main_v87_0) = v1 c
          ∧ r.2.mem ((c.tc : Thread Cert.KernelIdeal.nD Cert.KernelIdeal.τ).loc Cert.KernelIdeal.main_v87_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4x4096x512 : Shape := ⟨4, ![8, 4, 4096, 512]⟩
abbrev S8 : Shape := ⟨1, ![8]⟩
abbrev S64x2048 : Shape := ⟨2, ![64, 2048]⟩
abbrev S64x4x2048 : Shape := ⟨3, ![64, 4, 2048]⟩
abbrev S64x16x2048 : Shape := ⟨3, ![64, 16, 2048]⟩
abbrev S64x4 : Shape := ⟨2, ![64, 4]⟩
abbrev S64x4x4 : Shape := ⟨3, ![64, 4, 4]⟩
abbrev S64 : Shape := ⟨1, ![64]⟩
abbrev S_ : Shape := ⟨0, ![]⟩

class Facts : Prop where
  bcast_S_S8x4x4096x512 : S_.BroadcastsInDim S8x4x4096x512 (![] : Fin 0 → Fin S8x4x4096x512.rank)
  reducesTo_S8x4x4096x512_S_d0_1_2_3 : S8x4x4096x512.ReducesTo [0, 1, 2, 3] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64x4x2048 : S_.BroadcastsInDim S64x4x2048 (![] : Fin 0 → Fin S64x4x2048.rank)
  reducesTo_S64x4x2048_S_d0_1_2 : S64x4x2048.ReducesTo [0, 1, 2] S_
  bcast_S_S64x16x2048 : S_.BroadcastsInDim S64x16x2048 (![] : Fin 0 → Fin S64x16x2048.rank)
  reducesTo_S64x16x2048_S_d0_1_2 : S64x16x2048.ReducesTo [0, 1, 2] S_
  bcast_S_S64x4 : S_.BroadcastsInDim S64x4 (![] : Fin 0 → Fin S64x4.rank)
  reducesTo_S64x4_S_d0_1 : S64x4.ReducesTo [0, 1] S_
  bcast_S_S64x4x4 : S_.BroadcastsInDim S64x4x4 (![] : Fin 0 → Fin S64x4x4.rank)
  reducesTo_S64x4x4_S_d0_1_2 : S64x4x4.ReducesTo [0, 1, 2] S_
  bcast_S_S64 : S_.BroadcastsInDim S64 (![] : Fin 0 → Fin S64.rank)
  reducesTo_S64_S_d0 : S64.ReducesTo [0] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S64x4x4 .f32) (main_arg9 : FVec F S64 .f32) (main_arg10 : FVec F S64 .f32) (main_arg11 : FVec F S64 .f32) (main_v33 : IVec S_ 1) : IVec S_ 1 :=
  let main_v34 : FVec F S64x4x4 .f32 := Host.absf main_arg8
  let main_cst_12 : FVec F S_ .f32 := constant S_ .f32 0x7F800000#32
  let main_v35 : FVec F S64x4x4 .f32 := broadcastInDim S64x4x4 ![] bcast_S_S64x4x4 main_cst_12
  let main_v36 : IVec S64x4x4 1 := cmpf .olt main_v34 main_v35
  let main_c_13 : IVec S_ 1 := constantI S_ 1 1#1
  let main_v37 : IVec S_ 1 := (fun x v => Host.reduce IntOp.andi x v reducesTo_S64x4x4_S_d0_1_2 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S64x16x2048 .f32) (main_arg6 : FVec F S64x4 .f32) (main_arg7 : FVec F S64x4 .f32) (main_arg8 : FVec F S64x4x4 .f32) (main_arg9 : FVec F S64 .f32) (main_arg10 : FVec F S64 .f32) (main_arg11 : FVec F S64 .f32) (main_v13 : IVec S_ 1) (main_v16 : IVec S64x4x2048 1) : IVec S_ 1 :=
  let main_c_5 : IVec S_ 1 := constantI S_ 1 1#1
  let main_v17 : IVec S_ 1 := (fun x v => Host.reduce IntOp.andi x v reducesTo_S64x4x2048_S_d0_1_2 h_S_) main_v16 main_c_5
  let main_v18 : IVec S_ 1 := andi main_v13 main_v17
  let main_v19 : FVec F S64x16x2048 .f32 := Host.absf main_arg5
  let main_cst_6 : FVec F S_ .f32 := constant S_ .f32 0x7F800000#32
  let main_v20 : FVec F S64x16x2048 .f32 := broadcastInDim S64x16x2048 ![] bcast_S_S64x16x2048 main_cst_6
  let main_v21 : IVec S64x16x2048 1 := cmpf .olt main_v19 main_v20
  let main_c_7 : IVec S_ 1 := constantI S_ 1 1#1
  let main_v22 : IVec S_ 1 := (fun x v => Host.reduce IntOp.andi x v reducesTo_S64x16x2048_S_d0_1_2 h_S_) main_v21 main_c_7
  let main_v23 : IVec S_ 1 := andi main_v18 main_v22
  let main_v24 : FVec F S64x4 .f32 := Host.absf main_arg6
  let main_cst_8 : FVec F S_ .f32 := constant S_ .f32 0x7F800000#32
  let main_v25 : FVec F S64x4 .f32 := broadcastInDim S64x4 ![] bcast_S_S64x4 main_cst_8
  let main_v26 : IVec S64x4 1 := cmpf .olt main_v24 main_v25
  let main_c_9 : IVec S_ 1 := constantI S_ 1 1#1
  let main_v27 : IVec S_ 1 := (fun x v => Host.reduce IntOp.andi x v reducesTo_S64x4_S_d0_1 h_S_) main_v26 main_c_9
  let main_v28 : IVec S_ 1 := andi main_v23 main_v27
  let main_v29 : FVec F S64x4 .f32 := Host.absf main_arg7
  let main_cst_10 : FVec F S_ .f32 := constant S_ .f32 0x7F800000#32
  let main_v30 : FVec F S64x4 .f32 := broadcastInDim S64x4 ![] bcast_S_S64x4 main_cst_10
  let main_v31 : IVec S64x4 1 := cmpf .olt main_v29 main_v30
  let main_c_11 : IVec S_ 1 := constantI S_ 1 1#1
  let main_v32 : IVec S_ 1 := (fun x v => Host.reduce IntOp.andi x v reducesTo_S64x4_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S8x4x4096x512 .f32) (main_arg1 : IVec S8 32) (main_arg2 : FVec F S64x2048 .f32) (main_arg3 : FVec F S64x4x2048 .f32) (main_arg4 : FVec F S64x4x2048 .f32) (main_arg5 : FVec F S64x16x2048 .f32) (main_arg6 : FVec F S64x4 .f32) (main_arg7 : FVec F S64x4 .f32) (main_arg8 : FVec F S64x4x4 .f32) (main_arg9 : FVec F S64 .f32) (main_arg10 : FVec F S64 .f32) (main_arg11 : FVec F S64 .f32) : IVec S_ 1 :=
  let main_v0 : FVec F S8x4x4096x512 .f32 := Host.absf main_arg0
  let main_cst : FVec F S_ .f32 := constant S_ .f32 0x7F800000#32
  let main_v1 : FVec F S8x4x4096x512 .f32 := broadcastInDim S8x4x4096x512 ![] bcast_S_S8x4x4096x512 main_cst
  let main_v2 : IVec S8x4x4096x512 1 := cmpf .olt main_v0 main_v1
  let main_c : IVec S_ 1 := constantI S_ 1 1#1
  let main_v3 : IVec S_ 1 := (fun x v => Host.reduce IntOp.andi x v reducesTo_S8x4x4096x512_S_d0_1_2_3 h_S_) main_v2 main_c
  let main_v4 : FVec F S64x2048 .f32 := Host.absf main_arg2
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64x4x2048 .f32 := Host.absf main_arg3
  let main_cst_2 : FVec F S_ .f32 := constant S_ .f32 0x7F800000#32
  let main_v10 : FVec F S64x4x2048 .f32 := broadcastInDim S64x4x2048 ![] bcast_S_S64x4x2048 main_cst_2
  let main_v11 : IVec S64x4x2048 1 := cmpf .olt main_v9 main_v10
  let main_c_3 : IVec S_ 1 := constantI S_ 1 1#1
  let main_v12 : IVec S_ 1 := (fun x v => Host.reduce IntOp.andi x v reducesTo_S64x4x2048_S_d0_1_2 h_S_) main_v11 main_c_3
  let main_v13 : IVec S_ 1 := andi main_v8 main_v12
  let main_v14 : FVec F S64x4x2048 .f32 := Host.absf main_arg4
  let main_cst_4 : FVec F S_ .f32 := constant S_ .f32 0x7F800000#32
  let main_v15 : FVec F S64x4x2048 .f32 := broadcastInDim S64x4x2048 ![] bcast_S_S64x4x2048 main_cst_4
  let main_v16 : IVec S64x4x2048 1 := cmpf .olt main_v14 main_v15
  fn_part1 (F := F) main_arg5 main_arg6 main_arg7 main_arg8 main_arg9 main_arg10 main_arg11 main_v13 main_v16
-- ==== Kernel.lean ====
abbrev S8x4x4096x512 : Shape := ⟨4, ![8, 4, 4096, 512]⟩
abbrev S8 : Shape := ⟨1, ![8]⟩
abbrev S64x2048 : Shape := ⟨2, ![64, 2048]⟩
abbrev S64x4x2048 : Shape := ⟨3, ![64, 4, 2048]⟩
abbrev S64x16x2048 : Shape := ⟨3, ![64, 16, 2048]⟩
abbrev S64x4 : Shape := ⟨2, ![64, 4]⟩
abbrev S64x4x4 : Shape := ⟨3, ![64, 4, 4]⟩
abbrev S64 : Shape := ⟨1, ![64]⟩
abbrev S_ : Shape := ⟨0, ![]⟩
abbrev S8x1 : Shape := ⟨2, ![8, 1]⟩
abbrev S8x2048 : Shape := ⟨2, ![8, 2048]⟩
abbrev S8x4x2048 : Shape := ⟨3, ![8, 4, 2048]⟩
abbrev S8x1x2048 : Shape := ⟨3, ![8, 1, 2048]⟩
abbrev S8x16x2048 : Shape := ⟨3, ![8, 16, 2048]⟩
abbrev S8x4 : Shape := ⟨2, ![8, 4]⟩
abbrev S8x1x4 : Shape := ⟨3, ![8, 1, 4]⟩
abbrev S8x4x4 : Shape := ⟨3, ![8, 4, 4]⟩
abbrev S8x1x1 : Shape := ⟨3, ![8, 1, 1]⟩
abbrev S8x8x4096x4 : Shape := ⟨4, ![8, 8, 4096, 4]⟩
abbrev S8x8x4096x4x4 : Shape := ⟨5, ![8, 8, 4096, 4, 4]⟩
abbrev S1x4x1024x512 : Shape := ⟨4, ![1, 4, 1024, 512]⟩
abbrev S1x4x2048 : Shape := ⟨3, ![1, 4, 2048]⟩
abbrev S1x16x2048 : Shape := ⟨3, ![1, 16, 2048]⟩
abbrev S1x1x4 : Shape := ⟨3, ![1, 1, 4]⟩
abbrev S1x4x4 : Shape := ⟨3, ![1, 4, 4]⟩
abbrev S1x1x1 : Shape := ⟨3, ![1, 1, 1]⟩
abbrev S1x1x1024x4 : Shape := ⟨4, ![1, 1, 1024, 4]⟩
abbrev S1x1x1024x4x4 : Shape := ⟨5, ![1, 1, 1024, 4, 4]⟩
abbrev S1024x4 : Shape := ⟨2, ![1024, 4]⟩
abbrev S1024x16 : Shape := ⟨2, ![1024, 16]⟩
abbrev S1024 : Shape := ⟨1, ![1024]⟩
abbrev S4x2048 : Shape := ⟨2, ![4, 2048]⟩
abbrev S16x2048 : Shape := ⟨2, ![16, 2048]⟩
abbrev S1x1x1024x512 : Shape := ⟨4, ![1, 1, 1024, 512]⟩
abbrev S1024x512 : Shape := ⟨2, ![1024, 512]⟩
abbrev S4x512 : Shape := ⟨2, ![4, 512]⟩
abbrev S512x4 : Shape := ⟨2, ![512, 4]⟩
abbrev S16x512 : Shape := ⟨2, ![16, 512]⟩
abbrev S512x16 : Shape := ⟨2, ![512, 16]⟩
abbrev S1024x1 : Shape := ⟨2, ![1024, 1]⟩
abbrev S4 : Shape := ⟨1, ![4]⟩
abbrev S1x4 : Shape := ⟨2, ![1, 4]⟩
abbrev S4x4 : Shape := ⟨2, ![4, 4]⟩
abbrev S1024x4x4 : Shape := ⟨3, ![1024, 4, 4]⟩
abbrev S1024x4x1 : Shape := ⟨3, ![1024, 4, 1]⟩
abbrev S1024x1x4 : Shape := ⟨3, ![1024, 1, 4]⟩

abbrev nBuf : Space → Nat
  | .hbm => 122
  | .vmem => 26
  | .smem => 0
  | _ => 0

abbrev bufTy : (tb : Table) → Fin (tcTables nBuf tb) → BufTy
  | .hbm, ⟨0, _⟩ => ⟨S8x4x4096x512, .f32⟩
  | .hbm, ⟨1, _⟩ => ⟨S8, .i32⟩
  | .hbm, ⟨2, _⟩ => ⟨S64x2048, .f32⟩
  | .hbm, ⟨3, _⟩ => ⟨S64x4x2048, .f32⟩
  | .hbm, ⟨4, _⟩ => ⟨S64x4x2048, .f32⟩
  | .hbm, ⟨5, _⟩ => ⟨S64x16x2048, .f32⟩
  | .hbm, ⟨6, _⟩ => ⟨S64x4, .f32⟩
  | .hbm, ⟨7, _⟩ => ⟨S64x4, .f32⟩
  | .hbm, ⟨8, _⟩ => ⟨S64x4x4, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S_, .i32⟩
  | .hbm, ⟨13, _⟩ => ⟨S8, .i32⟩
  | .hbm, ⟨14, _⟩ => ⟨S8, .i1⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S8x1, .i32⟩
  | .hbm, ⟨20, _⟩ => ⟨S8x2048, .f32⟩
  | .hbm, ⟨21, _⟩ => ⟨S_, .i32⟩
  | .hbm, ⟨22, _⟩ => ⟨S8, .i32⟩
  | .hbm, ⟨23, _⟩ => ⟨S8, .i1⟩
  | .hbm, ⟨24, _⟩ => ⟨S_, .i32⟩
  | .hbm, ⟨25, _⟩ => ⟨S8, .i32⟩
  | .hbm, ⟨26, _⟩ => ⟨S8, .i32⟩
  | .hbm, ⟨27, _⟩ => ⟨S8, .i32⟩
  | .hbm, ⟨28, _⟩ => ⟨S8x1, .i32⟩
  | .hbm, ⟨29, _⟩ => ⟨S8x4x2048, .f32⟩
  | .hbm, ⟨30, _⟩ => ⟨S8x1x2048, .f32⟩
  | .hbm, ⟨31, _⟩ => ⟨S8x4x2048, .f32⟩
  | .hbm, ⟨32, _⟩ => ⟨S8x4x2048, .f32⟩
  | .hbm, ⟨33, _⟩ => ⟨S8x4x2048, .bf16⟩
  | .hbm, ⟨34, _⟩ => ⟨S_, .i32⟩
  | .hbm, ⟨35, _⟩ => ⟨S8, .i32⟩
  | .hbm, ⟨36, _⟩ => ⟨S8, .i1⟩
  | .hbm, ⟨37, _⟩ => ⟨S_, .i32⟩
  | .hbm, ⟨38, _⟩ => ⟨S8, .i32⟩
  | .hbm, ⟨39, _⟩ => ⟨S8, .i32⟩
  | .hbm, ⟨40, _⟩ => ⟨S8, .i32⟩
  | .hbm, ⟨41, _⟩ => ⟨S8x1, .i32⟩
  | .hbm, ⟨42, _⟩ => ⟨S8x4x2048, .f32⟩
  | .hbm, ⟨43, _⟩ => ⟨S8x1x2048, .f32⟩
  | .hbm, ⟨44, _⟩ => ⟨S8x4x2048, .f32⟩
  | .hbm, ⟨45, _⟩ => ⟨S8x4x2048, .f32⟩
  | .hbm, ⟨46, _⟩ => ⟨S8x4x2048, .bf16⟩
  | .hbm, ⟨47, _⟩ => ⟨S_, .i32⟩
  | .hbm, ⟨48, _⟩ => ⟨S8, .i32⟩
  | .hbm, ⟨49, _⟩ => ⟨S8, .i1⟩
  | .hbm, ⟨50, _⟩ => ⟨S_, .i32⟩
  | .hbm, ⟨51, _⟩ => ⟨S8, .i32⟩
  | .hbm, ⟨52, _⟩ => ⟨S8, .i32⟩
  | .hbm, ⟨53, _⟩ => ⟨S8, .i32⟩
  | .hbm, ⟨54, _⟩ => ⟨S8x1, .i32⟩
  | .hbm, ⟨55, _⟩ => ⟨S8x16x2048, .f32⟩
  | .hbm, ⟨56, _⟩ => ⟨S8x1x2048, .f32⟩
  | .hbm, ⟨57, _⟩ => ⟨S8x16x2048, .f32⟩
  | .hbm, ⟨58, _⟩ => ⟨S8x16x2048, .f32⟩
  | .hbm, ⟨59, _⟩ => ⟨S8x16x2048, .bf16⟩
  | .hbm, ⟨60, _⟩ => ⟨S_, .i32⟩
  | .hbm, ⟨61, _⟩ => ⟨S8, .i32⟩
  | .hbm, ⟨62, _⟩ => ⟨S8, .i1⟩
  | .hbm, ⟨63, _⟩ => ⟨S_, .i32⟩
  | .hbm, ⟨64, _⟩ => ⟨S8, .i32⟩
  | .hbm, ⟨65, _⟩ => ⟨S8, .i32⟩
  | .hbm, ⟨66, _⟩ => ⟨S8, .i32⟩
  | .hbm, ⟨67, _⟩ => ⟨S8x1, .i32⟩
  | .hbm, ⟨68, _⟩ => ⟨S8x4, .f32⟩
  | .hbm, ⟨69, _⟩ => ⟨S8x1x4, .f32⟩
  | .hbm, ⟨70, _⟩ => ⟨S_, .i32⟩
  | .hbm, ⟨71, _⟩ => ⟨S8, .i32⟩
  | .hbm, ⟨72, _⟩ => ⟨S8, .i1⟩
  | .hbm, ⟨73, _⟩ => ⟨S_, .i32⟩
  | .hbm, ⟨74, _⟩ => ⟨S8, .i32⟩
  | .hbm, ⟨75, _⟩ => ⟨S8, .i32⟩
  | .hbm, ⟨76, _⟩ => ⟨S8, .i32⟩
  | .hbm, ⟨77, _⟩ => ⟨S8x1, .i32⟩
  | .hbm, ⟨78, _⟩ => ⟨S8x4, .f32⟩
  | .hbm, ⟨79, _⟩ => ⟨S8x1x4, .f32⟩
  | .hbm, ⟨80, _⟩ => ⟨S_, .i32⟩
  | .hbm, ⟨81, _⟩ => ⟨S8, .i32⟩
  | .hbm, ⟨82, _⟩ => ⟨S8, .i1⟩
  | .hbm, ⟨83, _⟩ => ⟨S_, .i32⟩
  | .hbm, ⟨84, _⟩ => ⟨S8, .i32⟩
  | .hbm, ⟨85, _⟩ => ⟨S8, .i32⟩
  | .hbm, ⟨86, _⟩ => ⟨S8, .i32⟩
  | .hbm, ⟨87, _⟩ => ⟨S8x1, .i32⟩
  | .hbm, ⟨88, _⟩ => ⟨S8x4x4, .f32⟩
  | .hbm, ⟨89, _⟩ => ⟨S_, .i32⟩
  | .hbm, ⟨90, _⟩ => ⟨S8, .i32⟩
  | .hbm, ⟨91, _⟩ => ⟨S8, .i1⟩
  | .hbm, ⟨92, _⟩ => ⟨S_, .i32⟩
  | .hbm, ⟨93, _⟩ => ⟨S8, .i32⟩
  | .hbm, ⟨94, _⟩ => ⟨S8, .i32⟩
  | .hbm, ⟨95, _⟩ => ⟨S8, .i32⟩
  | .hbm, ⟨96, _⟩ => ⟨S8x1, .i32⟩
  | .hbm, ⟨97, _⟩ => ⟨S8, .f32⟩
  | .hbm, ⟨98, _⟩ => ⟨S8x1x1, .f32⟩
  | .hbm, ⟨99, _⟩ => ⟨S_, .i32⟩
  | .hbm, ⟨100, _⟩ => ⟨S8, .i32⟩
  | .hbm, ⟨101, _⟩ => ⟨S8, .i1⟩
  | .hbm, ⟨102, _⟩ => ⟨S_, .i32⟩
  | .hbm, ⟨103, _⟩ => ⟨S8, .i32⟩
  | .hbm, ⟨104, _⟩ => ⟨S8, .i32⟩
  | .hbm, ⟨105, _⟩ => ⟨S8, .i32⟩
  | .hbm, ⟨106, _⟩ => ⟨S8x1, .i32⟩
  | .hbm, ⟨107, _⟩ => ⟨S8, .f32⟩
  | .hbm, ⟨108, _⟩ => ⟨S8x1x1, .f32⟩
  | .hbm, ⟨109, _⟩ => ⟨S_, .i32⟩
  | .hbm, ⟨110, _⟩ => ⟨S8, .i32⟩
  | .hbm, ⟨111, _⟩ => ⟨S8, .i1⟩
  | .hbm, ⟨112, _⟩ => ⟨S_, .i32⟩
  | .hbm, ⟨113, _⟩ => ⟨S8, .i32⟩
  | .hbm, ⟨114, _⟩ => ⟨S8, .i32⟩
  | .hbm, ⟨115, _⟩ => ⟨S8, .i32⟩
  | .hbm, ⟨116, _⟩ => ⟨S8x1, .i32⟩
  | .hbm, ⟨117, _⟩ => ⟨S8, .f32⟩
  | .hbm, ⟨118, _⟩ => ⟨S8x1x1, .f32⟩
  | .hbm, ⟨119, _⟩ => ⟨S8x8x4096x4, .f32⟩
  | .hbm, ⟨120, _⟩ => ⟨S8x8x4096x4, .f32⟩
  | .hbm, ⟨121, _⟩ => ⟨S8x8x4096x4x4, .f32⟩
  | .local _ .vmem, ⟨0, _⟩ => ⟨S1x4x1024x512, .f32⟩
  | .local _ .vmem, ⟨1, _⟩ => ⟨S1x4x1024x512, .f32⟩
  | .local _ .vmem, ⟨2, _⟩ => ⟨S1x4x2048, .bf16⟩
  | .local _ .vmem, ⟨3, _⟩ => ⟨S1x4x2048, .bf16⟩
  | .local _ .vmem, ⟨4, _⟩ => ⟨S1x4x2048, .bf16⟩
  | .local _ .vmem, ⟨5, _⟩ => ⟨S1x4x2048, .bf16⟩
  | .local _ .vmem, ⟨6, _⟩ => ⟨S1x16x2048, .bf16⟩
  | .local _ .vmem, ⟨7, _⟩ => ⟨S1x16x2048, .bf16⟩
  | .local _ .vmem, ⟨8, _⟩ => ⟨S1x1x4, .f32⟩
  | .local _ .vmem, ⟨9, _⟩ => ⟨S1x1x4, .f32⟩
  | .local _ .vmem, ⟨10, _⟩ => ⟨S1x1x4, .f32⟩
  | .local _ .vmem, ⟨11, _⟩ => ⟨S1x1x4, .f32⟩
  | .local _ .vmem, ⟨12, _⟩ => ⟨S1x4x4, .f32⟩
  | .local _ .vmem, ⟨13, _⟩ => ⟨S1x4x4, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1x1024x4, .f32⟩
  | .local _ .vmem, ⟨21, _⟩ => ⟨S1x1x1024x4, .f32⟩
  | .local _ .vmem, ⟨22, _⟩ => ⟨S1x1x1024x4, .f32⟩
  | .local _ .vmem, ⟨23, _⟩ => ⟨S1x1x1024x4, .f32⟩
  | .local _ .vmem, ⟨24, _⟩ => ⟨S1x1x1024x4x4, .f32⟩
  | .local _ .vmem, ⟨25, _⟩ => ⟨S1x1x1024x4x4, .f32⟩
  | _, _ => ⟨S8x4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_c_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_5 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_9 : Ref sig .tc := ⟨.hbm, 70, rfl⟩
abbrev main_v48 : Ref sig .tc := ⟨.hbm, 71, rfl⟩
abbrev main_v49 : Ref sig .tc := ⟨.hbm, 72, rfl⟩
abbrev main_c_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_13 : Ref sig .tc := ⟨.hbm, 89, rfl⟩
abbrev main_v63 : Ref sig .tc := ⟨.hbm, 90, rfl⟩
abbrev main_v64 : Ref sig .tc := ⟨.hbm, 91, rfl⟩
abbrev main_c_14 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_c_15 : Ref sig .tc := ⟨.hbm, 99, rfl⟩
abbrev main_v71 : Ref sig .tc := ⟨.hbm, 100, rfl⟩
abbrev main_v72 : Ref sig .tc := ⟨.hbm, 101, rfl⟩
abbrev main_c_16 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_17 : Ref sig .tc := ⟨.hbm, 109, rfl⟩
abbrev main_v79 : Ref sig .tc := ⟨.hbm, 110, rfl⟩
abbrev main_v80 : Ref sig .tc := ⟨.hbm, 111, rfl⟩
abbrev main_c_18 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87_0 : Ref sig .tc := ⟨.hbm, 119, rfl⟩
abbrev main_v87_1 : Ref sig .tc := ⟨.hbm, 120, rfl⟩
abbrev main_v87_2 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![8, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, arg1.toNat, c0_i32.toNat]

def cc0_transform_12 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg0.toNat, arg1.toNat, c0_i32.toNat, c0_i32_0.toNat]

abbrev stage0_0 : Fin 2 → Memref sig .tc .vmem S1x4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x4x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x1x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x4x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, false, true]

abbrev stage0_10 : Fin 2 → Memref sig .tc .vmem S1x1x1024x4 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x1x1024x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x1024x4x4 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

class Facts₀ : Prop where
  bcast_S_S8 : S_.BroadcastsInDim S8 (![] : Fin 0 → Fin S8.rank)
  bcast_S8_S8x1_0 : S8.BroadcastsInDim S8x1 (![0] : Fin 1 → Fin S8x1.rank)
  bcast_S8x2048_S8x1x2048_0_2 : S8x2048.BroadcastsInDim S8x1x2048 (![0, 2] : Fin 2 → Fin S8x1x2048.rank)
  bcast_S8x1x2048_S8x4x2048_0_1_2 : S8x1x2048.BroadcastsInDim S8x4x2048 (![0, 1, 2] : Fin 3 → Fin S8x4x2048.rank)
  bitsLt_bf16_f32 : FTy.bits .bf16 < FTy.bits .f32
  bcast_S8x1x2048_S8x16x2048_0_1_2 : S8x1x2048.BroadcastsInDim S8x16x2048 (![0, 1, 2] : Fin 3 → Fin S8x16x2048.rank)
  shapeCasts_S8x4_S8x1x4 : S8x4.ShapeCasts S8x1x4
  shapeCasts_S8_S8x1x1 : S8.ShapeCasts S8x1x1
  inb_S1x4x2048_S1x4x2048_0_0_0 : ∀ a, (![0, 0, 0] : Fin 3 → Nat) a + S1x4x2048.size a ≤ S1x4x2048.size a
  h_S1x4x2048 : 0 < S1x4x2048.numel
  shapeCasts_S1x4x2048_S4x2048 : S1x4x2048.ShapeCasts S4x2048
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  inb_S1x4x1024x512_S1x1x1024x512_0_0_0_0 : ∀ a, (![0, 0, 0, 0] : Fin 4 → Nat) a + S1x1x1024x512.size a ≤ S1x4x1024x512.size a
  h_S1x1x1024x512 : 0 < S1x1x1024x512.numel
  shapeCasts_S1x1x1024x512_S1024x512 : S1x1x1024x512.ShapeCasts S1024x512
  reduces_S1024x512_S1024 : S1024x512.Reduces [1] S1024
  slices_S4x2048_o0_0_S4x512 : S4x2048.Slices ![0, 0] S4x512
  transposes_S4x512_p1_0_S512x4 : S4x512.Transposes [1, 0] S512x4
  slices_S16x2048_o0_0_S16x512 : S16x2048.Slices ![0, 0] S16x512
  transposes_S16x512_p1_0_S512x16 : S16x512.Transposes [1, 0] S512x16
  inb_S1x4x1024x512_S1x1x1024x512_0_1_0_0 : ∀ a, (![0, 1, 0, 0] : Fin 4 → Nat) a + S1x1x1024x512.size a ≤ S1x4x1024x512.size a
  slices_S4x2048_o0_512_S4x512 : S4x2048.Slices ![0, 512] S4x512
  slices_S16x2048_o0_512_S16x512 : S16x2048.Slices ![0, 512] S16x512
  inb_S1x4x1024x512_S1x1x1024x512_0_2_0_0 : ∀ a, (![0, 2, 0, 0] : Fin 4 → Nat) a + S1x1x1024x512.size a ≤ S1x4x1024x512.size a
  slices_S4x2048_o0_1024_S4x512 : S4x2048.Slices ![0, 1024] S4x512
  slices_S16x2048_o0_1024_S16x512 : S16x2048.Slices ![0, 1024] S16x512
  inb_S1x4x1024x512_S1x1x1024x512_0_3_0_0 : ∀ a, (![0, 3, 0, 0] : Fin 4 → Nat) a + S1x1x1024x512.size a ≤ S1x4x1024x512.size a
  slices_S4x2048_o0_1536_S4x512 : S4x2048.Slices ![0, 1536] S4x512
  slices_S16x2048_o0_1536_S16x512 : S16x2048.Slices ![0, 1536] S16x512
  shapeCasts_S1024_S1024x1 : S1024.ShapeCasts S1024x1
  inb_S1x1x4_S1x1x4_0_0_0 : ∀ a, (![0, 0, 0] : Fin 3 → Nat) a + S1x1x4.size a ≤ S1x1x4.size a
  h_S1x1x4 : 0 < S1x1x4.numel
  shapeCasts_S1x1x4_S4 : S1x1x4.ShapeCasts S4
  shapeCasts_S4_S1x4 : S4.ShapeCasts S1x4
  inb_S1x4x4_S1x4x4_0_0_0 : ∀ a, (![0, 0, 0] : Fin 3 → Nat) a + S1x4x4.size a ≤ S1x4x4.size a
  h_S1x4x4 : 0 < S1x4x4.numel
  shapeCasts_S1x4x4_S4x4 : S1x4x4.ShapeCasts S4x4
  shapeCasts_S4x4_S1x4x4 : S4x4.ShapeCasts S1x4x4
  inb_S1x1x1_S1x1x1_0_0_0 : ∀ a, (![0, 0, 0] : Fin 3 → Nat) a + S1x1x1.size a ≤ S1x1x1.size a
  h_S1x1x1 : 0 < S1x1x1.numel
  inpos_S1x1x1_p0_0_0 : ∀ a, (![0, 0, 0] : Fin 3 → Nat) a < S1x1x1.size a
  broadcasts_S1024x1_S1024x4 : S1024x1.Broadcasts S1024x4
  broadcasts_S1x4_S1024x4 : S1x4.Broadcasts S1024x4
  inb_S1x1x1024x4_S1x1x1024x4_0_0_0_0 : ∀ a, (![0, 0, 0, 0] : Fin 4 → Nat) a + S1x1x1024x4.size a ≤ S1x1x1024x4.size a
  h_S1x1x1024x4 : 0 < S1x1x1024x4.numel
  shapeCasts_S1x1x1024x4_S1024x4 : S1x1x1024x4.ShapeCasts S1024x4
  shapeCasts_S1024x4_S1x1x1024x4 : S1024x4.ShapeCasts S1x1x1024x4
  broadcasts_S1024x1_S1024x16 : S1024x1.Broadcasts S1024x16
  shapeCasts_S1024x16_S1024x4x4 : S1024x16.ShapeCasts S1024x4x4
  broadcasts_S1x4x4_S1024x4x4 : S1x4x4.Broadcasts S1024x4x4
  reduces_S1024x4x4_S1024x4 : S1024x4x4.Reduces [2] S1024x4
  shapeCasts_S1024x4_S1024x4x1 : S1024x4.ShapeCasts S1024x4x1
  broadcasts_S1024x4x1_S1024x4x4 : S1024x4x1.Broadcasts S1024x4x4
  reduces_S1024x4x4_S1024x4_2 : S1024x4x4.Reduces [1] S1024x4
  shapeCasts_S1024x4_S1024x1x4 : S1024x4.ShapeCasts S1024x1x4
  broadcasts_S1024x1x4_S1024x4x4 : S1024x1x4.Broadcasts S1024x4x4
  inb_S1x1x1024x4x4_S1x1x1024x4x4_0_0_0_0_0 : ∀ a, (![0, 0, 0, 0, 0] : Fin 5 → Nat) a + S1x1x1024x4x4.size a ≤ S1x1x1024x4x4.size a
  h_S1x1x1024x4x4 : 0 < S1x1x1024x4x4.numel
  shapeCasts_S1x1x1024x4x4_S1024x4x4 : S1x1x1024x4x4.ShapeCasts S1024x4x4
  shapeCasts_S1024x4x4_S1x1x1024x4x4 : S1024x4x4.ShapeCasts S1x1x1024x4x4
  gather_S64x2048_S8x1_S8x2048_1_0_n_n_0_1_12048_wf : GatherDims.WF S64x2048 S8x1 S8x2048 [1] [0] [] [0] [] 1 ![1, 2048]
  gather_S64x4x2048_S8x1_S8x4x2048_12_0_n_n_0_1_142048_wf : GatherDims.WF S64x4x2048 S8x1 S8x4x2048 [1, 2] [0] [] [0] [] 1 ![1, 4, 2048]
  gather_S64x16x2048_S8x1_S8x16x2048_12_0_n_n_0_1_1162048_wf : GatherDims.WF S64x16x2048 S8x1 S8x16x2048 [1, 2] [0] [] [0] [] 1 ![1, 16, 2048]
  gather_S64x4_S8x1_S8x4_1_0_n_n_0_1_14_wf : GatherDims.WF S64x4 S8x1 S8x4 [1] [0] [] [0] [] 1 ![1, 4]
  gather_S64x4x4_S8x1_S8x4x4_12_0_n_n_0_1_144_wf : GatherDims.WF S64x4x4 S8x1 S8x4x4 [1, 2] [0] [] [0] [] 1 ![1, 4, 4]
  gather_S64_S8x1_S8_n_0_n_n_0_1_1_wf : GatherDims.WF S64 S8x1 S8 [] [0] [] [0] [] 1 ![1]
  dot_S1024x512_S512x4_S1024x4_1_0_0_1_n_n_wf : DotDims.WF S1024x512 S512x4 S1024x4 [1] [0] [0] [1] [] []
  dot_S1024x512_S512x16_S1024x16_1_0_0_1_n_n_wf : DotDims.WF S1024x512 S512x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x1024x512.size a ≤ S8x4x4096x512.size a
  hwx0_0 : ∀ i : grid0.Coords, EltTy.bits .f32 = 32 ∨ (Rect.block (s := S8x4x4096x512) S1x4x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x2048.size a ≤ S8x4x2048.size a
  hwx0_1 : ∀ i : grid0.Coords, EltTy.bits .bf16 = 32 ∨ (Rect.block (s := S8x4x2048) S1x4x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x2048.size a ≤ S8x4x2048.size a
  hwx0_2 : ∀ i : grid0.Coords, EltTy.bits .bf16 = 32 ∨ (Rect.block (s := S8x4x2048) S1x4x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x2048.size a ≤ S8x16x2048.size a
  hwx0_3 : ∀ i : grid0.Coords, EltTy.bits .bf16 = 32 ∨ (Rect.block (s := S8x16x2048) S1x16x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x4.size a ≤ S8x1x4.size a
  hwx0_4 : ∀ i : grid0.Coords, EltTy.bits .f32 = 32 ∨ (Rect.block (s := S8x1x4) S1x1x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4.size a ≤ S8x1x4.size a
  hwx0_5 : ∀ i : grid0.Coords, EltTy.bits .f32 = 32 ∨ (Rect.block (s := S8x1x4) S1x1x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x4.size a ≤ S8x4x4.size a
  hwx0_6 : ∀ i : grid0.Coords, EltTy.bits .f32 = 32 ∨ (Rect.block (s := S8x4x4) S1x4x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S8x1x1.size a
  hwx0_7 : ∀ i : grid0.Coords, EltTy.bits .f32 = 32 ∨ (Rect.block (s := S8x1x1) S1x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S8x1x1.size a
  hwx0_8 : ∀ i : grid0.Coords, EltTy.bits .f32 = 32 ∨ (Rect.block (s := S8x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S8x1x1.size a
  hwx0_9 : ∀ i : grid0.Coords, EltTy.bits .f32 = 32 ∨ (Rect.block (s := S8x1x1) S1x1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1024x4.size a ≤ S8x8x4096x4.size a
  hwx0_10 : ∀ i : grid0.Coords, EltTy.bits .f32 = 32 ∨ (Rect.block (s := S8x8x4096x4) S1x1x1024x4.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1024x4.size a ≤ S8x8x4096x4.size a
  hwx0_11 : ∀ i : grid0.Coords, EltTy.bits .f32 = 32 ∨ (Rect.block (s := S8x8x4096x4) S1x1x1024x4.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x1024x4x4.size a ≤ S8x8x4096x4x4.size a
  hwx0_12 : ∀ i : grid0.Coords, EltTy.bits .f32 = 32 ∨ (Rect.block (s := S8x8x4096x4x4) S1x1x1024x4x4.size (cc0_transform_12 i) (hinb0_12 i)).WholeWords (EltTy.packing .f32)

variable [Facts₀]

def gather_S64x2048_S8x1_S8x2048_1_0_n_n_0_1_12048 : GatherDims S64x2048 S8x1 S8x2048 where
  offsetDims := [1]
  collapsedSliceDims := [0]
  operandBatchingDims := []
  startIndicesBatchingDims := []
  startIndexMap := [0]
  indexVectorDim := 1
  sliceSizes := ![1, 2048]
  wf := gather_S64x2048_S8x1_S8x2048_1_0_n_n_0_1_12048_wf
def gather_S64x4x2048_S8x1_S8x4x2048_12_0_n_n_0_1_142048 : GatherDims S64x4x2048 S8x1 S8x4x2048 where
  offsetDims := [1, 2]
  collapsedSliceDims := [0]
  operandBatchingDims := []
  startIndicesBatchingDims := []
  startIndexMap := [0]
  indexVectorDim := 1
  sliceSizes := ![1, 4, 2048]
  wf := gather_S64x4x2048_S8x1_S8x4x2048_12_0_n_n_0_1_142048_wf
def gather_S64x16x2048_S8x1_S8x16x2048_12_0_n_n_0_1_1162048 : GatherDims S64x16x2048 S8x1 S8x16x2048 where
  offsetDims := [1, 2]
  collapsedSliceDims := [0]
  operandBatchingDims := []
  startIndicesBatchingDims := []
  startIndexMap := [0]
  indexVectorDim := 1
  sliceSizes := ![1, 16, 2048]
  wf := gather_S64x16x2048_S8x1_S8x16x2048_12_0_n_n_0_1_1162048_wf
def gather_S64x4_S8x1_S8x4_1_0_n_n_0_1_14 : GatherDims S64x4 S8x1 S8x4 where
  offsetDims := [1]
  collapsedSliceDims := [0]
  operandBatchingDims := []
  startIndicesBatchingDims := []
  startIndexMap := [0]
  indexVectorDim := 1
  sliceSizes := ![1, 4]
  wf := gather_S64x4_S8x1_S8x4_1_0_n_n_0_1_14_wf
def gather_S64x4x4_S8x1_S8x4x4_12_0_n_n_0_1_144 : GatherDims S64x4x4 S8x1 S8x4x4 where
  offsetDims := [1, 2]
  collapsedSliceDims := [0]
  operandBatchingDims := []
  startIndicesBatchingDims := []
  startIndexMap := [0]
  indexVectorDim := 1
  sliceSizes := ![1, 4, 4]
  wf := gather_S64x4x4_S8x1_S8x4x4_12_0_n_n_0_1_144_wf
def gather_S64_S8x1_S8_n_0_n_n_0_1_1 : GatherDims S64 S8x1 S8 where
  offsetDims := []
  collapsedSliceDims := [0]
  operandBatchingDims := []
  startIndicesBatchingDims := []
  startIndexMap := [0]
  indexVectorDim := 1
  sliceSizes := ![1]
  wf := gather_S64_S8x1_S8_n_0_n_n_0_1_1_wf
def dot_S1024x512_S512x4_S1024x4_1_0_0_1_n_n : DotDims S1024x512 S512x4 S1024x4 where
  lhsContracting := [1]
  rhsContracting := [0]
  lhsNonContracting := [0]
  rhsNonContracting := [1]
  lhsBatch := []
  rhsBatch := []
  wf := dot_S1024x512_S512x4_S1024x4_1_0_0_1_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf

abbrev win0_0 : Pipeline.Window sig grid0 :=
  Pipeline.Window.ofSpec (Memref.whole main_arg0) S1x4x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S1x4x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x4x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x16x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v47) S1x1x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v55) S1x1x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v62) S1x4x4.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v70) S1x1x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v78) S1x1x1.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v86) S1x1x1.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v87_0) S1x1x1024x4.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v87_1) S1x1x1024x4.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v87_2) S1x1x1024x4x4.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8x4x4096x512 : Shape := ⟨4, ![8, 4, 4096, 512]⟩
abbrev S8 : Shape := ⟨1, ![8]⟩
abbrev S64x2048 : Shape := ⟨2, ![64, 2048]⟩
abbrev S64x4x2048 : Shape := ⟨3, ![64, 4, 2048]⟩
abbrev S64x16x2048 : Shape := ⟨3, ![64, 16, 2048]⟩
abbrev S64x4 : Shape := ⟨2, ![64, 4]⟩
abbrev S64x4x4 : Shape := ⟨3, ![64, 4, 4]⟩
abbrev S64 : Shape := ⟨1, ![64]⟩
abbrev S8x4096x4x512 : Shape := ⟨4, ![8, 4096, 4, 512]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S8x1 : Shape := ⟨2, ![8, 1]⟩
abbrev S8x2048 : Shape := ⟨2, ![8, 2048]⟩
abbrev S8x4x2048 : Shape := ⟨3, ![8, 4, 2048]⟩
abbrev S8x1x2048 : Shape := ⟨3, ![8, 1, 2048]⟩
abbrev S8x4x8x4096 : Shape := ⟨4, ![8, 4, 8, 4096]⟩
abbrev S8x8x4096x4 : Shape := ⟨4, ![8, 8, 4096, 4]⟩
abbrev S8x1x1x1 : Shape := ⟨4, ![8, 1, 1, 1]⟩
abbrev S8x4 : Shape := ⟨2, ![8, 4]⟩
abbrev S8x1x1x4 : Shape := ⟨4, ![8, 1, 1, 4]⟩
abbrev S8x16x2048 : Shape := ⟨3, ![8, 16, 2048]⟩
abbrev S8x16x8x4096 : Shape := ⟨4, ![8, 16, 8, 4096]⟩
abbrev S8x8x4096x16 : Shape := ⟨4, ![8, 8, 4096, 16]⟩
abbrev S8x8x4096x4x4 : Shape := ⟨5, ![8, 8, 4096, 4, 4]⟩
abbrev S8x1x1x1x1 : Shape := ⟨5, ![8, 1, 1, 1, 1]⟩
abbrev S8x4x4 : Shape := ⟨3, ![8, 4, 4]⟩
abbrev S8x1x1x4x4 : Shape := ⟨5, ![8, 1, 1, 4, 4]⟩
abbrev S8x8x4096x4x1 : Shape := ⟨5, ![8, 8, 4096, 4, 1]⟩
abbrev S8x8x4096x1x4 : Shape := ⟨5, ![8, 8, 4096, 1, 4]⟩

abbrev nBuf : Space → Nat
  | .hbm => 231
  | .vmem => 0
  | .smem => 0
  | _ => 0

abbrev hbmTy0_0 (i : Nat) : BufTy := match i % 128 with
  | 0 => ⟨S8x4x4096x512, .f32⟩
  | 1 => ⟨S8, .i32⟩
  | 2 => ⟨S64x2048, .f32⟩
  | 3 => ⟨S64x4x2048, .f32⟩
  | 4 => ⟨S64x4x2048, .f32⟩
  | 5 => ⟨S64x16x2048, .f32⟩
  | 6 => ⟨S64x4, .f32⟩
  | 7 => ⟨S64x4, .f32⟩
  | 8 => ⟨S64x4x4, .f32⟩
  | 9 => ⟨S64, .f32⟩
  | 10 => ⟨S64, .f32⟩
  | 11 => ⟨S64, .f32⟩
  | 12 => ⟨S8x4096x4x512, .f32⟩
  | 13 => ⟨S8x4096x2048, .f32⟩
  | 14 => ⟨S8x4096x2048, .f32⟩
  | 15 => ⟨S_, .f32⟩
  | 16 => ⟨S8x4096, .f32⟩
  | 17 => ⟨S8x4096x1, .f32⟩
  | 18 => ⟨S_, .f32⟩
  | 19 => ⟨S8x4096x1, .f32⟩
  | 20 => ⟨S8x4096x1, .f32⟩
  | 21 => ⟨S_, .f32⟩
  | 22 => ⟨S8x4096x1, .f32⟩
  | 23 => ⟨S8x4096x1, .f32⟩
  | 24 => ⟨S8x4096x1, .f32⟩
  | 25 => ⟨S8x4096x2048, .f32⟩
  | 26 => ⟨S8x4096x2048, .f32⟩
  | 27 => ⟨S_, .i32⟩
  | 28 => ⟨S8, .i32⟩
  | 29 => ⟨S8, .i1⟩
  | 30 => ⟨S_, .i32⟩
  | 31 => ⟨S8, .i32⟩
  | 32 => ⟨S8, .i32⟩
  | 33 => ⟨S8, .i32⟩
  | 34 => ⟨S8x1, .i32⟩
  | 35 => ⟨S8x2048, .f32⟩
  | 36 => ⟨S_, .i32⟩
  | 37 => ⟨S8, .i32⟩
  | 38 => ⟨S8, .i1⟩
  | 39 => ⟨S_, .i32⟩
  | 40 => ⟨S8, .i32⟩
  | 41 => ⟨S8, .i32⟩
  | 42 => ⟨S8, .i32⟩
  | 43 => ⟨S8x1, .i32⟩
  | 44 => ⟨S8x4x2048, .f32⟩
  | 45 => ⟨S8x1x2048, .f32⟩
  | 46 => ⟨S8x4x2048, .f32⟩
  | 47 => ⟨S8x4x2048, .f32⟩
  | 48 => ⟨S8x4x8x4096, .f32⟩
  | 49 => ⟨S8x8x4096x4, .f32⟩
  | 50 => ⟨S_, .i32⟩
  | 51 => ⟨S8, .i32⟩
  | 52 => ⟨S8, .i1⟩
  | 53 => ⟨S_, .i32⟩
  | 54 => ⟨S8, .i32⟩
  | 55 => ⟨S8, .i32⟩
  | 56 => ⟨S8, .i32⟩
  | 57 => ⟨S8x1, .i32⟩
  | 58 => ⟨S8, .f32⟩
  | 59 => ⟨S8x1x1x1, .f32⟩
  | 60 => ⟨S8x8x4096x4, .f32⟩
  | 61 => ⟨S8x8x4096x4, .f32⟩
  | 62 => ⟨S_, .i32⟩
  | 63 => ⟨S8, .i32⟩
  | 64 => ⟨S8, .i1⟩
  | 65 => ⟨S_, .i32⟩
  | 66 => ⟨S8, .i32⟩
  | 67 => ⟨S8, .i32⟩
  | 68 => ⟨S8, .i32⟩
  | 69 => ⟨S8x1, .i32⟩
  | 70 => ⟨S8x4, .f32⟩
  | 71 => ⟨S8x1x1x4, .f32⟩
  | 72 => ⟨S8x8x4096x4, .f32⟩
  | 73 => ⟨S8x8x4096x4, .f32⟩
  | 74 => ⟨S8x8x4096x4, .f32⟩
  | 75 => ⟨S8x8x4096x4, .f32⟩
  | 76 => ⟨S_, .f32⟩
  | 77 => ⟨S8x8x4096x4, .f32⟩
  | 78 => ⟨S8x8x4096x4, .f32⟩
  | 79 => ⟨S_, .f32⟩
  | 80 => ⟨S8x8x4096x4, .f32⟩
  | 81 => ⟨S8x8x4096x4, .f32⟩
  | 82 => ⟨S_, .i32⟩
  | 83 => ⟨S8, .i32⟩
  | 84 => ⟨S8, .i1⟩
  | 85 => ⟨S_, .i32⟩
  | 86 => ⟨S8, .i32⟩
  | 87 => ⟨S8, .i32⟩
  | 88 => ⟨S8, .i32⟩
  | 89 => ⟨S8x1, .i32⟩
  | 90 => ⟨S8x4x2048, .f32⟩
  | 91 => ⟨S8x1x2048, .f32⟩
  | 92 => ⟨S8x4x2048, .f32⟩
  | 93 => ⟨S8x4x2048, .f32⟩
  | 94 => ⟨S8x4x8x4096, .f32⟩
  | 95 => ⟨S8x8x4096x4, .f32⟩
  | 96 => ⟨S_, .i32⟩
  | 97 => ⟨S8, .i32⟩
  | 98 => ⟨S8, .i1⟩
  | 99 => ⟨S_, .i32⟩
  | 100 => ⟨S8, .i32⟩
  | 101 => ⟨S8, .i32⟩
  | 102 => ⟨S8, .i32⟩
  | 103 => ⟨S8x1, .i32⟩
  | 104 => ⟨S8, .f32⟩
  | 105 => ⟨S8x1x1x1, .f32⟩
  | 106 => ⟨S8x8x4096x4, .f32⟩
  | 107 => ⟨S8x8x4096x4, .f32⟩
  | 108 => ⟨S_, .i32⟩
  | 109 => ⟨S8, .i32⟩
  | 110 => ⟨S8, .i1⟩
  | 111 => ⟨S_, .i32⟩
  | 112 => ⟨S8, .i32⟩
  | 113 => ⟨S8, .i32⟩
  | 114 => ⟨S8, .i32⟩
  | 115 => ⟨S8x1, .i32⟩
  | 116 => ⟨S8x4, .f32⟩
  | 117 => ⟨S8x1x1x4, .f32⟩
  | 118 => ⟨S8x8x4096x4, .f32⟩
  | 119 => ⟨S8x8x4096x4, .f32⟩
  | 120 => ⟨S8x8x4096x4, .f32⟩
  | 121 => ⟨S8x8x4096x4, .f32⟩
  | 122 => ⟨S_, .f32⟩
  | 123 => ⟨S8x8x4096x4, .f32⟩
  | 124 => ⟨S8x8x4096x4, .f32⟩
  | 125 => ⟨S_, .f32⟩
  | 126 => ⟨S8x8x4096x4, .f32⟩
  | 127 => ⟨S8x8x4096x4, .f32⟩
  | _ => ⟨S8x4x4096x512, .f32⟩

abbrev hbmTy0_1 (i : Nat) : BufTy := match i % 128 with
  | 0 => ⟨S_, .f32⟩
  | 1 => ⟨S8x8x4096x4, .f32⟩
  | 2 => ⟨S8x8x4096x4, .f32⟩
  | 3 => ⟨S_, .i32⟩
  | 4 => ⟨S8, .i32⟩
  | 5 => ⟨S8, .i1⟩
  | 6 => ⟨S_, .i32⟩
  | 7 => ⟨S8, .i32⟩
  | 8 => ⟨S8, .i32⟩
  | 9 => ⟨S8, .i32⟩
  | 10 => ⟨S8x1, .i32⟩
  | 11 => ⟨S8x16x2048, .f32⟩
  | 12 => ⟨S8x1x2048, .f32⟩
  | 13 => ⟨S8x16x2048, .f32⟩
  | 14 => ⟨S8x16x2048, .f32⟩
  | 15 => ⟨S8x16x8x4096, .f32⟩
  | 16 => ⟨S8x8x4096x16, .f32⟩
  | 17 => ⟨S8x8x4096x4x4, .f32⟩
  | 18 => ⟨S_, .i32⟩
  | 19 => ⟨S8, .i32⟩
  | 20 => ⟨S8, .i1⟩
  | 21 => ⟨S_, .i32⟩
  | 22 => ⟨S8, .i32⟩
  | 23 => ⟨S8, .i32⟩
  | 24 => ⟨S8, .i32⟩
  | 25 => ⟨S8x1, .i32⟩
  | 26 => ⟨S8, .f32⟩
  | 27 => ⟨S8x1x1x1x1, .f32⟩
  | 28 => ⟨S8x8x4096x4x4, .f32⟩
  | 29 => ⟨S8x8x4096x4x4, .f32⟩
  | 30 => ⟨S_, .i32⟩
  | 31 => ⟨S8, .i32⟩
  | 32 => ⟨S8, .i1⟩
  | 33 => ⟨S_, .i32⟩
  | 34 => ⟨S8, .i32⟩
  | 35 => ⟨S8, .i32⟩
  | 36 => ⟨S8, .i32⟩
  | 37 => ⟨S8x1, .i32⟩
  | 38 => ⟨S8x4x4, .f32⟩
  | 39 => ⟨S8x1x1x4x4, .f32⟩
  | 40 => ⟨S8x8x4096x4x4, .f32⟩
  | 41 => ⟨S8x8x4096x4x4, .f32⟩
  | 42 => ⟨S8x8x4096x4x4, .f32⟩
  | 43 => ⟨S_, .f32⟩
  | 44 => ⟨S8x8x4096x4, .f32⟩
  | 45 => ⟨S8x8x4096x4x1, .f32⟩
  | 46 => ⟨S8x8x4096x4x4, .f32⟩
  | 47 => ⟨S8x8x4096x4x4, .f32⟩
  | 48 => ⟨S_, .f32⟩
  | 49 => ⟨S8x8x4096x4, .f32⟩
  | 50 => ⟨S8x8x4096x1x4, .f32⟩
  | 51 => ⟨S8x8x4096x4x4, .f32⟩
  | 52 => ⟨S8x8x4096x4x4, .f32⟩
  | 53 => ⟨S_, .f32⟩
  | 54 => ⟨S8x8x4096x4, .f32⟩
  | 55 => ⟨S8x8x4096x4x1, .f32⟩
  | 56 => ⟨S8x8x4096x4x4, .f32⟩
  | 57 => ⟨S8x8x4096x4x4, .f32⟩
  | 58 => ⟨S_, .f32⟩
  | 59 => ⟨S8x8x4096x4, .f32⟩
  | 60 => ⟨S8x8x4096x1x4, .f32⟩
  | 61 => ⟨S8x8x4096x4x4, .f32⟩
  | 62 => ⟨S8x8x4096x4x4, .f32⟩
  | 63 => ⟨S_, .f32⟩
  | 64 => ⟨S8x8x4096x4, .f32⟩
  | 65 => ⟨S8x8x4096x4x1, .f32⟩
  | 66 => ⟨S8x8x4096x4x4, .f32⟩
  | 67 => ⟨S8x8x4096x4x4, .f32⟩
  | 68 => ⟨S_, .f32⟩
  | 69 => ⟨S8x8x4096x4, .f32⟩
  | 70 => ⟨S8x8x4096x1x4, .f32⟩
  | 71 => ⟨S8x8x4096x4x4, .f32⟩
  | 72 => ⟨S8x8x4096x4x4, .f32⟩
  | 73 => ⟨S_, .f32⟩
  | 74 => ⟨S8x8x4096x4, .f32⟩
  | 75 => ⟨S8x8x4096x4x1, .f32⟩
  | 76 => ⟨S8x8x4096x4x4, .f32⟩
  | 77 => ⟨S8x8x4096x4x4, .f32⟩
  | 78 => ⟨S_, .f32⟩
  | 79 => ⟨S8x8x4096x4, .f32⟩
  | 80 => ⟨S8x8x4096x1x4, .f32⟩
  | 81 => ⟨S8x8x4096x4x4, .f32⟩
  | 82 => ⟨S8x8x4096x4x4, .f32⟩
  | 83 => ⟨S_, .f32⟩
  | 84 => ⟨S8x8x4096x4, .f32⟩
  | 85 => ⟨S8x8x4096x4x1, .f32⟩
  | 86 => ⟨S8x8x4096x4x4, .f32⟩
  | 87 => ⟨S8x8x4096x4x4, .f32⟩
  | 88 => ⟨S_, .f32⟩
  | 89 => ⟨S8x8x4096x4, .f32⟩
  | 90 => ⟨S8x8x4096x1x4, .f32⟩
  | 91 => ⟨S8x8x4096x4x4, .f32⟩
  | 92 => ⟨S8x8x4096x4x4, .f32⟩
  | 93 => ⟨S_, .f32⟩
  | 94 => ⟨S8x8x4096x4, .f32⟩
  | 95 => ⟨S8x8x4096x4x1, .f32⟩
  | 96 => ⟨S8x8x4096x4x4, .f32⟩
  | 97 => ⟨S8x8x4096x4x4, .f32⟩
  | 98 => ⟨S_, .f32⟩
  | 99 => ⟨S8x8x4096x4, .f32⟩
  | 100 => ⟨S8x8x4096x1x4, .f32⟩
  | 101 => ⟨S8x8x4096x4x4, .f32⟩
  | 102 => ⟨S8x8x4096x4x4, .f32⟩
  | _ => ⟨S8x4x4096x512, .f32⟩

abbrev hbmTy (i : Nat) : BufTy := match i / 128 with
  | 0 => hbmTy0_0 i
  | 1 => hbmTy0_1 i
  | _ => ⟨S8x4x4096x512, .f32⟩

abbrev bufTy : (tb : Table) → Fin (tcTables nBuf tb) → BufTy
  | .hbm, ⟨i, _⟩ => hbmTy i
  | _, _ => ⟨S8x4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_5 : Ref sig .tc := ⟨.hbm, 50, rfl⟩
abbrev main_v31 : Ref sig .tc := ⟨.hbm, 51, rfl⟩
abbrev main_v32 : Ref sig .tc := ⟨.hbm, 52, rfl⟩
abbrev main_c_6 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_7 : Ref sig .tc := ⟨.hbm, 62, rfl⟩
abbrev main_v41 : Ref sig .tc := ⟨.hbm, 63, rfl⟩
abbrev main_v42 : Ref sig .tc := ⟨.hbm, 64, rfl⟩
abbrev main_c_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_9 : Ref sig .tc := ⟨.hbm, 76, rfl⟩
abbrev main_v53 : Ref sig .tc := ⟨.hbm, 77, rfl⟩
abbrev main_v54 : Ref sig .tc := ⟨.hbm, 78, rfl⟩
abbrev main_cst_10 : Ref sig .tc := ⟨.hbm, 79, rfl⟩
abbrev main_v55 : Ref sig .tc := ⟨.hbm, 80, rfl⟩
abbrev main_v56 : Ref sig .tc := ⟨.hbm, 81, rfl⟩
abbrev main_c_11 : Ref sig .tc := ⟨.hbm, 82, rfl⟩
abbrev main_v57 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_15 : Ref sig .tc := ⟨.hbm, 108, rfl⟩
abbrev main_v79 : Ref sig .tc := ⟨.hbm, 109, rfl⟩
abbrev main_v80 : Ref sig .tc := ⟨.hbm, 110, rfl⟩
abbrev main_c_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_cst_17 : Ref sig .tc := ⟨.hbm, 122, rfl⟩
abbrev main_v91 : Ref sig .tc := ⟨.hbm, 123, rfl⟩
abbrev main_v92 : Ref sig .tc := ⟨.hbm, 124, rfl⟩
abbrev main_cst_18 : Ref sig .tc := ⟨.hbm, 125, rfl⟩
abbrev main_v93 : Ref sig .tc := ⟨.hbm, 126, rfl⟩
abbrev main_v94 : Ref sig .tc := ⟨.hbm, 127, rfl⟩
abbrev main_cst_19 : Ref sig .tc := ⟨.hbm, 128, rfl⟩
abbrev main_v95 : Ref sig .tc := ⟨.hbm, 129, rfl⟩
abbrev main_v96 : Ref sig .tc := ⟨.hbm, 130, rfl⟩
abbrev main_c_20 : Ref sig .tc := ⟨.hbm, 131, rfl⟩
abbrev main_v97 : Ref sig .tc := ⟨.hbm, 132, rfl⟩
abbrev main_v98 : Ref sig .tc := ⟨.hbm, 133, rfl⟩
abbrev main_c_21 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_c_22 : Ref sig .tc := ⟨.hbm, 146, rfl⟩
abbrev main_v110 : Ref sig .tc := ⟨.hbm, 147, rfl⟩
abbrev main_v111 : Ref sig .tc := ⟨.hbm, 148, rfl⟩
abbrev main_c_23 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_c_24 : Ref sig .tc := ⟨.hbm, 158, rfl⟩
abbrev main_v120 : Ref sig .tc := ⟨.hbm, 159, rfl⟩
abbrev main_v121 : Ref sig .tc := ⟨.hbm, 160, rfl⟩
abbrev main_c_25 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_cst_26 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_cst_27 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_28 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_v142 : Ref sig .tc := ⟨.hbm, 185, rfl⟩
abbrev main_cst_29 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_30 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_cst_31 : Ref sig .tc := ⟨.hbm, 196, rfl⟩
abbrev main_v151 : Ref sig .tc := ⟨.hbm, 197, rfl⟩
abbrev main_v152 : Ref sig .tc := ⟨.hbm, 198, rfl⟩
abbrev main_v153 : Ref sig .tc := ⟨.hbm, 199, rfl⟩
abbrev main_v154 : Ref sig .tc := ⟨.hbm, 200, rfl⟩
abbrev main_cst_32 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_cst_33 : Ref sig .tc := ⟨.hbm, 206, rfl⟩
abbrev main_v159 : Ref sig .tc := ⟨.hbm, 207, rfl⟩
abbrev main_v160 : Ref sig .tc := ⟨.hbm, 208, rfl⟩
abbrev main_v161 : Ref sig .tc := ⟨.hbm, 209, rfl⟩
abbrev main_v162 : Ref sig .tc := ⟨.hbm, 210, rfl⟩
abbrev main_cst_34 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_cst_35 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_cst_36 : Ref sig .tc := ⟨.hbm, 221, rfl⟩
abbrev main_v171 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_cst_37 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩

abbrev nD : Nat := 1
abbrev τ : Topo := Topo.v7x

variable {F : FTy → Type} [FloatOps F]

class Facts₀ : Prop where
  transposes_S8x4x4096x512_S8x4096x4x512_0_2_1_3 : S8x4x4096x512.Transposes [0, 2, 1, 3] S8x4096x4x512
  shapeCasts_S8x4096x4x512_S8x4096x2048 : S8x4096x4x512.ShapeCasts S8x4096x2048
  reducesTo_S8x4096x2048_S8x4096_d2 : S8x4096x2048.ReducesTo [2] S8x4096
  h_S_ : 0 < S_.numel
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x2048_0_1_2 : S8x4096x1.BroadcastsInDim S8x4096x2048 (![0, 1, 2] : Fin 3 → Fin S8x4096x2048.rank)
  bcast_S_S8 : S_.BroadcastsInDim S8 (![] : Fin 0 → Fin S8.rank)
  bcast_S8_S8x1_0 : S8.BroadcastsInDim S8x1 (![0] : Fin 1 → Fin S8x1.rank)
  bcast_S8x2048_S8x1x2048_0_2 : S8x2048.BroadcastsInDim S8x1x2048 (![0, 2] : Fin 2 → Fin S8x1x2048.rank)
  bcast_S8x1x2048_S8x4x2048_0_1_2 : S8x1x2048.BroadcastsInDim S8x4x2048 (![0, 1, 2] : Fin 3 → Fin S8x4x2048.rank)
  transposes_S8x4x8x4096_S8x8x4096x4_0_2_3_1 : S8x4x8x4096.Transposes [0, 2, 3, 1] S8x8x4096x4
  bcast_S8_S8x1x1x1_0 : S8.BroadcastsInDim S8x1x1x1 (![0] : Fin 1 → Fin S8x1x1x1.rank)
  bcast_S8x1x1x1_S8x8x4096x4_0_1_2_3 : S8x1x1x1.BroadcastsInDim S8x8x4096x4 (![0, 1, 2, 3] : Fin 4 → Fin S8x8x4096x4.rank)
  bcast_S8x4_S8x1x1x4_0_3 : S8x4.BroadcastsInDim S8x1x1x4 (![0, 3] : Fin 2 → Fin S8x1x1x4.rank)
  bcast_S8x1x1x4_S8x8x4096x4_0_1_2_3 : S8x1x1x4.BroadcastsInDim S8x8x4096x4 (![0, 1, 2, 3] : Fin 4 → Fin S8x8x4096x4.rank)
  bcast_S_S8x8x4096x4 : S_.BroadcastsInDim S8x8x4096x4 (![] : Fin 0 → Fin S8x8x4096x4.rank)
  bcast_S8x1x2048_S8x16x2048_0_1_2 : S8x1x2048.BroadcastsInDim S8x16x2048 (![0, 1, 2] : Fin 3 → Fin S8x16x2048.rank)
  transposes_S8x16x8x4096_S8x8x4096x16_0_2_3_1 : S8x16x8x4096.Transposes [0, 2, 3, 1] S8x8x4096x16
  shapeCasts_S8x8x4096x16_S8x8x4096x4x4 : S8x8x4096x16.ShapeCasts S8x8x4096x4x4
  bcast_S8_S8x1x1x1x1_0 : S8.BroadcastsInDim S8x1x1x1x1 (![0] : Fin 1 → Fin S8x1x1x1x1.rank)
  bcast_S8x1x1x1x1_S8x8x4096x4x4_0_1_2_3_4 : S8x1x1x1x1.BroadcastsInDim S8x8x4096x4x4 (![0, 1, 2, 3, 4] : Fin 5 → Fin S8x8x4096x4x4.rank)
  bcast_S8x4x4_S8x1x1x4x4_0_3_4 : S8x4x4.BroadcastsInDim S8x1x1x4x4 (![0, 3, 4] : Fin 3 → Fin S8x1x1x4x4.rank)
  bcast_S8x1x1x4x4_S8x8x4096x4x4_0_1_2_3_4 : S8x1x1x4x4.BroadcastsInDim S8x8x4096x4x4 (![0, 1, 2, 3, 4] : Fin 5 → Fin S8x8x4096x4x4.rank)
  reducesTo_S8x8x4096x4x4_S8x8x4096x4_d4 : S8x8x4096x4x4.ReducesTo [4] S8x8x4096x4
  bcast_S8x8x4096x4_S8x8x4096x4x1_0_1_2_3 : S8x8x4096x4.BroadcastsInDim S8x8x4096x4x1 (![0, 1, 2, 3] : Fin 4 → Fin S8x8x4096x4x1.rank)
  bcast_S8x8x4096x4x1_S8x8x4096x4x4_0_1_2_3_4 : S8x8x4096x4x1.BroadcastsInDim S8x8x4096x4x4 (![0, 1, 2, 3, 4] : Fin 5 → Fin S8x8x4096x4x4.rank)
  reducesTo_S8x8x4096x4x4_S8x8x4096x4_d3 : S8x8x4096x4x4.ReducesTo [3] S8x8x4096x4
  bcast_S8x8x4096x4_S8x8x4096x1x4_0_1_2_4 : S8x8x4096x4.BroadcastsInDim S8x8x4096x1x4 (![0, 1, 2, 4] : Fin 4 → Fin S8x8x4096x1x4.rank)
  bcast_S8x8x4096x1x4_S8x8x4096x4x4_0_1_2_3_4 : S8x8x4096x1x4.BroadcastsInDim S8x8x4096x4x4 (![0, 1, 2, 3, 4] : Fin 5 → Fin S8x8x4096x4x4.rank)
  gather_S64x2048_S8x1_S8x2048_1_0_n_n_0_1_12048_wf : GatherDims.WF S64x2048 S8x1 S8x2048 [1] [0] [] [0] [] 1 ![1, 2048]
  gather_S64x4x2048_S8x1_S8x4x2048_12_0_n_n_0_1_142048_wf : GatherDims.WF S64x4x2048 S8x1 S8x4x2048 [1, 2] [0] [] [0] [] 1 ![1, 4, 2048]
  dot_S8x4x2048_S8x4096x2048_S8x4x8x4096_2_2_01_01_n_n_wf : DotDims.WF S8x4x2048 S8x4096x2048 S8x4x8x4096 [2] [2] [0, 1] [0, 1] [] []
  gather_S64_S8x1_S8_n_0_n_n_0_1_1_wf : GatherDims.WF S64 S8x1 S8 [] [0] [] [0] [] 1 ![1]
  gather_S64x4_S8x1_S8x4_1_0_n_n_0_1_14_wf : GatherDims.WF S64x4 S8x1 S8x4 [1] [0] [] [0] [] 1 ![1, 4]
  gather_S64x16x2048_S8x1_S8x16x2048_12_0_n_n_0_1_1162048_wf : GatherDims.WF S64x16x2048 S8x1 S8x16x2048 [1, 2] [0] [] [0] [] 1 ![1, 16, 2048]
  dot_S8x16x2048_S8x4096x2048_S8x16x8x4096_2_2_01_01_n_n_wf : DotDims.WF S8x16x2048 S8x4096x2048 S8x16x8x4096 [2] [2] [0, 1] [0, 1] [] []
  gather_S64x4x4_S8x1_S8x4x4_12_0_n_n_0_1_144_wf : GatherDims.WF S64x4x4 S8x1 S8x4x4 [1, 2] [0] [] [0] [] 1 ![1, 4, 4]

variable [Facts₀]

def gather_S64x2048_S8x1_S8x2048_1_0_n_n_0_1_12048 : GatherDims S64x2048 S8x1 S8x2048 where
  offsetDims := [1]
  collapsedSliceDims := [0]
  operandBatchingDims := []
  startIndicesBatchingDims := []
  startIndexMap := [0]
  indexVectorDim := 1
  sliceSizes := ![1, 2048]
  wf := gather_S64x2048_S8x1_S8x2048_1_0_n_n_0_1_12048_wf
def gather_S64x4x2048_S8x1_S8x4x2048_12_0_n_n_0_1_142048 : GatherDims S64x4x2048 S8x1 S8x4x2048 where
  offsetDims := [1, 2]
  collapsedSliceDims := [0]
  operandBatchingDims := []
  startIndicesBatchingDims := []
  startIndexMap := [0]
  indexVectorDim := 1
  sliceSizes := ![1, 4, 2048]
  wf := gather_S64x4x2048_S8x1_S8x4x2048_12_0_n_n_0_1_142048_wf
def dot_S8x4x2048_S8x4096x2048_S8x4x8x4096_2_2_01_01_n_n : DotDims S8x4x2048 S8x4096x2048 S8x4x8x4096 where
  lhsContracting := [2]
  rhsContracting := [2]
  lhsNonContracting := [0, 1]
  rhsNonContracting := [0, 1]
  lhsBatch := []
  rhsBatch := []
  wf := dot_S8x4x2048_S8x4096x2048_S8x4x8x4096_2_2_01_01_n_n_wf
def gather_S64_S8x1_S8_n_0_n_n_0_1_1 : GatherDims S64 S8x1 S8 where
  offsetDims := []
  collapsedSliceDims := [0]
  operandBatchingDims := []
  startIndicesBatchingDims := []
  startIndexMap := [0]
  indexVectorDim := 1
  sliceSizes := ![1]
  wf := gather_S64_S8x1_S8_n_0_n_n_0_1_1_wf
def gather_S64x4_S8x1_S8x4_1_0_n_n_0_1_14 : GatherDims S64x4 S8x1 S8x4 where
  offsetDims := [1]
  collapsedSliceDims := [0]
  operandBatchingDims := []
  startIndicesBatchingDims := []
  startIndexMap := [0]
  indexVectorDim := 1
  sliceSizes := ![1, 4]
  wf := gather_S64x4_S8x1_S8x4_1_0_n_n_0_1_14_wf
def gather_S64x16x2048_S8x1_S8x16x2048_12_0_n_n_0_1_1162048 : GatherDims S64x16x2048 S8x1 S8x16x2048 where
  offsetDims := [1, 2]
  collapsedSliceDims := [0]
  operandBatchingDims := []
  startIndicesBatchingDims := []
  startIndexMap := [0]
  indexVectorDim := 1
  sliceSizes := ![1, 16, 2048]
  wf := gather_S64x16x2048_S8x1_S8x16x2048_12_0_n_n_0_1_1162048_wf
def dot_S8x16x2048_S8x4096x2048_S8x16x8x4096_2_2_01_01_n_n : DotDims S8x16x2048 S8x4096x2048 S8x16x8x4096 where
  lhsContracting := [2]
  rhsContracting := [2]
  lhsNonContracting := [0, 1]
  rhsNonContracting := [0, 1]
  lhsBatch := []
  rhsBatch := []
  wf := dot_S8x16x2048_S8x4096x2048_S8x16x8x4096_2_2_01_01_n_n_wf
def gather_S64x4x4_S8x1_S8x4x4_12_0_n_n_0_1_144 : GatherDims S64x4x4 S8x1 S8x4x4 where
  offsetDims := [1, 2]
  collapsedSliceDims := [0]
  operandBatchingDims := []
  startIndicesBatchingDims := []
  startIndexMap := [0]
  indexVectorDim := 1
  sliceSizes := ![1, 4, 4]
  wf := gather_S64x4x4_S8x1_S8x4x4_12_0_n_n_0_1_144_wf

class Facts : Prop extends Facts₀ where

variable [Facts]
-- ==== Proof.Spec.lean ====
/-
  The mathematics both programs compute, stated once over the extended reals and free of either program's text.

  One token is a row `x : Fin 4 → Fin 512 → EReal` (the four streams' slices of one position). Its mean square is
  folded into `rmsOf x = rsqrt (ssq x / 2048 + ε)`; a gate against one weight row `w` is the contraction `lin x w`
  scaled by `rmsOf x` and `α` and shifted by `β`. The pre gate is the logistic of it, the post gate twice the
  logistic, and the residual gate exponentiates sixteen such gates laid out as a 4×4 matrix and normalises its rows
  and columns alternately, six times.

  The kernel scales the finished contraction by `rmsOf x`; the reference scales every entry of the row first and
  contracts afterwards, and divides the sum of squares by 2048 where the kernel multiplies by 1/2048. On the
  extended reals the two agree because `rmsOf x` is always a nonnegative real number: a sum of squares is never
  negative, so the argument of the reciprocal square root is positive or `⊤`, and multiplication by a nonnegative
  real distributes over any extended-real sum.
-/
import Idealize.ShloMosaic.PureOps.Ideal
import Idealize.ShloMosaic.Lib.ValueIdx
import Mathlib.Data.EReal.Operations
import Mathlib.Algebra.BigOperators.Fin
import Mathlib.Logic.Equiv.Fin.Basic

noncomputable section

namespace Cert.Mhc

open Idealize.ShloMosaic

/-- The f32 word of 1/2048, the kernel's folded reciprocal. -/
abbrev cInv : EReal := Ideal.ofBits .f32 0x3A000000#32
/-- The f32 word of 2048, the reference's divisor. -/
abbrev cN : EReal := Ideal.ofBits .f32 0x45000000#32
/-- The f32 word nearest 1e-8, the same on both sides. -/
abbrev cEps : EReal := Ideal.ofBits .f32 0x322BCC77#32
/-- The f32 word of 2. -/
abbrev cTwo : EReal := Ideal.ofBits .f32 0x40000000#32

theorem cInv_eq : cInv = ((1 / 2048 : ℝ) : EReal) := by
  simp [cInv, Ideal.ofBits, Ideal.ieee, -EReal.coe_mul]; norm_num

theorem cN_eq : cN = ((2048 : ℝ) : EReal) := by
  simp [cN, Ideal.ofBits, Ideal.ieee, -EReal.coe_mul]; norm_num

/-- The epsilon is a positive real. -/
theorem cEps_pos : ∃ e : ℝ, 0 < e ∧ cEps = (e : EReal) := by
  refine ⟨_, ?_, by simp [cEps, Ideal.ofBits, Ideal.ieee, -EReal.coe_mul]; rfl⟩
  norm_num

/-! ## One token -/

/-- The sum of the squares of a token's 2048 entries, stream by stream. -/
def ssq (x : Fin 4 → Fin 512 → EReal) : EReal := ∑ i, ∑ d, x i d * x i d

/-- The token's reciprocal root mean square, in the kernel's spelling. -/
def rmsOf (x : Fin 4 → Fin 512 → EReal) : EReal := Ideal.rsqrt (ssq x * cInv + cEps)

/-- The contraction of a token with one weight row. -/
def lin (x w : Fin 4 → Fin 512 → EReal) : EReal := ∑ i, ∑ d, x i d * w i d

/-- One gate's argument: the contraction scaled by the reciprocal root mean square and by `α`, shifted by `β`. -/
def gate (x w : Fin 4 → Fin 512 → EReal) (α β : EReal) : EReal := lin x w * rmsOf x * α + β

def preVal (x w : Fin 4 → Fin 512 → EReal) (α β : EReal) : EReal := Ideal.logistic (gate x w α β)

def postVal (x w : Fin 4 → Fin 512 → EReal) (α β : EReal) : EReal := cTwo * Ideal.logistic (gate x w α β)

/-- Divide every entry by its row's sum. -/
def rowNorm (M : Fin 4 → Fin 4 → EReal) : Fin 4 → Fin 4 → EReal := fun p q => Ideal.div (M p q) (∑ q', M p q')

/-- Divide every entry by its column's sum. -/
def colNorm (M : Fin 4 → Fin 4 → EReal) : Fin 4 → Fin 4 → EReal := fun p q => Ideal.div (M p q) (∑ p', M p' q)

def sinkStep (M : Fin 4 → Fin 4 → EReal) : Fin 4 → Fin 4 → EReal := colNorm (rowNorm M)

/-- Six alternating normalisations. -/
def sink (M : Fin 4 → Fin 4 → EReal) : Fin 4 → Fin 4 → EReal :=
  sinkStep (sinkStep (sinkStep (sinkStep (sinkStep (sinkStep M)))))

def resVal (x : Fin 4 → Fin 512 → EReal) (w : Fin 4 → Fin 4 → Fin 4 → Fin 512 → EReal) (α : EReal)
    (β : Fin 4 → Fin 4 → EReal) : Fin 4 → Fin 4 → EReal :=
  sink fun p q => Ideal.exp (gate x (w p q) α (β p q))

/-! ## The reference's spelling of one token -/

/-- A token as the reference holds it: one row of 2048 entries, entry `D` the stream `D / 512`'s entry `D % 512`. -/
def flat (x : Fin 4 → Fin 512 → EReal) : Fin 2048 → EReal :=
  fun D => x ⟨D.val / 512, by have := D.isLt; omega⟩ ⟨D.val % 512, Nat.mod_lt _ (by norm_num)⟩

def ssqR (x1 : Fin 2048 → EReal) : EReal := ∑ D, x1 D * x1 D

def rmsR (x1 : Fin 2048 → EReal) : EReal := Ideal.rsqrt (Ideal.div (ssqR x1) cN + cEps)

/-- The reference's gate: every entry scaled first, the weight on the left of each product, `α` on the left. -/
def gateR (x1 w1 : Fin 2048 → EReal) (α β : EReal) : EReal := α * (∑ D, w1 D * (x1 D * rmsR x1)) + β

/-- A sum over the 2048 entries of a row is the double sum over stream and position. -/
theorem sum_flat (f : Fin 4 → Fin 512 → EReal) : (∑ D : Fin 2048, flat f D) = ∑ i, ∑ d, f i d := by
  rw [← Finset.sum_product', Finset.univ_product_univ]
  refine (Fintype.sum_equiv (finProdFinEquiv (m := 4) (n := 512)).symm _ _ fun D => ?_)
  simp only [flat, finProdFinEquiv, Equiv.coe_fn_symm_mk, Fin.divNat, Fin.modNat]

theorem mul_self_nonneg' (a : EReal) : 0 ≤ a * a := by
  induction a using EReal.rec with
  | bot => simp
  | coe r => rw [← EReal.coe_mul]; exact_mod_cast mul_self_nonneg r
  | top => simp

theorem ssq_nonneg (x : Fin 4 → Fin 512 → EReal) : 0 ≤ ssq x :=
  Finset.sum_nonneg fun _ _ => Finset.sum_nonneg fun _ _ => mul_self_nonneg' _

theorem ssqR_flat (x : Fin 4 → Fin 512 → EReal) : ssqR (flat x) = ssq x :=
  sum_flat fun i d => x i d * x i d

theorem rmsR_flat (x : Fin 4 → Fin 512 → EReal) : rmsR (flat x) = rmsOf x := by
  rw [rmsR, rmsOf, ssqR_flat, cN_eq, Ideal.div_coe (by norm_num : (2048 : ℝ) ≠ 0), cInv_eq]

/-- The reciprocal root mean square is a nonnegative real number, whatever the token holds. -/
theorem rmsOf_real (x : Fin 4 → Fin 512 → EReal) : ∃ r : ℝ, 0 ≤ r ∧ rmsOf x = (r : EReal) := by
  obtain ⟨e, he, hE⟩ := cEps_pos
  have hs := ssq_nonneg x
  rw [rmsOf, cInv_eq, hE]
  induction hx : ssq x using EReal.rec with
  | bot => rw [hx] at hs; simp at hs
  | top =>
    refine ⟨0, le_rfl, ?_⟩
    rw [EReal.top_mul_of_pos (by exact_mod_cast (by norm_num : (0 : ℝ) < 1 / 2048)), EReal.top_add_coe]
    rfl
  | coe s =>
    rw [hx] at hs
    have hs' : 0 ≤ s := by exact_mod_cast hs
    have hpos : 0 < s * (1 / 2048) + e := by positivity
    refine ⟨(Real.sqrt (s * (1 / 2048) + e))⁻¹, by positivity, ?_⟩
    rw [← EReal.coe_mul, ← EReal.coe_add, Ideal.rsqrt_coe, if_neg (not_lt.mpr hpos.le), if_neg hpos.ne']

/-- Multiplication by a nonnegative real on the right distributes over a finite sum of extended reals. -/
theorem sum_mul_real {ι : Type*} (s : Finset ι) (f : ι → EReal) (r : ℝ) (hr : 0 ≤ r) :
    (∑ a ∈ s, f a) * (r : EReal) = ∑ a ∈ s, f a * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- The reference's gate of a flattened token and weight row is the kernel's gate. -/
theorem gateR_flat (x w : Fin 4 → Fin 512 → EReal) (α β : EReal) :
    gateR (flat x) (flat w) α β = gate x w α β := by
  obtain ⟨r, hr, hrms⟩ := rmsOf_real x
  rw [gateR, gate, rmsR_flat, hrms]
  congr 1
  rw [mul_comm α]
  congr 1
  have h : (fun D => flat w D * (flat x D * (r : EReal))) = flat fun i d => x i d * w i d * (r : EReal) := by
    funext D; simp only [flat]; rw [mul_comm (w _ _), mul_assoc, mul_comm (r : EReal), ← mul_assoc]
  rw [h, sum_flat, lin, sum_mul_real _ _ r hr]
  exact Finset.sum_congr rfl fun i _ => (sum_mul_real _ _ r hr).symm

/-! ## The three results as whole arrays

`X` is the stream [8, 4, 4096, 512] (batch, stream, position, entry); `W` a stack of selected, norm-scaled weight
rows [8, n, 2048] (selected expert, gate channel, entry); `A` the selected experts' scales [8]; `Bv` / `Bm` their
biases [8, 4] / [8, 4, 4]. Result index: selected expert, batch, position, channel (and a second channel). -/

open Idealize.ShloMosaic.ValueIdx

/-- Token (batch `b`, position `t`) of the stream. -/
def xRow (X : (⟨4, ![8, 4, 4096, 512]⟩ : Shape).Idx → EReal) (b : Fin 8) (t : Fin 4096) : Fin 4 → Fin 512 → EReal :=
  fun i d => X (ix4 b i t d)

/-- Weight row (expert `k`, channel `j`), its 2048 entries split by stream. -/
def wRow {n : Nat} (W : (⟨3, ![8, n, 2048]⟩ : Shape).Idx → EReal) (k : Fin 8) (j : Fin n) : Fin 4 → Fin 512 → EReal :=
  fun i d => W (ix3 k j ⟨512 * i.val + d.val, by have := i.isLt; have := d.isLt; omega⟩)

/-- A weight row read flat is the weight array's own row. -/
theorem flat_wRow {n : Nat} (W : (⟨3, ![8, n, 2048]⟩ : Shape).Idx → EReal) (k : Fin 8) (j : Fin n) (D : Fin 2048) :
    flat (wRow W k j) D = W (ix3 k j D) := by
  simp only [flat, wRow]
  congr 2
  apply Fin.ext
  show 512 * (D.val / 512) + D.val % 512 = D.val
  exact Nat.div_add_mod D.val 512

/-- A token read flat is the stream read at stream `D / 512`, entry `D % 512`. -/
theorem flat_xRow (X : (⟨4, ![8, 4, 4096, 512]⟩ : Shape).Idx → EReal) (b : Fin 8) (t : Fin 4096) (D : Fin 2048) :
    flat (xRow X b t) D
      = X (ix4 b ⟨D.val / 512, by have := D.isLt; omega⟩ t ⟨D.val % 512, Nat.mod_lt _ (by norm_num)⟩) := rfl

/-- Channel `(p, q)` of the residual gate is row `4 p + q` of its sixteen weight rows. -/
def ch16 (p q : Fin 4) : Fin 16 := ⟨4 * p.val + q.val, by have := p.isLt; have := q.isLt; omega⟩

def GPre (X : (⟨4, ![8, 4, 4096, 512]⟩ : Shape).Idx → EReal) (W : (⟨3, ![8, 4, 2048]⟩ : Shape).Idx → EReal)
    (A : (⟨1, ![8]⟩ : Shape).Idx → EReal) (Bv : (⟨2, ![8, 4]⟩ : Shape).Idx → EReal) :
    (⟨4, ![8, 8, 4096, 4]⟩ : Shape).Idx → EReal :=
  fun y => preVal (xRow X (y 1) (y 2)) (wRow W (y 0) (y 3)) (A (ix1 (y 0))) (Bv (ix2 (y 0) (y 3)))

def GPost (X : (⟨4, ![8, 4, 4096, 512]⟩ : Shape).Idx → EReal) (W : (⟨3, ![8, 4, 2048]⟩ : Shape).Idx → EReal)
    (A : (⟨1, ![8]⟩ : Shape).Idx → EReal) (Bv : (⟨2, ![8, 4]⟩ : Shape).Idx → EReal) :
    (⟨4, ![8, 8, 4096, 4]⟩ : Shape).Idx → EReal :=
  fun y => postVal (xRow X (y 1) (y 2)) (wRow W (y 0) (y 3)) (A (ix1 (y 0))) (Bv (ix2 (y 0) (y 3)))

def GRes (X : (⟨4, ![8, 4, 4096, 512]⟩ : Shape).Idx → EReal) (W : (⟨3, ![8, 16, 2048]⟩ : Shape).Idx → EReal)
    (A : (⟨1, ![8]⟩ : Shape).Idx → EReal) (Bm : (⟨3, ![8, 4, 4]⟩ : Shape).Idx → EReal) :
    (⟨5, ![8, 8, 4096, 4, 4]⟩ : Shape).Idx → EReal :=
  fun y => resVal (xRow X (y 1) (y 2)) (fun p q => wRow W (y 0) (ch16 p q)) (A (ix1 (y 0)))
    (fun p q => Bm (ix3 (y 0) p q)) (y 3) (y 4)

end Cert.Mhc

end
-- ==== Proof.KCore.lean ====
/-
  The kernel body's two reductions over a token, read at an index of the block (at the ideal instance).

  A stream block holds, for each of 1024 positions, the four streams' 512 entries. The body adds the four streams'
  sums of squares into one vector of 1024 sums, and adds the four streams' partial products against the matching 512
  columns of each weight row into one accumulator per gate; both start from zero. Read at position `r` (and channel
  `j`) these are the token's sum of squares and its contraction with weight row `j`.
-/
import proofs.«119140_j39831526703216_1_alg».proof.Proof.Gen.KernelIdeal.Frame
import proofs.«119140_j39831526703216_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.TcCoe Idealize.ShloMosaic.ValueIdx

/-- Token `r` of a stream block: stream `i`, entry `d`. -/
abbrev tok (x0 : Vec Ideal S1x4x1024x512 .f32) (r : Fin 1024) : Fin 4 → Fin 512 → EReal :=
  fun i d => x0 (ix4 (0 : Fin 1) i r d)

/-- Row `j` of a block of `n` weight rows, its 2048 entries split by stream. -/
abbrev wrow {n : Nat} (w : (⟨3, ![1, n, 2048]⟩ : Shape).Idx → EReal) (j : Fin n) : Fin 4 → Fin 512 → EReal :=
  fun i d => w (ix3 (0 : Fin 1) j ⟨512 * i.val + d.val, by have := i.isLt; have := d.isLt; omega⟩)

/-! ## The loads -/

/-- Stream 0's window reads stream 0 of the block. -/
private theorem ld0_at (x0 : Vec Ideal S1x4x1024x512 .f32) (r : Fin 1024) (d : Fin 512) :
    View.ld x0 r0_2 (ix4 (0 : Fin 1) (0 : Fin 1) r d) = x0 (ix4 (0 : Fin 1) (0 : Fin 4) r d) := by
  show x0 _ = x0 _
  refine congrArg x0 (funext fun a => Fin.ext ?_)
  match a with
  | ⟨0, _⟩ => rfl
  | ⟨1, _⟩ => rfl
  | ⟨2, _⟩ => show 0 + 1 * r.val = r.val; omega
  | ⟨3, _⟩ => show 0 + 1 * d.val = d.val; omega

/-- Stream 1's window reads stream 1 of the block. -/
private theorem ld1_at (x0 : Vec Ideal S1x4x1024x512 .f32) (r : Fin 1024) (d : Fin 512) :
    View.ld x0 r0_3 (ix4 (0 : Fin 1) (0 : Fin 1) r d) = x0 (ix4 (0 : Fin 1) (1 : Fin 4) r d) := by
  show x0 _ = x0 _
  refine congrArg x0 (funext fun a => Fin.ext ?_)
  match a with
  | ⟨0, _⟩ => rfl
  | ⟨1, _⟩ => rfl
  | ⟨2, _⟩ => show 0 + 1 * r.val = r.val; omega
  | ⟨3, _⟩ => show 0 + 1 * d.val = d.val; omega

/-- Stream 2's window reads stream 2 of the block. -/
private theorem ld2_at (x0 : Vec Ideal S1x4x1024x512 .f32) (r : Fin 1024) (d : Fin 512) :
    View.ld x0 r0_4 (ix4 (0 : Fin 1) (0 : Fin 1) r d) = x0 (ix4 (0 : Fin 1) (2 : Fin 4) r d) := by
  show x0 _ = x0 _
  refine congrArg x0 (funext fun a => Fin.ext ?_)
  match a with
  | ⟨0, _⟩ => rfl
  | ⟨1, _⟩ => rfl
  | ⟨2, _⟩ => show 0 + 1 * r.val = r.val; omega
  | ⟨3, _⟩ => show 0 + 1 * d.val = d.val; omega

/-- Stream 3's window reads stream 3 of the block. -/
private theorem ld3_at (x0 : Vec Ideal S1x4x1024x512 .f32) (r : Fin 1024) (d : Fin 512) :
    View.ld x0 r0_5 (ix4 (0 : Fin 1) (0 : Fin 1) r d) = x0 (ix4 (0 : Fin 1) (3 : Fin 4) r d) := by
  show x0 _ = x0 _
  refine congrArg x0 (funext fun a => Fin.ext ?_)
  match a with
  | ⟨0, _⟩ => rfl
  | ⟨1, _⟩ => rfl
  | ⟨2, _⟩ => show 0 + 1 * r.val = r.val; omega
  | ⟨3, _⟩ => show 0 + 1 * d.val = d.val; omega

/-- A stream's window viewed as a [1024, 512] block. -/
private theorem cast_at (v : Vec Ideal S1x1x1024x512 .f32) (r : Fin 1024) (d : Fin 512) :
    shapeCast S1024x512 v shapeCasts_S1x1x1024x512_S1024x512 (ix2 r d) = v (ix4 (0 : Fin 1) (0 : Fin 1) r d) :=
  shapeCast_apply v _ _ _ (by
    rw [Shape.rowMajor_val_four, Shape.rowMajor_val_two]
    show ((0 * 1 + 0) * 1024 + r.val) * 512 + d.val = r.val * 512 + d.val
    omega)

/-- The block of four weight rows viewed as a [4, 2048] matrix. -/
private theorem w4_at (x : Vec Ideal S1x4x2048 .bf16) (j : Fin 4) (c : Fin 2048) :
    shapeCast S4x2048 (View.ld x r0_0) shapeCasts_S1x4x2048_S4x2048 (ix2 j c) = x (ix3 (0 : Fin 1) j c) := by
  refine (shapeCast_1ab_ab_apply (View.ld x r0_0) shapeCasts_S1x4x2048_S4x2048 j c).trans ?_
  show x _ = x _
  refine congrArg x (funext fun a => Fin.ext ?_)
  match a with
  | ⟨0, _⟩ => rfl
  | ⟨1, _⟩ => show 0 + 1 * j.val = j.val; omega
  | ⟨2, _⟩ => show 0 + 1 * c.val = c.val; omega

/-- The block of sixteen weight rows viewed as a [16, 2048] matrix. -/
private theorem w16_at (x : Vec Ideal S1x16x2048 .bf16) (j : Fin 16) (c : Fin 2048) :
    shapeCast S16x2048 (View.ld x r0_1) shapeCasts_S1x16x2048_S16x2048 (ix2 j c) = x (ix3 (0 : Fin 1) j c) := by
  refine (shapeCast_1ab_ab_apply (View.ld x r0_1) shapeCasts_S1x16x2048_S16x2048 j c).trans ?_
  show x _ = x _
  refine congrArg x (funext fun a => Fin.ext ?_)
  match a with
  | ⟨0, _⟩ => rfl
  | ⟨1, _⟩ => show 0 + 1 * j.val = j.val; omega
  | ⟨2, _⟩ => show 0 + 1 * c.val = c.val; omega

/-! ## A lane sum of squares -/

/-- The lane sum of the squares of a [1024, 512] block, at row `r`. -/
private theorem laneSq_at (b : FVec Ideal S1024x512 .f32) (r : Fin 1024) :
    multiReduction (F := Ideal) .add [1] S1024 (mulf b b) 0x00000000#32 reduces_S1024x512_S1024 (.inl rfl) rfl (ix1 r)
      = ∑ d : Fin 512, b (ix2 r d) * b (ix2 r d) := by
  refine (Ideal.multiReduction_add_single (mulf b b) 0x00000000#32 reduces_S1024x512_S1024 (.inl rfl) rfl (ix1 r)).trans ?_
  refine Finset.sum_congr rfl fun d _ => ?_
  have e : reduces_S1024x512_S1024.lift (ix1 r) d = ix2 r d := by
    funext a; apply Fin.ext
    match a with
    | ⟨0, _⟩ => rfl
    | ⟨1, _⟩ => rfl
  rw [e]; rfl

/-- Stream `i`'s share of the sum of squares. -/
private theorem sq_term (x0 : Vec Ideal S1x4x1024x512 .f32) (v : Vec Ideal S1x1x1024x512 .f32) (i : Fin 4) (r : Fin 1024)
    (hv : ∀ d, v (ix4 (0 : Fin 1) (0 : Fin 1) r d) = x0 (ix4 (0 : Fin 1) i r d)) :
    multiReduction (F := Ideal) .add [1] S1024
        (mulf (shapeCast S1024x512 v shapeCasts_S1x1x1024x512_S1024x512)
          (shapeCast S1024x512 v shapeCasts_S1x1x1024x512_S1024x512))
        0x00000000#32 reduces_S1024x512_S1024 (.inl rfl) rfl (ix1 r)
      = ∑ d : Fin 512, tok x0 r i d * tok x0 r i d := by
  refine (laneSq_at _ r).trans (Finset.sum_congr rfl fun d _ => ?_)
  rw [cast_at, hv]

/-! ## One stream's partial product -/

/-- The product's operand indices at output (r, j) and contraction position k: the left operand is read at (r, k) and
    the right one at (k, j). One coordinate each. -/
private theorem lhs4_0 (i : S1024x4.Idx) (k : dot_S1024x512_S512x4_S1024x4_1_0_0_1_n_n.contr.Idx) :
    (dot_S1024x512_S512x4_S1024x4_1_0_0_1_n_n.lhsIdx i k 0).val = (i 0).val := by
  simp [DotDims.lhsIdx, dot_S1024x512_S512x4_S1024x4_1_0_0_1_n_n]; rfl

private theorem lhs4_1 (i : S1024x4.Idx) (k : dot_S1024x512_S512x4_S1024x4_1_0_0_1_n_n.contr.Idx) :
    (dot_S1024x512_S512x4_S1024x4_1_0_0_1_n_n.lhsIdx i k 1).val = (k ⟨0, by decide⟩).val :=
  DotDims.lhsIdx_val_of_single _ rfl i k

private theorem rhs4_0 (i : S1024x4.Idx) (k : dot_S1024x512_S512x4_S1024x4_1_0_0_1_n_n.contr.Idx) :
    (dot_S1024x512_S512x4_S1024x4_1_0_0_1_n_n.rhsIdx i k 0).val = (k ⟨0, by decide⟩).val :=
  DotDims.rhsIdx_val_of_single _ rfl i k

private theorem rhs4_1 (i : S1024x4.Idx) (k : dot_S1024x512_S512x4_S1024x4_1_0_0_1_n_n.contr.Idx) :
    (dot_S1024x512_S512x4_S1024x4_1_0_0_1_n_n.rhsIdx i k 1).val = (i 1).val := by
  simp [DotDims.rhsIdx, dot_S1024x512_S512x4_S1024x4_1_0_0_1_n_n]; rfl

/-- One stream's partial product: a [1024, 512] block against the transpose of 512 columns, from column `o`, of a
    block of 4 weight rows, into a zero accumulator, is at (r, j) the sum over the 512 entries. -/
private theorem mm4_at (a : FVec Ideal S1024x512 .bf16) (w : FVec Ideal S4x2048 .bf16) (o : Nat) (ho : o + 512 ≤ 2048)
    (h : S4x2048.Slices ![0, o] S4x512) (r : Fin 1024) (j : Fin 4) :
    matmul dot_S1024x512_S512x4_S1024x4_1_0_0_1_n_n none a
        (transpose S512x4 [1, 0] (extractStridedSlice S4x512 ![0, o] w h) transposes_S4x512_p1_0_S512x4)
        (constant S1024x4 .f32 0x00000000#32) (ix2 r j)
      = ∑ d : Fin 512, a (ix2 r d) * w (ix2 j ⟨o + d.val, by have := d.isLt; omega⟩) := by
  refine (Ideal.matmul_constant_zero_apply dot_S1024x512_S512x4_S1024x4_1_0_0_1_n_n none a _ (ix2 r j)).trans ?_
  rw [← Equiv.sum_comp (contrEquiv1 dot_S1024x512_S512x4_S1024x4_1_0_0_1_n_n 512 rfl rfl).symm]
  refine Finset.sum_congr rfl fun d _ => ?_
  have hk := contrEquiv1_symm_val dot_S1024x512_S512x4_S1024x4_1_0_0_1_n_n 512 rfl rfl d
  have hl : dot_S1024x512_S512x4_S1024x4_1_0_0_1_n_n.lhsIdx (ix2 r j) ((contrEquiv1 dot_S1024x512_S512x4_S1024x4_1_0_0_1_n_n 512 rfl rfl).symm d) = ix2 r d := by
    funext ax; apply Fin.ext
    match ax with
    | ⟨0, _⟩ => exact lhs4_0 _ _
    | ⟨1, _⟩ => exact (lhs4_1 _ _).trans hk
  have hr : dot_S1024x512_S512x4_S1024x4_1_0_0_1_n_n.rhsIdx (ix2 r j) ((contrEquiv1 dot_S1024x512_S512x4_S1024x4_1_0_0_1_n_n 512 rfl rfl).symm d) = ix2 d j := by
    funext ax; apply Fin.ext
    match ax with
    | ⟨0, _⟩ => exact (rhs4_0 _ _).trans hk
    | ⟨1, _⟩ => exact rhs4_1 _ _
  rw [hl, hr]
  refine congrArg (a (ix2 r d) * ·) ?_
  refine (transpose_apply [1, 0] _ transposes_S4x512_p1_0_S512x4 (ix2 d j) (ix2 j d)
    (fun b => match b with | ⟨0, _⟩ => rfl | ⟨1, _⟩ => rfl)).trans ?_
  exact extractStridedSlice_apply ![0, o] w h (ix2 j d) (ix2 j ⟨o + d.val, by have := d.isLt; omega⟩)
    (fun b => match b with
      | ⟨0, _⟩ => by show j.val = 0 + j.val; omega
      | ⟨1, _⟩ => rfl)

/-- The same with the block's entries and the weight rows' entries named: stream `i`'s share of the contraction. -/
private theorem term4 (a : FVec Ideal S1024x512 .bf16) (W : FVec Ideal S4x2048 .bf16) (x0 : Vec Ideal S1x4x1024x512 .f32)
    (x : Vec Ideal S1x4x2048 .bf16) (i : Fin 4) (o : Nat) (ho : o = 512 * i.val) (h : S4x2048.Slices ![0, o] S4x512)
    (r : Fin 1024) (j : Fin 4) (ha : ∀ d, a (ix2 r d) = x0 (ix4 (0 : Fin 1) i r d))
    (hW : ∀ c, W (ix2 j c) = x (ix3 (0 : Fin 1) j c)) :
    matmul dot_S1024x512_S512x4_S1024x4_1_0_0_1_n_n none a
        (transpose S512x4 [1, 0] (extractStridedSlice S4x512 ![0, o] W h) transposes_S4x512_p1_0_S512x4)
        (constant S1024x4 .f32 0x00000000#32) (ix2 r j)
      = ∑ d : Fin 512, tok x0 r i d * wrow x j i d := by
  subst ho
  refine (mm4_at a W _ (by have := i.isLt; omega) h r j).trans (Finset.sum_congr rfl fun d _ => ?_)
  rw [ha, hW]

/-- The product's operand indices at output (r, j) and contraction position k: the left operand is read at (r, k) and
    the right one at (k, j). One coordinate each. -/
private theorem lhs16_0 (i : S1024x16.Idx) (k : dot_S1024x512_S512x16_S1024x16_1_0_0_1_n_n.contr.Idx) :
    (dot_S1024x512_S512x16_S1024x16_1_0_0_1_n_n.lhsIdx i k 0).val = (i 0).val := by
  simp [DotDims.lhsIdx, dot_S1024x512_S512x16_S1024x16_1_0_0_1_n_n]; rfl

private theorem lhs16_1 (i : S1024x16.Idx) (k : dot_S1024x512_S512x16_S1024x16_1_0_0_1_n_n.contr.Idx) :
    (dot_S1024x512_S512x16_S1024x16_1_0_0_1_n_n.lhsIdx i k 1).val = (k ⟨0, by decide⟩).val :=
  DotDims.lhsIdx_val_of_single _ rfl i k

private theorem rhs16_0 (i : S1024x16.Idx) (k : dot_S1024x512_S512x16_S1024x16_1_0_0_1_n_n.contr.Idx) :
    (dot_S1024x512_S512x16_S1024x16_1_0_0_1_n_n.rhsIdx i k 0).val = (k ⟨0, by decide⟩).val :=
  DotDims.rhsIdx_val_of_single _ rfl i k

private theorem rhs16_1 (i : S1024x16.Idx) (k : dot_S1024x512_S512x16_S1024x16_1_0_0_1_n_n.contr.Idx) :
    (dot_S1024x512_S512x16_S1024x16_1_0_0_1_n_n.rhsIdx i k 1).val = (i 1).val := by
  simp [DotDims.rhsIdx, dot_S1024x512_S512x16_S1024x16_1_0_0_1_n_n]; rfl

/-- One stream's partial product: a [1024, 512] block against the transpose of 512 columns, from column `o`, of a
    block of 16 weight rows, into a zero accumulator, is at (r, j) the sum over the 512 entries. -/
private theorem mm16_at (a : FVec Ideal S1024x512 .bf16) (w : FVec Ideal S16x2048 .bf16) (o : Nat) (ho : o + 512 ≤ 2048)
    (h : S16x2048.Slices ![0, o] S16x512) (r : Fin 1024) (j : Fin 16) :
    matmul dot_S1024x512_S512x16_S1024x16_1_0_0_1_n_n none a
        (transpose S512x16 [1, 0] (extractStridedSlice S16x512 ![0, o] w h) transposes_S16x512_p1_0_S512x16)
        (constant S1024x16 .f32 0x00000000#32) (ix2 r j)
      = ∑ d : Fin 512, a (ix2 r d) * w (ix2 j ⟨o + d.val, by have := d.isLt; omega⟩) := by
  refine (Ideal.matmul_constant_zero_apply dot_S1024x512_S512x16_S1024x16_1_0_0_1_n_n none a _ (ix2 r j)).trans ?_
  rw [← Equiv.sum_comp (contrEquiv1 dot_S1024x512_S512x16_S1024x16_1_0_0_1_n_n 512 rfl rfl).symm]
  refine Finset.sum_congr rfl fun d _ => ?_
  have hk := contrEquiv1_symm_val dot_S1024x512_S512x16_S1024x16_1_0_0_1_n_n 512 rfl rfl d
  have hl : dot_S1024x512_S512x16_S1024x16_1_0_0_1_n_n.lhsIdx (ix2 r j) ((contrEquiv1 dot_S1024x512_S512x16_S1024x16_1_0_0_1_n_n 512 rfl rfl).symm d) = ix2 r d := by
    funext ax; apply Fin.ext
    match ax with
    | ⟨0, _⟩ => exact lhs16_0 _ _
    | ⟨1, _⟩ => exact (lhs16_1 _ _).trans hk
  have hr : dot_S1024x512_S512x16_S1024x16_1_0_0_1_n_n.rhsIdx (ix2 r j) ((contrEquiv1 dot_S1024x512_S512x16_S1024x16_1_0_0_1_n_n 512 rfl rfl).symm d) = ix2 d j := by
    funext ax; apply Fin.ext
    match ax with
    | ⟨0, _⟩ => exact (rhs16_0 _ _).trans hk
    | ⟨1, _⟩ => exact rhs16_1 _ _
  rw [hl, hr]
  refine congrArg (a (ix2 r d) * ·) ?_
  refine (transpose_apply [1, 0] _ transposes_S16x512_p1_0_S512x16 (ix2 d j) (ix2 j d)
    (fun b => match b with | ⟨0, _⟩ => rfl | ⟨1, _⟩ => rfl)).trans ?_
  exact extractStridedSlice_apply ![0, o] w h (ix2 j d) (ix2 j ⟨o + d.val, by have := d.isLt; omega⟩)
    (fun b => match b with
      | ⟨0, _⟩ => by show j.val = 0 + j.val; omega
      | ⟨1, _⟩ => rfl)

/-- The same with the block's entries and the weight rows' entries named: stream `i`'s share of the contraction. -/
private theorem term16 (a : FVec Ideal S1024x512 .bf16) (W : FVec Ideal S16x2048 .bf16) (x0 : Vec Ideal S1x4x1024x512 .f32)
    (x : Vec Ideal S1x16x2048 .bf16) (i : Fin 4) (o : Nat) (ho : o = 512 * i.val) (h : S16x2048.Slices ![0, o] S16x512)
    (r : Fin 1024) (j : Fin 16) (ha : ∀ d, a (ix2 r d) = x0 (ix4 (0 : Fin 1) i r d))
    (hW : ∀ c, W (ix2 j c) = x (ix3 (0 : Fin 1) j c)) :
    matmul dot_S1024x512_S512x16_S1024x16_1_0_0_1_n_n none a
        (transpose S512x16 [1, 0] (extractStridedSlice S16x512 ![0, o] W h) transposes_S16x512_p1_0_S512x16)
        (constant S1024x16 .f32 0x00000000#32) (ix2 r j)
      = ∑ d : Fin 512, tok x0 r i d * wrow x j i d := by
  subst ho
  refine (mm16_at a W _ (by have := i.isLt; omega) h r j).trans (Finset.sum_congr rfl fun d _ => ?_)
  rw [ha, hW]

/-- A truncated stream block's entries are the stream's. -/
private theorem blk_at (x0 : Vec Ideal S1x4x1024x512 .f32) (v : Vec Ideal S1x1x1024x512 .f32) (i : Fin 4) (r : Fin 1024)
    (hv : ∀ d, v (ix4 (0 : Fin 1) (0 : Fin 1) r d) = x0 (ix4 (0 : Fin 1) i r d)) (d : Fin 512) :
    (truncf .bf16 (shapeCast S1024x512 v shapeCasts_S1x1x1024x512_S1024x512) bitsLt_bf16_f32 : FVec Ideal S1024x512 .bf16)
      (ix2 r d) = x0 (ix4 (0 : Fin 1) i r d) :=
  (cast_at v r d).trans (hv d)

/-! ## The four accumulators -/

/-- The body's vector of sums of squares at position `r`. -/
theorem ss_at (x0 : Vec Ideal S1x4x1024x512 .f32) (r : Fin 1024) :
    k0_pay19 (k0_pay6 (View.ld x0 r0_2)) (k0_pay12 (View.ld x0 r0_3)) (View.ld x0 r0_4) (View.ld x0 r0_5) (ix1 r)
      = Mhc.ssq (tok x0 r) := by
  have s0 := sq_term x0 (View.ld x0 r0_2) 0 r (ld0_at x0 r)
  have s1 := sq_term x0 (View.ld x0 r0_3) 1 r (ld1_at x0 r)
  have s2 := sq_term x0 (View.ld x0 r0_4) 2 r (ld2_at x0 r)
  have s3 := sq_term x0 (View.ld x0 r0_5) 3 r (ld3_at x0 r)
  refine (congrArg₂ (· + ·) (congrArg₂ (· + ·) (congrArg₂ (· + ·)
    (congrArg (Ideal.ofBits .f32 0x00000000#32 + ·) s0) s1) s2) s3).trans ?_
  rw [Ideal.ofBits_zero_f32, zero_add, Mhc.ssq, Fin.sum_univ_four]

/-- The pre gate's accumulator at position `r`, channel `j`. -/
theorem accPre_at (x0 : Vec Ideal S1x4x1024x512 .f32) (x1 : Vec Ideal S1x4x2048 .bf16) (r : Fin 1024) (j : Fin 4) :
    k0_pay21 (k0_pay2 (View.ld x1 r0_0)) (k0_pay8 (View.ld x1 r0_0) (View.ld x0 r0_2)) (k0_pay11 (View.ld x0 r0_3))
        (View.ld x0 r0_4) (View.ld x0 r0_5) (ix2 r j)
      = Mhc.lin (tok x0 r) (wrow x1 j) := by
  have hW := w4_at x1 j
  have m0 := term4 _ _ x0 x1 0 0 rfl slices_S4x2048_o0_0_S4x512 r j (blk_at x0 (View.ld x0 r0_2) 0 r (ld0_at x0 r)) hW
  have m1 := term4 _ _ x0 x1 1 512 rfl slices_S4x2048_o0_512_S4x512 r j (blk_at x0 (View.ld x0 r0_3) 1 r (ld1_at x0 r)) hW
  have m2 := term4 _ _ x0 x1 2 1024 rfl slices_S4x2048_o0_1024_S4x512 r j (blk_at x0 (View.ld x0 r0_4) 2 r (ld2_at x0 r)) hW
  have m3 := term4 _ _ x0 x1 3 1536 rfl slices_S4x2048_o0_1536_S4x512 r j (blk_at x0 (View.ld x0 r0_5) 3 r (ld3_at x0 r)) hW
  refine (congrArg₂ (· + ·) (congrArg₂ (· + ·) (congrArg₂ (· + ·)
    (congrArg (Ideal.ofBits .f32 0x00000000#32 + ·) m0) m1) m2) m3).trans ?_
  rw [Ideal.ofBits_zero_f32, zero_add, Mhc.lin, Fin.sum_univ_four]

/-- The post gate's accumulator at position `r`, channel `j`. -/
theorem accPost_at (x0 : Vec Ideal S1x4x1024x512 .f32) (x2 : Vec Ideal S1x4x2048 .bf16) (r : Fin 1024) (j : Fin 4) :
    k0_pay22 (k0_pay3 (View.ld x2 r0_0))
        (k0_pay16 (k0_pay3 (View.ld x2 r0_0)) (k0_pay9 (View.ld x2 r0_0) (View.ld x0 r0_2)) (k0_pay11 (View.ld x0 r0_3))
          (View.ld x0 r0_4))
        (k0_pay20 (View.ld x0 r0_5)) (ix2 r j)
      = Mhc.lin (tok x0 r) (wrow x2 j) := by
  have hW := w4_at x2 j
  have m0 := term4 _ _ x0 x2 0 0 rfl slices_S4x2048_o0_0_S4x512 r j (blk_at x0 (View.ld x0 r0_2) 0 r (ld0_at x0 r)) hW
  have m1 := term4 _ _ x0 x2 1 512 rfl slices_S4x2048_o0_512_S4x512 r j (blk_at x0 (View.ld x0 r0_3) 1 r (ld1_at x0 r)) hW
  have m2 := term4 _ _ x0 x2 2 1024 rfl slices_S4x2048_o0_1024_S4x512 r j (blk_at x0 (View.ld x0 r0_4) 2 r (ld2_at x0 r)) hW
  have m3 := term4 _ _ x0 x2 3 1536 rfl slices_S4x2048_o0_1536_S4x512 r j (blk_at x0 (View.ld x0 r0_5) 3 r (ld3_at x0 r)) hW
  refine (congrArg₂ (· + ·) (congrArg₂ (· + ·) (congrArg₂ (· + ·)
    (congrArg (Ideal.ofBits .f32 0x00000000#32 + ·) m0) m1) m2) m3).trans ?_
  rw [Ideal.ofBits_zero_f32, zero_add, Mhc.lin, Fin.sum_univ_four]

/-- The residual gate's accumulator at position `r`, channel `j` of sixteen. -/
theorem accRes_at (x0 : Vec Ideal S1x4x1024x512 .f32) (x3 : Vec Ideal S1x16x2048 .bf16) (r : Fin 1024) (j : Fin 16) :
    k0_pay23 (k0_pay4 (View.ld x3 r0_1))
        (k0_pay17 (k0_pay4 (View.ld x3 r0_1)) (k0_pay10 (View.ld x3 r0_1) (View.ld x0 r0_2)) (k0_pay11 (View.ld x0 r0_3))
          (View.ld x0 r0_4))
        (k0_pay20 (View.ld x0 r0_5)) (ix2 r j)
      = Mhc.lin (tok x0 r) (wrow x3 j) := by
  have hW := w16_at x3 j
  have m0 := term16 _ _ x0 x3 0 0 rfl slices_S16x2048_o0_0_S16x512 r j (blk_at x0 (View.ld x0 r0_2) 0 r (ld0_at x0 r)) hW
  have m1 := term16 _ _ x0 x3 1 512 rfl slices_S16x2048_o0_512_S16x512 r j (blk_at x0 (View.ld x0 r0_3) 1 r (ld1_at x0 r)) hW
  have m2 := term16 _ _ x0 x3 2 1024 rfl slices_S16x2048_o0_1024_S16x512 r j (blk_at x0 (View.ld x0 r0_4) 2 r (ld2_at x0 r)) hW
  have m3 := term16 _ _ x0 x3 3 1536 rfl slices_S16x2048_o0_1536_S16x512 r j (blk_at x0 (View.ld x0 r0_5) 3 r (ld3_at x0 r)) hW
  refine (congrArg₂ (· + ·) (congrArg₂ (· + ·) (congrArg₂ (· + ·)
    (congrArg (Ideal.ofBits .f32 0x00000000#32 + ·) m0) m1) m2) m3).trans ?_
  rw [Ideal.ofBits_zero_f32, zero_add, Mhc.lin, Fin.sum_univ_four]

end Cert.KernelIdeal.Pay

end
-- ==== Proof.KGate.lean ====
/-
  What the kernel body leaves in each output block, read at an index (at the ideal instance).

  After the reductions, position `r` of the block is finished independently of the others: its accumulators are
  scaled by the reciprocal root mean square of its token and by the expert's scale, the bias is added, and the result
  is passed through the logistic (pre), twice the logistic (post), or the exponential followed by six alternating
  row and column normalisations of the position's 4×4 matrix (residual).
-/
import proofs.«119140_j39831526703216_1_alg».proof.Proof.KCore

noncomputable section

namespace Cert.KernelIdeal.Pay

open Cert.KernelIdeal Cert.KernelIdeal.Gen Idealize.ShloMosaic Idealize.ShloMosaic.TcCoe Idealize.ShloMosaic.ValueIdx

/-! ## Whole-block accesses -/

private theorem zeros3 : (![0, 0, 0] : Fin 3 → Nat) = fun _ => 0 := funext fun a => by fin_cases a <;> rfl
private theorem zeros4 : (![0, 0, 0, 0] : Fin 4 → Nat) = fun _ => 0 := funext fun a => by fin_cases a <;> rfl
private theorem zeros5 : (![0, 0, 0, 0, 0] : Fin 5 → Nat) = fun _ => 0 := funext fun a => by fin_cases a <;> rfl

/-! ## The scale and the biases at an index -/

/-- The column of reciprocal root mean squares at position `r`. -/
private theorem rms_at (ss : FVec Ideal S1024 .f32) (r : Fin 1024) :
    k0_pay24 ss (ix2 r (0 : Fin 1)) = Ideal.rsqrt (ss (ix1 r) * Mhc.cInv + Mhc.cEps) := by
  unfold k0_pay24
  refine (shapeCast_apply _ _ (ix2 r (0 : Fin 1)) (ix1 r) (by
    rw [Shape.rowMajor_val_one, Shape.rowMajor_val_two]; show r.val = r.val * 1 + 0; omega)).trans ?_
  rfl

/-- The column broadcast along four channels reads the column's entry of the same position. -/
private theorem bcol4_at (v : FVec Ideal S1024x1 .f32) (r : Fin 1024) (j : Fin 4) :
    broadcastTo S1024x4 v broadcasts_S1024x1_S1024x4 (ix2 r j) = v (ix2 r (0 : Fin 1)) :=
  broadcastTo_apply _ _ _ _ (fun a => by match a with | ⟨0, _⟩ => rfl | ⟨1, _⟩ => rfl)

/-- The one-entry block read at its only position. -/
private theorem scalar_at (v : Vec Ideal S1x1x1 .f32) :
    extractAt ![0, 0, 0] v inpos_S1x1x1_p0_0_0 = v (ix3 (0 : Fin 1) (0 : Fin 1) (0 : Fin 1)) :=
  congrArg v (funext fun a => Fin.ext (by match a with | ⟨0, _⟩ => rfl | ⟨1, _⟩ => rfl | ⟨2, _⟩ => rfl))

/-- A bias row `[1, 1, 4]` recast to `[1, 4]` and broadcast over the positions reads the row's entry of the channel. -/
private theorem bias4_at (v : Vec Ideal S1x1x4 .f32) (r : Fin 1024) (j : Fin 4) :
    broadcastTo S1024x4 (shapeCast S1x4 (shapeCast S4 v shapeCasts_S1x1x4_S4) shapeCasts_S4_S1x4) broadcasts_S1x4_S1024x4 (ix2 r j)
      = v (ix3 (0 : Fin 1) (0 : Fin 1) j) := by
  refine (broadcastTo_apply _ _ _ (ix2 (0 : Fin 1) j) (fun a => by match a with | ⟨0, _⟩ => rfl | ⟨1, _⟩ => rfl)).trans ?_
  refine (shapeCast_apply _ _ _ (ix1 j) (by
    rw [Shape.rowMajor_val_one, Shape.rowMajor_val_two]; show j.val = 0 * 4 + j.val; omega)).trans ?_
  exact shapeCast_apply _ _ _ (ix3 (0 : Fin 1) (0 : Fin 1) j) (by
    rw [Shape.rowMajor_val_one, Shape.rowMajor_val_three]; show (0 * 1 + 0) * 4 + j.val = j.val; omega)

/-! ## The pre and post gates -/

/-- The pre gate's epilogue over an arbitrary vector of sums of squares and an arbitrary accumulator. -/
private theorem pre_at (ss : FVec Ideal S1024 .f32) (acc : FVec Ideal S1024x4 .f32) (b : Vec Ideal S1x1x4 .f32)
    (al : Vec Ideal S1x1x1 .f32) (r : Fin 1024) (j : Fin 4) :
    k0_pay29 ss acc b al (ix2 r j)
      = Ideal.logistic (acc (ix2 r j) * Ideal.rsqrt (ss (ix1 r) * Mhc.cInv + Mhc.cEps) * al (ix3 (0 : Fin 1) (0 : Fin 1) (0 : Fin 1))
          + b (ix3 (0 : Fin 1) (0 : Fin 1) j)) := by
  unfold k0_pay29
  show Ideal.logistic (acc (ix2 r j) * broadcastTo S1024x4 (k0_pay24 ss) broadcasts_S1024x1_S1024x4 (ix2 r j)
      * extractAt ![0, 0, 0] al inpos_S1x1x1_p0_0_0
      + broadcastTo S1024x4 (shapeCast S1x4 (shapeCast S4 b shapeCasts_S1x1x4_S4) shapeCasts_S4_S1x4) broadcasts_S1x4_S1024x4 (ix2 r j)) = _
  rw [bcol4_at, rms_at, scalar_at, bias4_at]

/-- The post gate's epilogue over an arbitrary column of scales, accumulator, bias row and scale. -/
private theorem post_at (acc : FVec Ideal S1024x4 .f32) (rms : FVec Ideal S1024x1 .f32) (b : FVec Ideal S1x4 .f32) (al : Ideal .f32)
    (r : Fin 1024) (j : Fin 4) :
    k0_pay31 acc rms b al (ix4 (0 : Fin 1) (0 : Fin 1) r j)
      = Mhc.cTwo * Ideal.logistic (acc (ix2 r j) * rms (ix2 r (0 : Fin 1)) * al + b (ix2 (0 : Fin 1) j)) := by
  unfold k0_pay31
  refine (shapeCast_apply _ _ (ix4 (0 : Fin 1) (0 : Fin 1) r j) (ix2 r j) (by
    rw [Shape.rowMajor_val_two, Shape.rowMajor_val_four]
    show r.val * 4 + j.val = ((0 * 1 + 0) * 1024 + r.val) * 4 + j.val; omega)).trans ?_
  show Mhc.cTwo * Ideal.logistic (acc (ix2 r j) * broadcastTo S1024x4 rms broadcasts_S1024x1_S1024x4 (ix2 r j) * al
      + broadcastTo S1024x4 b broadcasts_S1x4_S1024x4 (ix2 r j)) = _
  rw [bcol4_at, broadcastTo_apply b broadcasts_S1x4_S1024x4 (ix2 r j) (ix2 (0 : Fin 1) j)
    (fun a => by match a with | ⟨0, _⟩ => rfl | ⟨1, _⟩ => rfl)]

/-- The post gate's bias row `[1, 1, 4]` recast to `[1, 4]`. -/
private theorem bias25_at (v : Vec Ideal S1x1x4 .f32) (j : Fin 4) :
    k0_pay25 v (ix2 (0 : Fin 1) j) = v (ix3 (0 : Fin 1) (0 : Fin 1) j) := by
  unfold k0_pay25
  refine (shapeCast_apply _ _ _ (ix1 j) (by
    rw [Shape.rowMajor_val_one, Shape.rowMajor_val_two]; show j.val = 0 * 4 + j.val; omega)).trans ?_
  exact shapeCast_apply _ _ _ (ix3 (0 : Fin 1) (0 : Fin 1) j) (by
    rw [Shape.rowMajor_val_one, Shape.rowMajor_val_three]; show (0 * 1 + 0) * 4 + j.val = j.val; omega)

/-- The pre gate's block at position `r`, channel `j`. -/
theorem out10_at (x0 : Vec Ideal S1x4x1024x512 .f32) (x1 : Vec Ideal S1x4x2048 .bf16) (x2 : Vec Ideal S1x4x2048 .bf16)
    (x3 : Vec Ideal S1x16x2048 .bf16) (x4 : Vec Ideal S1x1x4 .f32) (x5 : Vec Ideal S1x1x4 .f32) (x6 : Vec Ideal S1x4x4 .f32)
    (x7 : Vec Ideal S1x1x1 .f32) (x8 : Vec Ideal S1x1x1 .f32) (x9 : Vec Ideal S1x1x1 .f32) (r : Fin 1024) (j : Fin 4) :
    out0_10 x0 x1 x2 x3 x4 x5 x6 x7 x8 x9 (ix4 (0 : Fin 1) (0 : Fin 1) r j)
      = Mhc.preVal (tok x0 r) (wrow x1 j) (x7 (ix3 (0 : Fin 1) (0 : Fin 1) (0 : Fin 1))) (x4 (ix3 (0 : Fin 1) (0 : Fin 1) j)) := by
  unfold out0_10
  rw [View.canon_unit_zero (S := S1x1x1024x4) zeros4, View.ld_unit_zero (S := S1x1x4) zeros3,
    View.ld_unit_zero (S := S1x1x1) zeros3]
  unfold k0_pay30
  refine (shapeCast_apply _ _ (ix4 (0 : Fin 1) (0 : Fin 1) r j) (ix2 r j) (by
    rw [Shape.rowMajor_val_two, Shape.rowMajor_val_four]
    show r.val * 4 + j.val = ((0 * 1 + 0) * 1024 + r.val) * 4 + j.val; omega)).trans ?_
  rw [pre_at, ss_at, accPre_at]
  rfl

/-- The post gate's block at position `r`, channel `j`. -/
theorem out11_at (x0 : Vec Ideal S1x4x1024x512 .f32) (x1 : Vec Ideal S1x4x2048 .bf16) (x2 : Vec Ideal S1x4x2048 .bf16)
    (x3 : Vec Ideal S1x16x2048 .bf16) (x4 : Vec Ideal S1x1x4 .f32) (x5 : Vec Ideal S1x1x4 .f32) (x6 : Vec Ideal S1x4x4 .f32)
    (x7 : Vec Ideal S1x1x1 .f32) (x8 : Vec Ideal S1x1x1 .f32) (x9 : Vec Ideal S1x1x1 .f32) (r : Fin 1024) (j : Fin 4) :
    out0_11 x0 x1 x2 x3 x4 x5 x6 x7 x8 x9 (ix4 (0 : Fin 1) (0 : Fin 1) r j)
      = Mhc.postVal (tok x0 r) (wrow x2 j) (x8 (ix3 (0 : Fin 1) (0 : Fin 1) (0 : Fin 1))) (x5 (ix3 (0 : Fin 1) (0 : Fin 1) j)) := by
  unfold out0_11
  rw [View.canon_unit_zero (S := S1x1x1024x4) zeros4, View.ld_unit_zero (S := S1x1x4) zeros3,
    View.ld_unit_zero (S := S1x1x1) zeros3]
  rw [post_at, accPost_at, rms_at, ss_at, bias25_at]
  unfold k0_pay27
  rw [scalar_at]
  rfl

/-! ## The residual gate -/

/-- Every entry of each position's matrix divided by its row's sum, as the body spells it on the whole block. -/
private def rowN (M : FVec Ideal S1024x4x4 .f32) : FVec Ideal S1024x4x4 .f32 :=
  divf M (broadcastTo S1024x4x4 (shapeCast S1024x4x1
    (multiReduction .add [2] S1024x4 M 0x00000000#32 reduces_S1024x4x4_S1024x4 (.inl rfl) rfl) shapeCasts_S1024x4_S1024x4x1)
    broadcasts_S1024x4x1_S1024x4x4)

/-- Every entry of each position's matrix divided by its column's sum. -/
private def colN (M : FVec Ideal S1024x4x4 .f32) : FVec Ideal S1024x4x4 .f32 :=
  divf M (broadcastTo S1024x4x4 (shapeCast S1024x1x4
    (multiReduction .add [1] S1024x4 M 0x00000000#32 reduces_S1024x4x4_S1024x4_2 (.inl rfl) rfl) shapeCasts_S1024x4_S1024x1x4)
    broadcasts_S1024x1x4_S1024x4x4)

/-- Position `r`'s matrix of a block. -/
private def mat (M : FVec Ideal S1024x4x4 .f32) (r : Fin 1024) : Fin 4 → Fin 4 → EReal := fun p q => M (ix3 r p q)

/-- The block's row sums at position `r`, row `p`. -/
private theorem rowSum_at (M : FVec Ideal S1024x4x4 .f32) (r : Fin 1024) (p : Fin 4) :
    multiReduction .add [2] S1024x4 M 0x00000000#32 reduces_S1024x4x4_S1024x4 (.inl rfl) rfl (ix2 r p)
      = ∑ q' : Fin 4, M (ix3 r p q') := by
  refine (Ideal.multiReduction_add_single M 0x00000000#32 reduces_S1024x4x4_S1024x4 (.inl rfl) rfl (ix2 r p)).trans ?_
  refine Finset.sum_congr rfl fun k _ => congrArg M (funext fun a => Fin.ext ?_)
  match a with | ⟨0, _⟩ => rfl | ⟨1, _⟩ => rfl | ⟨2, _⟩ => rfl

/-- The block's column sums at position `r`, column `q`. -/
private theorem colSum_at (M : FVec Ideal S1024x4x4 .f32) (r : Fin 1024) (q : Fin 4) :
    multiReduction .add [1] S1024x4 M 0x00000000#32 reduces_S1024x4x4_S1024x4_2 (.inl rfl) rfl (ix2 r q)
      = ∑ p' : Fin 4, M (ix3 r p' q) := by
  refine (Ideal.multiReduction_add_single M 0x00000000#32 reduces_S1024x4x4_S1024x4_2 (.inl rfl) rfl (ix2 r q)).trans ?_
  refine Finset.sum_congr rfl fun k _ => congrArg M (funext fun a => Fin.ext ?_)
  match a with | ⟨0, _⟩ => rfl | ⟨1, _⟩ => rfl | ⟨2, _⟩ => rfl

/-- The row normalisation of the block is the row normalisation of each position's matrix. -/
private theorem mat_rowN (M : FVec Ideal S1024x4x4 .f32) (r : Fin 1024) : mat (rowN M) r = Mhc.rowNorm (mat M r) := by
  funext p q
  show Ideal.div (M (ix3 r p q)) _ = Ideal.div (M (ix3 r p q)) (∑ q' : Fin 4, M (ix3 r p q'))
  refine congrArg _ ?_
  refine (broadcastTo_apply _ _ _ (ix3 r p (0 : Fin 1)) (fun a => by
    match a with | ⟨0, _⟩ => rfl | ⟨1, _⟩ => rfl | ⟨2, _⟩ => rfl)).trans ?_
  refine (shapeCast_apply _ _ _ (ix2 r p) (by
    rw [Shape.rowMajor_val_two, Shape.rowMajor_val_three]
    show r.val * 4 + p.val = (r.val * 4 + p.val) * 1 + 0; omega)).trans ?_
  exact rowSum_at M r p

/-- The column normalisation of the block is the column normalisation of each position's matrix. -/
private theorem mat_colN (M : FVec Ideal S1024x4x4 .f32) (r : Fin 1024) : mat (colN M) r = Mhc.colNorm (mat M r) := by
  funext p q
  show Ideal.div (M (ix3 r p q)) _ = Ideal.div (M (ix3 r p q)) (∑ p' : Fin 4, M (ix3 r p' q))
  refine congrArg _ ?_
  refine (broadcastTo_apply _ _ _ (ix3 r (0 : Fin 1) q) (fun a => by
    match a with | ⟨0, _⟩ => rfl | ⟨1, _⟩ => rfl | ⟨2, _⟩ => rfl)).trans ?_
  refine (shapeCast_apply _ _ _ (ix2 r q) (by
    rw [Shape.rowMajor_val_two, Shape.rowMajor_val_three]
    show r.val * 4 + q.val = (r.val * 1 + 0) * 4 + q.val; omega)).trans ?_
  exact colSum_at M r q

/-- Six alternating normalisations of the block are the six of each position's matrix. -/
private theorem mat_sink (E : FVec Ideal S1024x4x4 .f32) (r : Fin 1024) :
    mat (colN (rowN (colN (rowN (colN (rowN (colN (rowN (colN (rowN (colN (rowN E)))))))))))) r = Mhc.sink (mat E r) := by
  simp only [mat_colN, mat_rowN]
  rfl

/-- The exponentials of the sixteen gates, laid out as the block of 4×4 matrices. -/
private def expG (acc : FVec Ideal S1024x16 .f32) (rms : FVec Ideal S1024x1 .f32) (b : FVec Ideal S1x4x4 .f32) (al : Ideal .f32) :
    FVec Ideal S1024x4x4 .f32 :=
  exp (addf (shapeCast S1024x4x4 (mulf (mulf acc (broadcastTo S1024x16 rms broadcasts_S1024x1_S1024x16)) (broadcast S1024x16 al))
    shapeCasts_S1024x16_S1024x4x4) (broadcastTo S1024x4x4 b broadcasts_S1x4x4_S1024x4x4))

/-- Entry `(p, q)` of position `r`'s matrix is the exponential of channel `4 p + q`'s gate. -/
private theorem expG_at (acc : FVec Ideal S1024x16 .f32) (rms : FVec Ideal S1024x1 .f32) (b : FVec Ideal S1x4x4 .f32) (al : Ideal .f32)
    (r : Fin 1024) (p q : Fin 4) :
    expG acc rms b al (ix3 r p q)
      = Ideal.exp (acc (ix2 r (Mhc.ch16 p q)) * rms (ix2 r (0 : Fin 1)) * al + b (ix3 (0 : Fin 1) p q)) := by
  have hp := p.isLt
  have hq := q.isLt
  show Ideal.exp (shapeCast S1024x4x4 (mulf (mulf acc (broadcastTo S1024x16 rms broadcasts_S1024x1_S1024x16)) (broadcast S1024x16 al))
      shapeCasts_S1024x16_S1024x4x4 (ix3 r p q) + broadcastTo S1024x4x4 b broadcasts_S1x4x4_S1024x4x4 (ix3 r p q)) = _
  rw [shapeCast_apply _ shapeCasts_S1024x16_S1024x4x4 (ix3 r p q) (ix2 r (Mhc.ch16 p q)) (by
      rw [Shape.rowMajor_val_two, Shape.rowMajor_val_three]
      show r.val * 16 + (4 * p.val + q.val) = (r.val * 4 + p.val) * 4 + q.val; omega),
    broadcastTo_apply b broadcasts_S1x4x4_S1024x4x4 (ix3 r p q) (ix3 (0 : Fin 1) p q) (fun a => by
      match a with | ⟨0, _⟩ => rfl | ⟨1, _⟩ => rfl | ⟨2, _⟩ => rfl)]
  show Ideal.exp (acc (ix2 r (Mhc.ch16 p q)) * broadcastTo S1024x16 rms broadcasts_S1024x1_S1024x16 (ix2 r (Mhc.ch16 p q)) * al
      + b (ix3 (0 : Fin 1) p q)) = _
  rw [broadcastTo_apply rms broadcasts_S1024x1_S1024x16 (ix2 r (Mhc.ch16 p q)) (ix2 r (0 : Fin 1)) (fun a => by
      match a with | ⟨0, _⟩ => rfl | ⟨1, _⟩ => rfl)]

/-- The body cuts the chain of normalisations in two; the first part ends after the fifth. -/
private theorem pay32_eq (acc : FVec Ideal S1024x16 .f32) (rms : FVec Ideal S1024x1 .f32) (b : FVec Ideal S1x4x4 .f32) (al : Ideal .f32) :
    k0_pay32 acc rms b al = rowN (colN (rowN (colN (rowN (expG acc rms b al))))) := rfl

/-- The second part finishes the sixth normalisation with the column sums handed over and runs the other six. -/
private theorem pay1_eq (acc : FVec Ideal S1024x16 .f32) (rms : FVec Ideal S1024x1 .f32) (b : FVec Ideal S1x4x4 .f32) (al : Ideal .f32) :
    k0_pay1 (k0_pay32 acc rms b al) (k0_pay33 acc rms b al)
      = shapeCast S1x1x1024x4x4 (colN (rowN (colN (rowN (colN (rowN (colN (k0_pay32 acc rms b al))))))))
          shapeCasts_S1024x4x4_S1x1x1024x4x4 := rfl

/-- The residual gate's epilogue over an arbitrary accumulator, column of scales, bias matrix and scale. -/
private theorem res_at (acc : FVec Ideal S1024x16 .f32) (rms : FVec Ideal S1024x1 .f32) (b : FVec Ideal S1x4x4 .f32) (al : Ideal .f32)
    (r : Fin 1024) (p q : Fin 4) :
    k0_pay1 (k0_pay32 acc rms b al) (k0_pay33 acc rms b al) (ix5 (0 : Fin 1) (0 : Fin 1) r p q)
      = Mhc.sink (mat (expG acc rms b al) r) p q := by
  rw [pay1_eq, pay32_eq]
  refine (shapeCast_apply _ _ (ix5 (0 : Fin 1) (0 : Fin 1) r p q) (ix3 r p q) (by
    rw [Shape.rowMajor_val_three, Shape.rowMajor_val_five]
    show (r.val * 4 + p.val) * 4 + q.val = ((((0 * 1 + 0) * 1024 + r.val) * 4 + p.val) * 4 + q.val); omega)).trans ?_
  exact congrFun (congrFun (mat_sink (expG acc rms b al) r) p) q

/-- The bias matrix `[1, 4, 4]` recast through `[4, 4]` is itself. -/
private theorem bias26_at (v : Vec Ideal S1x4x4 .f32) (p q : Fin 4) :
    k0_pay26 v (ix3 (0 : Fin 1) p q) = v (ix3 (0 : Fin 1) p q) := by
  unfold k0_pay26
  refine (shapeCast_apply _ _ _ (ix2 p q) (by
    rw [Shape.rowMajor_val_two, Shape.rowMajor_val_three]
    show p.val * 4 + q.val = (0 * 4 + p.val) * 4 + q.val; omega)).trans ?_
  exact shapeCast_apply _ _ _ (ix3 (0 : Fin 1) p q) (by
    rw [Shape.rowMajor_val_two, Shape.rowMajor_val_three]
    show (0 * 4 + p.val) * 4 + q.val = p.val * 4 + q.val; omega)

/-- The residual gate's block at position `r`, entry `(p, q)` of the position's matrix. -/
theorem out12_at (x0 : Vec Ideal S1x4x1024x512 .f32) (x1 : Vec Ideal S1x4x2048 .bf16) (x2 : Vec Ideal S1x4x2048 .bf16)
    (x3 : Vec Ideal S1x16x2048 .bf16) (x4 : Vec Ideal S1x1x4 .f32) (x5 : Vec Ideal S1x1x4 .f32) (x6 : Vec Ideal S1x4x4 .f32)
    (x7 : Vec Ideal S1x1x1 .f32) (x8 : Vec Ideal S1x1x1 .f32) (x9 : Vec Ideal S1x1x1 .f32) (r : Fin 1024) (p q : Fin 4) :
    out0_12 x0 x1 x2 x3 x4 x5 x6 x7 x8 x9 (ix5 (0 : Fin 1) (0 : Fin 1) r p q)
      = Mhc.resVal (tok x0 r) (fun p' q' => wrow x3 (Mhc.ch16 p' q')) (x9 (ix3 (0 : Fin 1) (0 : Fin 1) (0 : Fin 1)))
          (fun p' q' => x6 (ix3 (0 : Fin 1) p' q')) p q := by
  unfold out0_12
  rw [View.canon_unit_zero (S := S1x1x1024x4x4) zeros5, View.ld_unit_zero (S := S1x4x4) zeros3,
    View.ld_unit_zero (S := S1x1x1) zeros3]
  rw [res_at]
  unfold Mhc.resVal
  refine congrFun (congrFun (congrArg Mhc.sink (funext fun p' => funext fun q' => ?_)) p) q
  show expG _ _ _ _ (ix3 r p' q') = _
  rw [expG_at, accRes_at, rms_at, ss_at, bias26_at]
  unfold k0_pay28
  rw [scalar_at]
  rfl

end Cert.KernelIdeal.Pay

end
-- ==== Proof.KSel.lean ====
/-
  The selected experts' parameters, as functions of the argument arrays: the index vector with negative entries
  wrapped by the number of experts, the rows it selects from each table, and the selected weight rows scaled entry by
  entry by the selected norm weights. These are carried whole; nothing downstream looks inside a selection.
-/
import proofs.«119140_j39831526703216_1_alg».proof.Proof.Gen.KernelIdeal
import Idealize.ShloMosaic.PureOps.Ideal

noncomputable section

namespace Cert.KernelIdeal.Sel

open Cert.KernelIdeal Cert.KernelIdeal.Facts₀ Idealize.ShloMosaic Idealize.ShloMosaic.TcCoe

/-- The index column: an index below zero counts from the end of the 64 experts. -/
def sel (a1 : IVec S8 32) : IVec S8x1 32 :=
  broadcastInDim S8x1 ![0] bcast_S8_S8x1_0 (select (cmpi .slt a1 (broadcastInDim S8 ![] bcast_S_S8 (constantI S_ 32 0#32)))
    (addi a1 (broadcastInDim S8 ![] bcast_S_S8 (constantI S_ 32 64#32))) a1)

/-- The selected experts' norm weights. -/
def nw (a1 : IVec S8 32) (a2 : FVec Ideal S64x2048 .f32) : FVec Ideal S8x2048 .f32 :=
  Host.gather gather_S64x2048_S8x1_S8x2048_1_0_n_n_0_1_12048 a2 (sel a1)

/-- Four selected weight rows per expert, each entry scaled by the expert's norm weight. -/
def W4 (a1 : IVec S8 32) (a2 : FVec Ideal S64x2048 .f32) (a : FVec Ideal S64x4x2048 .f32) : FVec Ideal S8x4x2048 .f32 :=
  mulf (Host.gather gather_S64x4x2048_S8x1_S8x4x2048_12_0_n_n_0_1_142048 a (sel a1))
    (broadcastInDim S8x4x2048 ![0, 1, 2] bcast_S8x1x2048_S8x4x2048_0_1_2
      (broadcastInDim S8x1x2048 ![0, 2] bcast_S8x2048_S8x1x2048_0_2 (nw a1 a2)))

/-- Sixteen selected weight rows per expert, scaled likewise. -/
def W16 (a1 : IVec S8 32) (a2 : FVec Ideal S64x2048 .f32) (a : FVec Ideal S64x16x2048 .f32) : FVec Ideal S8x16x2048 .f32 :=
  mulf (Host.gather gather_S64x16x2048_S8x1_S8x16x2048_12_0_n_n_0_1_1162048 a (sel a1))
    (broadcastInDim S8x16x2048 ![0, 1, 2] bcast_S8x1x2048_S8x16x2048_0_1_2
      (broadcastInDim S8x1x2048 ![0, 2] bcast_S8x2048_S8x1x2048_0_2 (nw a1 a2)))

/-- The selected experts' bias rows. -/
def B4 (a1 : IVec S8 32) (a : FVec Ideal S64x4 .f32) : FVec Ideal S8x4 .f32 :=
  Host.gather gather_S64x4_S8x1_S8x4_1_0_n_n_0_1_14 a (sel a1)

/-- The selected experts' bias matrices. -/
def B44 (a1 : IVec S8 32) (a : FVec Ideal S64x4x4 .f32) : FVec Ideal S8x4x4 .f32 :=
  Host.gather gather_S64x4x4_S8x1_S8x4x4_12_0_n_n_0_1_144 a (sel a1)

/-- The selected experts' scales. -/
def A1 (a1 : IVec S8 32) (a : FVec Ideal S64 .f32) : FVec Ideal S8 .f32 :=
  Host.gather gather_S64_S8x1_S8_n_0_n_n_0_1_1 a (sel a1)

end Cert.KernelIdeal.Sel

end
-- ==== Proof.KWin.lean ====
/-
  The arrays the kernel's windows stage, as the region finds them, read at an index.

  Before the region the program selects each expert's rows from every table, scales the weight rows by the selected
  norm weights and narrows them to bf16 (the identity on the extended reals), and gives the bias rows and the scales
  unit axes so that each expert's share is one block. Read at an index, each staged array is the selection itself.
-/
import proofs.«119140_j39831526703216_1_alg».proof.Proof.Gen.KernelIdeal.Frame
import proofs.«119140_j39831526703216_1_alg».proof.Proof.KSel
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Win

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (c : Dev nD)

/-! ## Each staged array as the operations before the region leave it -/

set_option maxRecDepth 8192 in
set_option maxHeartbeats 2000000 in
theorem weights_pre : (V m c main_v17 : S8x4x2048.Idx → EReal) = truncf .bf16 (Sel.W4 (m ((c : Thread nD τ).loc main_arg1)) (m ((c : Thread nD τ).loc main_arg2)) (m ((c : Thread nD τ).loc main_arg3))) bitsLt_bf16_f32 := by
  dsimp only [Gen.V, Gen.hostOps0]
  after_results_simp
  rfl

set_option maxRecDepth 8192 in
set_option maxHeartbeats 2000000 in
theorem weights_post : (V m c main_v28 : S8x4x2048.Idx → EReal) = truncf .bf16 (Sel.W4 (m ((c : Thread nD τ).loc main_arg1)) (m ((c : Thread nD τ).loc main_arg2)) (m ((c : Thread nD τ).loc main_arg4))) bitsLt_bf16_f32 := by
  dsimp only [Gen.V, Gen.hostOps0]
  after_results_simp
  rfl

set_option maxRecDepth 8192 in
set_option maxHeartbeats 2000000 in
theorem weights_res : (V m c main_v39 : S8x16x2048.Idx → EReal) = truncf .bf16 (Sel.W16 (m ((c : Thread nD τ).loc main_arg1)) (m ((c : Thread nD τ).loc main_arg2)) (m ((c : Thread nD τ).loc main_arg5))) bitsLt_bf16_f32 := by
  dsimp only [Gen.V, Gen.hostOps0]
  after_results_simp
  rfl

set_option maxRecDepth 8192 in
set_option maxHeartbeats 2000000 in
theorem bias_pre : (V m c main_v47 : S8x1x4.Idx → EReal) = shapeCast S8x1x4 (Sel.B4 (m ((c : Thread nD τ).loc main_arg1)) (m ((c : Thread nD τ).loc main_arg6))) shapeCasts_S8x4_S8x1x4 := by
  dsimp only [Gen.V, Gen.hostOps0]
  after_results_simp
  rfl

set_option maxRecDepth 8192 in
set_option maxHeartbeats 2000000 in
theorem bias_post : (V m c main_v55 : S8x1x4.Idx → EReal) = shapeCast S8x1x4 (Sel.B4 (m ((c : Thread nD τ).loc main_arg1)) (m ((c : Thread nD τ).loc main_arg7))) shapeCasts_S8x4_S8x1x4 := by
  dsimp only [Gen.V, Gen.hostOps0]
  after_results_simp
  rfl

set_option maxRecDepth 8192 in
set_option maxHeartbeats 2000000 in
theorem bias_res : (V m c main_v62 : S8x4x4.Idx → EReal) = Sel.B44 (m ((c : Thread nD τ).loc main_arg1)) (m ((c : Thread nD τ).loc main_arg8)) := by
  dsimp only [Gen.V, Gen.hostOps0]
  after_results_simp
  rfl

set_option maxRecDepth 8192 in
set_option maxHeartbeats 2000000 in
theorem scale_pre : (V m c main_v70 : S8x1x1.Idx → EReal) = shapeCast S8x1x1 (Sel.A1 (m ((c : Thread nD τ).loc main_arg1)) (m ((c : Thread nD τ).loc main_arg9))) shapeCasts_S8_S8x1x1 := by
  dsimp only [Gen.V, Gen.hostOps0]
  after_results_simp
  rfl

set_option maxRecDepth 8192 in
set_option maxHeartbeats 2000000 in
theorem scale_post : (V m c main_v78 : S8x1x1.Idx → EReal) = shapeCast S8x1x1 (Sel.A1 (m ((c : Thread nD τ).loc main_arg1)) (m ((c : Thread nD τ).loc main_arg10))) shapeCasts_S8_S8x1x1 := by
  dsimp only [Gen.V, Gen.hostOps0]
  after_results_simp
  rfl

set_option maxRecDepth 8192 in
set_option maxHeartbeats 2000000 in
theorem scale_res : (V m c main_v86 : S8x1x1.Idx → EReal) = shapeCast S8x1x1 (Sel.A1 (m ((c : Thread nD τ).loc main_arg1)) (m ((c : Thread nD τ).loc main_arg11))) shapeCasts_S8_S8x1x1 := by
  dsimp only [Gen.V, Gen.hostOps0]
  after_results_simp
  rfl

/-! ## Read at an index -/

/-- A bias row given a unit middle axis keeps its entries: position `(k, 0, j)` of [8, 1, 4] is position `(k, j)` of [8, 4]. -/
theorem row_unit (g : S8x4.Idx → EReal) (k : Fin 8) (j : Fin 4) :
    shapeCast S8x1x4 g shapeCasts_S8x4_S8x1x4 (ix3 k (0 : Fin 1) j) = g (ix2 k j) :=
  shapeCast_apply _ _ (ix3 k (0 : Fin 1) j) (ix2 k j) (by
    rw [Shape.rowMajor_val_two, Shape.rowMajor_val_three]
    show k.val * 4 + j.val = (k.val * 1 + 0) * 4 + j.val
    omega)

/-- A vector given two unit axes keeps its entries: position `(k, 0, 0)` of [8, 1, 1] is position `k` of [8]. -/
theorem scalar_unit (g : S8.Idx → EReal) (k : Fin 8) :
    shapeCast S8x1x1 g shapeCasts_S8_S8x1x1 (ix3 k (0 : Fin 1) (0 : Fin 1)) = g (ix1 k) :=
  shapeCast_apply _ _ (ix3 k (0 : Fin 1) (0 : Fin 1)) (ix1 k) (by
    rw [Shape.rowMajor_val_one, Shape.rowMajor_val_three]
    show k.val = (k.val * 1 + 0) * 1 + 0
    omega)

theorem v17_at (k : Fin 8) (j : Fin 4) (D : Fin 2048) :
    V m c main_v17 (ix3 k j D) = Sel.W4 (m ((c : Thread nD τ).loc main_arg1)) (m ((c : Thread nD τ).loc main_arg2)) (m ((c : Thread nD τ).loc main_arg3)) (ix3 k j D) :=
  (congrFun (weights_pre m c) (ix3 k j D)).trans (truncf_apply _ _ _)

theorem v28_at (k : Fin 8) (j : Fin 4) (D : Fin 2048) :
    V m c main_v28 (ix3 k j D) = Sel.W4 (m ((c : Thread nD τ).loc main_arg1)) (m ((c : Thread nD τ).loc main_arg2)) (m ((c : Thread nD τ).loc main_arg4)) (ix3 k j D) :=
  (congrFun (weights_post m c) (ix3 k j D)).trans (truncf_apply _ _ _)

theorem v39_at (k : Fin 8) (j : Fin 16) (D : Fin 2048) :
    V m c main_v39 (ix3 k j D) = Sel.W16 (m ((c : Thread nD τ).loc main_arg1)) (m ((c : Thread nD τ).loc main_arg2)) (m ((c : Thread nD τ).loc main_arg5)) (ix3 k j D) :=
  (congrFun (weights_res m c) (ix3 k j D)).trans (truncf_apply _ _ _)

theorem v47_at (k : Fin 8) (j : Fin 4) :
    V m c main_v47 (ix3 k (0 : Fin 1) j) = Sel.B4 (m ((c : Thread nD τ).loc main_arg1)) (m ((c : Thread nD τ).loc main_arg6)) (ix2 k j) :=
  (congrFun (bias_pre m c) (ix3 k (0 : Fin 1) j)).trans (row_unit _ k j)

theorem v55_at (k : Fin 8) (j : Fin 4) :
    V m c main_v55 (ix3 k (0 : Fin 1) j) = Sel.B4 (m ((c : Thread nD τ).loc main_arg1)) (m ((c : Thread nD τ).loc main_arg7)) (ix2 k j) :=
  (congrFun (bias_post m c) (ix3 k (0 : Fin 1) j)).trans (row_unit _ k j)

theorem v62_at (k : Fin 8) (p q : Fin 4) :
    V m c main_v62 (ix3 k p q) = Sel.B44 (m ((c : Thread nD τ).loc main_arg1)) (m ((c : Thread nD τ).loc main_arg8)) (ix3 k p q) :=
  congrFun (bias_res m c) (ix3 k p q)

theorem v70_at (k : Fin 8) :
    V m c main_v70 (ix3 k (0 : Fin 1) (0 : Fin 1)) = Sel.A1 (m ((c : Thread nD τ).loc main_arg1)) (m ((c : Thread nD τ).loc main_arg9)) (ix1 k) :=
  (congrFun (scale_pre m c) (ix3 k (0 : Fin 1) (0 : Fin 1))).trans (scalar_unit _ k)

theorem v78_at (k : Fin 8) :
    V m c main_v78 (ix3 k (0 : Fin 1) (0 : Fin 1)) = Sel.A1 (m ((c : Thread nD τ).loc main_arg1)) (m ((c : Thread nD τ).loc main_arg10)) (ix1 k) :=
  (congrFun (scale_post m c) (ix3 k (0 : Fin 1) (0 : Fin 1))).trans (scalar_unit _ k)

theorem v86_at (k : Fin 8) :
    V m c main_v86 (ix3 k (0 : Fin 1) (0 : Fin 1)) = Sel.A1 (m ((c : Thread nD τ).loc main_arg1)) (m ((c : Thread nD τ).loc main_arg11)) (ix1 k) :=
  (congrFun (scale_res m c) (ix3 k (0 : Fin 1) (0 : Fin 1))).trans (scalar_unit _ k)

end Cert.KernelIdeal.Win

end
-- ==== Proof.KFinal.lean ====
/-
  The kernel's three result arrays after the run, as whole-array functions of the argument arrays.

  Grid point (batch `b`, tile `s`, expert `k`) reads token block `(b, s)` of the stream and expert `k`'s selected
  rows, and writes block `(k, b, s)` of each result; the 256 points' blocks tile each result array, so every entry is
  written exactly once, by the point whose block holds it, and holds the gate of its own token and expert.
-/
import proofs.«119140_j39831526703216_1_alg».proof.Proof.Gen.KernelIdeal.Value
import proofs.«119140_j39831526703216_1_alg».proof.Proof.KGate
import proofs.«119140_j39831526703216_1_alg».proof.Proof.KSel
import proofs.«119140_j39831526703216_1_alg».proof.Proof.KWin

noncomputable section

namespace Cert.KernelIdeal.Fin

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The pre gate's array as a function of the arguments. -/
abbrev preOf (c : Dev nD) : S8x8x4096x4.Idx → EReal :=
  Mhc.GPre (m ((c : Thread nD τ).loc main_arg0))
    (Sel.W4 (m ((c : Thread nD τ).loc main_arg1)) (m ((c : Thread nD τ).loc main_arg2)) (m ((c : Thread nD τ).loc main_arg3)))
    (Sel.A1 (m ((c : Thread nD τ).loc main_arg1)) (m ((c : Thread nD τ).loc main_arg9)))
    (Sel.B4 (m ((c : Thread nD τ).loc main_arg1)) (m ((c : Thread nD τ).loc main_arg6)))

/-- The post gate's array as a function of the arguments. -/
abbrev postOf (c : Dev nD) : S8x8x4096x4.Idx → EReal :=
  Mhc.GPost (m ((c : Thread nD τ).loc main_arg0))
    (Sel.W4 (m ((c : Thread nD τ).loc main_arg1)) (m ((c : Thread nD τ).loc main_arg2)) (m ((c : Thread nD τ).loc main_arg4)))
    (Sel.A1 (m ((c : Thread nD τ).loc main_arg1)) (m ((c : Thread nD τ).loc main_arg10)))
    (Sel.B4 (m ((c : Thread nD τ).loc main_arg1)) (m ((c : Thread nD τ).loc main_arg7)))

/-- The residual gate's array as a function of the arguments. -/
abbrev resOf (c : Dev nD) : S8x8x4096x4x4.Idx → EReal :=
  Mhc.GRes (m ((c : Thread nD τ).loc main_arg0))
    (Sel.W16 (m ((c : Thread nD τ).loc main_arg1)) (m ((c : Thread nD τ).loc main_arg2)) (m ((c : Thread nD τ).loc main_arg5)))
    (Sel.A1 (m ((c : Thread nD τ).loc main_arg1)) (m ((c : Thread nD τ).loc main_arg11)))
    (Sel.B44 (m ((c : Thread nD τ).loc main_arg1)) (m ((c : Thread nD τ).loc main_arg8)))

/-! ## The grid point's block indices

Point `t` of the 8 × 4 × 8 grid is batch `t / 32`, tile `t / 8 % 4`, expert `t % 8`. -/

/-- The result windows' block indices at point `t`: expert, batch, tile, and zero on the channel axes. -/
theorem out_index : ∀ t : Fin cfg0.N,
    win0_10.index t (0 : Fin 4) = t.val % 8 ∧ win0_10.index t (1 : Fin 4) = t.val / 32
    ∧ win0_10.index t (2 : Fin 4) = t.val / 8 % 4 ∧ win0_10.index t (3 : Fin 4) = 0
    ∧ win0_11.index t (0 : Fin 4) = t.val % 8 ∧ win0_11.index t (1 : Fin 4) = t.val / 32
    ∧ win0_11.index t (2 : Fin 4) = t.val / 8 % 4 ∧ win0_11.index t (3 : Fin 4) = 0
    ∧ win0_12.index t (0 : Fin 5) = t.val % 8 ∧ win0_12.index t (1 : Fin 5) = t.val / 32
    ∧ win0_12.index t (2 : Fin 5) = t.val / 8 % 4 ∧ win0_12.index t (3 : Fin 5) = 0 ∧ win0_12.index t (4 : Fin 5) = 0 :=
  (by decide +kernel : ∀ t : Fin grid0.N, _)

/-- The stream window's block index at point `t`: batch and tile. -/
theorem tok_index : ∀ t : Fin cfg0.N,
    win0_0.index t (0 : Fin 4) = t.val / 32 ∧ win0_0.index t (1 : Fin 4) = 0
    ∧ win0_0.index t (2 : Fin 4) = t.val / 8 % 4 ∧ win0_0.index t (3 : Fin 4) = 0 :=
  (by decide +kernel : ∀ t : Fin grid0.N, _)

/-- The parameter windows' block indices at point `t`: the expert, and zero on the other axes. -/
theorem par_index : ∀ t : Fin cfg0.N,
    (win0_1.index t (0 : Fin 3) = t.val % 8 ∧ win0_1.index t (1 : Fin 3) = 0 ∧ win0_1.index t (2 : Fin 3) = 0)
    ∧ (win0_2.index t (0 : Fin 3) = t.val % 8 ∧ win0_2.index t (1 : Fin 3) = 0 ∧ win0_2.index t (2 : Fin 3) = 0)
    ∧ (win0_3.index t (0 : Fin 3) = t.val % 8 ∧ win0_3.index t (1 : Fin 3) = 0 ∧ win0_3.index t (2 : Fin 3) = 0)
    ∧ (win0_4.index t (0 : Fin 3) = t.val % 8 ∧ win0_4.index t (1 : Fin 3) = 0 ∧ win0_4.index t (2 : Fin 3) = 0)
    ∧ (win0_5.index t (0 : Fin 3) = t.val % 8 ∧ win0_5.index t (1 : Fin 3) = 0 ∧ win0_5.index t (2 : Fin 3) = 0)
    ∧ (win0_6.index t (0 : Fin 3) = t.val % 8 ∧ win0_6.index t (1 : Fin 3) = 0 ∧ win0_6.index t (2 : Fin 3) = 0)
    ∧ (win0_7.index t (0 : Fin 3) = t.val % 8 ∧ win0_7.index t (1 : Fin 3) = 0 ∧ win0_7.index t (2 : Fin 3) = 0)
    ∧ (win0_8.index t (0 : Fin 3) = t.val % 8 ∧ win0_8.index t (1 : Fin 3) = 0 ∧ win0_8.index t (2 : Fin 3) = 0)
    ∧ (win0_9.index t (0 : Fin 3) = t.val % 8 ∧ win0_9.index t (1 : Fin 3) = 0 ∧ win0_9.index t (2 : Fin 3) = 0) :=
  (by decide +kernel : ∀ t : Fin grid0.N, _)

theorem point_lt (t : Fin cfg0.N) : t.val < 256 := by
  have h := t.isLt
  have e : cfg0.N = 256 := N_0
  omega

/-- The expert of point `t`. -/
abbrev expertOf (t : Fin cfg0.N) : Fin 8 := ⟨t.val % 8, Nat.mod_lt _ (by norm_num)⟩

/-- The batch of point `t`. -/
abbrev batchOf (t : Fin cfg0.N) : Fin 8 := ⟨t.val / 32, by have := point_lt t; omega⟩

/-- The tile of point `t`. -/
abbrev tileOf (t : Fin cfg0.N) : Fin 4 := ⟨t.val / 8 % 4, Nat.mod_lt _ (by norm_num)⟩

/-- Position `r` of tile `s` in the stream. -/
abbrev pos (s : Fin 4) (r : Fin 1024) : Fin 4096 := ⟨1024 * s.val + r.val, by have := s.isLt; have := r.isLt; omega⟩

/-! ## Where a block's entry sits in its array

An entry of a block sits, on each axis, at the block index times the block's size plus its own coordinate. -/

/-- Entry `(r, j)` of the pre gate's block at point `t` is entry (expert, batch, position, channel) of the array. -/
theorem pre_emb (t : Fin cfg0.N) (r : Fin 1024) (j : Fin 4) :
    ((cfg0.win 10).blk t).view.emb (ix4 (0 : Fin 1) (0 : Fin 1) r j) = ix4 (expertOf t) (batchOf t) (pos (tileOf t) r) j := by
  obtain ⟨e0, e1, e2, e3, -⟩ := out_index t
  funext a; apply Fin.ext
  match a with
  | ⟨0, _⟩ => show win0_10.index t (0 : Fin 4) * 1 + 1 * 0 = t.val % 8; omega
  | ⟨1, _⟩ => show win0_10.index t (1 : Fin 4) * 1 + 1 * 0 = t.val / 32; omega
  | ⟨2, _⟩ => show win0_10.index t (2 : Fin 4) * 1024 + 1 * r.val = 1024 * (t.val / 8 % 4) + r.val; omega
  | ⟨3, _⟩ => show win0_10.index t (3 : Fin 4) * 4 + 1 * j.val = j.val; omega

/-- Entry `(r, j)` of the post gate's block at point `t` is entry (expert, batch, position, channel) of the array. -/
theorem post_emb (t : Fin cfg0.N) (r : Fin 1024) (j : Fin 4) :
    ((cfg0.win 11).blk t).view.emb (ix4 (0 : Fin 1) (0 : Fin 1) r j) = ix4 (expertOf t) (batchOf t) (pos (tileOf t) r) j := by
  obtain ⟨-, -, -, -, e0, e1, e2, e3, -⟩ := out_index t
  funext a; apply Fin.ext
  match a with
  | ⟨0, _⟩ => show win0_11.index t (0 : Fin 4) * 1 + 1 * 0 = t.val % 8; omega
  | ⟨1, _⟩ => show win0_11.index t (1 : Fin 4) * 1 + 1 * 0 = t.val / 32; omega
  | ⟨2, _⟩ => show win0_11.index t (2 : Fin 4) * 1024 + 1 * r.val = 1024 * (t.val / 8 % 4) + r.val; omega
  | ⟨3, _⟩ => show win0_11.index t (3 : Fin 4) * 4 + 1 * j.val = j.val; omega

/-- Entry `(r, p, q)` of the residual gate's block at point `t` is entry (expert, batch, position, `p`, `q`) of the array. -/
theorem res_emb (t : Fin cfg0.N) (r : Fin 1024) (p q : Fin 4) :
    ((cfg0.win 12).blk t).view.emb (ix5 (0 : Fin 1) (0 : Fin 1) r p q) = ix5 (expertOf t) (batchOf t) (pos (tileOf t) r) p q := by
  obtain ⟨-, -, -, -, -, -, -, -, e0, e1, e2, e3, e4⟩ := out_index t
  funext a; apply Fin.ext
  match a with
  | ⟨0, _⟩ => show win0_12.index t (0 : Fin 5) * 1 + 1 * 0 = t.val % 8; omega
  | ⟨1, _⟩ => show win0_12.index t (1 : Fin 5) * 1 + 1 * 0 = t.val / 32; omega
  | ⟨2, _⟩ => show win0_12.index t (2 : Fin 5) * 1024 + 1 * r.val = 1024 * (t.val / 8 % 4) + r.val; omega
  | ⟨3, _⟩ => show win0_12.index t (3 : Fin 5) * 4 + 1 * p.val = p.val; omega
  | ⟨4, _⟩ => show win0_12.index t (4 : Fin 5) * 4 + 1 * q.val = q.val; omega

/-! ## The input blocks at a point, read off the arrays the region finds -/

/-- The stream block at point `t`: token `r` of the block is token (batch, position) of the stream. -/
theorem tok_blk (c : Dev nD) (t : Fin cfg0.N) (r : Fin 1024) :
    Pay.tok (iblk m c 0 t) r = Mhc.xRow (m ((c : Thread nD τ).loc main_arg0)) (batchOf t) (pos (tileOf t) r) := by
  obtain ⟨e0, e1, e2, e3⟩ := tok_index t
  funext i d
  show V m c main_arg0 (((cfg0.win 0).blk t).view.emb (ix4 (0 : Fin 1) i r d)) = m ((c : Thread nD τ).loc main_arg0) (ix4 (batchOf t) i (pos (tileOf t) r) d)
  rw [V_main_arg0]
  congr 1
  funext a; apply Fin.ext
  match a with
  | ⟨0, _⟩ => show win0_0.index t (0 : Fin 4) * 1 + 1 * 0 = t.val / 32; omega
  | ⟨1, _⟩ => show win0_0.index t (1 : Fin 4) * 4 + 1 * i.val = i.val; omega
  | ⟨2, _⟩ => show win0_0.index t (2 : Fin 4) * 1024 + 1 * r.val = 1024 * (t.val / 8 % 4) + r.val; omega
  | ⟨3, _⟩ => show win0_0.index t (3 : Fin 4) * 512 + 1 * d.val = d.val; omega

/-- The pre gate's weight block at point `t`: row `j` is the expert's selected, scaled row `j`. -/
theorem wPre_blk (c : Dev nD) (t : Fin cfg0.N) (j : Fin 4) :
    Pay.wrow (iblk m c 1 t) j
      = Mhc.wRow (Sel.W4 (m ((c : Thread nD τ).loc main_arg1)) (m ((c : Thread nD τ).loc main_arg2)) (m ((c : Thread nD τ).loc main_arg3)))
          (expertOf t) j := by
  obtain ⟨e0, e1, e2⟩ := (par_index t).1
  funext i d
  have he : ∀ D : Fin 2048, ((cfg0.win 1).blk t).view.emb (ix3 (0 : Fin 1) j D) = ix3 (expertOf t) j D := by
    intro D
    funext a; apply Fin.ext
    match a with
    | ⟨0, _⟩ => show win0_1.index t (0 : Fin 3) * 1 + 1 * 0 = t.val % 8; omega
    | ⟨1, _⟩ => show win0_1.index t (1 : Fin 3) * 4 + 1 * j.val = j.val; omega
    | ⟨2, _⟩ => show win0_1.index t (2 : Fin 3) * 2048 + 1 * D.val = D.val; omega
  show V m c main_v17 (((cfg0.win 1).blk t).view.emb (ix3 (0 : Fin 1) j ⟨512 * i.val + d.val, _⟩)) = _
  rw [he]
  exact Win.v17_at m c (expertOf t) j _

/-- The post gate's weight block at point `t`: row `j` is the expert's selected, scaled row `j`. -/
theorem wPost_blk (c : Dev nD) (t : Fin cfg0.N) (j : Fin 4) :
    Pay.wrow (iblk m c 2 t) j
      = Mhc.wRow (Sel.W4 (m ((c : Thread nD τ).loc main_arg1)) (m ((c : Thread nD τ).loc main_arg2)) (m ((c : Thread nD τ).loc main_arg4)))
          (expertOf t) j := by
  obtain ⟨e0, e1, e2⟩ := (par_index t).2.1
  funext i d
  have he : ∀ D : Fin 2048, ((cfg0.win 2).blk t).view.emb (ix3 (0 : Fin 1) j D) = ix3 (expertOf t) j D := by
    intro D
    funext a; apply Fin.ext
    match a with
    | ⟨0, _⟩ => show win0_2.index t (0 : Fin 3) * 1 + 1 * 0 = t.val % 8; omega
    | ⟨1, _⟩ => show win0_2.index t (1 : Fin 3) * 4 + 1 * j.val = j.val; omega
    | ⟨2, _⟩ => show win0_2.index t (2 : Fin 3) * 2048 + 1 * D.val = D.val; omega
  show V m c main_v28 (((cfg0.win 2).blk t).view.emb (ix3 (0 : Fin 1) j ⟨512 * i.val + d.val, _⟩)) = _
  rw [he]
  exact Win.v28_at m c (expertOf t) j _

/-- The residual gate's weight block at point `t`: row `j` of sixteen is the expert's selected, scaled row `j`. -/
theorem wRes_blk (c : Dev nD) (t : Fin cfg0.N) (j : Fin 16) :
    Pay.wrow (iblk m c 3 t) j
      = Mhc.wRow (Sel.W16 (m ((c : Thread nD τ).loc main_arg1)) (m ((c : Thread nD τ).loc main_arg2)) (m ((c : Thread nD τ).loc main_arg5)))
          (expertOf t) j := by
  obtain ⟨e0, e1, e2⟩ := (par_index t).2.2.1
  funext i d
  have he : ∀ D : Fin 2048, ((cfg0.win 3).blk t).view.emb (ix3 (0 : Fin 1) j D) = ix3 (expertOf t) j D := by
    intro D
    funext a; apply Fin.ext
    match a with
    | ⟨0, _⟩ => show win0_3.index t (0 : Fin 3) * 1 + 1 * 0 = t.val % 8; omega
    | ⟨1, _⟩ => show win0_3.index t (1 : Fin 3) * 16 + 1 * j.val = j.val; omega
    | ⟨2, _⟩ => show win0_3.index t (2 : Fin 3) * 2048 + 1 * D.val = D.val; omega
  show V m c main_v39 (((cfg0.win 3).blk t).view.emb (ix3 (0 : Fin 1) j ⟨512 * i.val + d.val, _⟩)) = _
  rw [he]
  exact Win.v39_at m c (expertOf t) j _

/-- The pre gate's bias block at point `t`: the expert's selected bias row. -/
theorem bPre_blk (c : Dev nD) (t : Fin cfg0.N) (j : Fin 4) :
    iblk m c 4 t (ix3 (0 : Fin 1) (0 : Fin 1) j)
      = Sel.B4 (m ((c : Thread nD τ).loc main_arg1)) (m ((c : Thread nD τ).loc main_arg6)) (ix2 (expertOf t) j) := by
  obtain ⟨e0, e1, e2⟩ := (par_index t).2.2.2.1
  have he : ((cfg0.win 4).blk t).view.emb (ix3 (0 : Fin 1) (0 : Fin 1) j) = ix3 (expertOf t) (0 : Fin 1) j := by
    funext a; apply Fin.ext
    match a with
    | ⟨0, _⟩ => show win0_4.index t (0 : Fin 3) * 1 + 1 * 0 = t.val % 8; omega
    | ⟨1, _⟩ => show win0_4.index t (1 : Fin 3) * 1 + 1 * 0 = 0; omega
    | ⟨2, _⟩ => show win0_4.index t (2 : Fin 3) * 4 + 1 * j.val = j.val; omega
  show V m c main_v47 (((cfg0.win 4).blk t).view.emb (ix3 (0 : Fin 1) (0 : Fin 1) j)) = _
  rw [he]
  exact Win.v47_at m c (expertOf t) j

/-- The post gate's bias block at point `t`: the expert's selected bias row. -/
theorem bPost_blk (c : Dev nD) (t : Fin cfg0.N) (j : Fin 4) :
    iblk m c 5 t (ix3 (0 : Fin 1) (0 : Fin 1) j)
      = Sel.B4 (m ((c : Thread nD τ).loc main_arg1)) (m ((c : Thread nD τ).loc main_arg7)) (ix2 (expertOf t) j) := by
  obtain ⟨e0, e1, e2⟩ := (par_index t).2.2.2.2.1
  have he : ((cfg0.win 5).blk t).view.emb (ix3 (0 : Fin 1) (0 : Fin 1) j) = ix3 (expertOf t) (0 : Fin 1) j := by
    funext a; apply Fin.ext
    match a with
    | ⟨0, _⟩ => show win0_5.index t (0 : Fin 3) * 1 + 1 * 0 = t.val % 8; omega
    | ⟨1, _⟩ => show win0_5.index t (1 : Fin 3) * 1 + 1 * 0 = 0; omega
    | ⟨2, _⟩ => show win0_5.index t (2 : Fin 3) * 4 + 1 * j.val = j.val; omega
  show V m c main_v55 (((cfg0.win 5).blk t).view.emb (ix3 (0 : Fin 1) (0 : Fin 1) j)) = _
  rw [he]
  exact Win.v55_at m c (expertOf t) j

/-- The residual gate's bias block at point `t`: the expert's selected bias matrix. -/
theorem bRes_blk (c : Dev nD) (t : Fin cfg0.N) (p q : Fin 4) :
    iblk m c 6 t (ix3 (0 : Fin 1) p q)
      = Sel.B44 (m ((c : Thread nD τ).loc main_arg1)) (m ((c : Thread nD τ).loc main_arg8)) (ix3 (expertOf t) p q) := by
  obtain ⟨e0, e1, e2⟩ := (par_index t).2.2.2.2.2.1
  have he : ((cfg0.win 6).blk t).view.emb (ix3 (0 : Fin 1) p q) = ix3 (expertOf t) p q := by
    funext a; apply Fin.ext
    match a with
    | ⟨0, _⟩ => show win0_6.index t (0 : Fin 3) * 1 + 1 * 0 = t.val % 8; omega
    | ⟨1, _⟩ => show win0_6.index t (1 : Fin 3) * 4 + 1 * p.val = p.val; omega
    | ⟨2, _⟩ => show win0_6.index t (2 : Fin 3) * 4 + 1 * q.val = q.val; omega
  show V m c main_v62 (((cfg0.win 6).blk t).view.emb (ix3 (0 : Fin 1) p q)) = _
  rw [he]
  exact Win.v62_at m c (expertOf t) p q

/-- The pre gate's scale block at point `t`: the expert's selected scale. -/
theorem aPre_blk (c : Dev nD) (t : Fin cfg0.N) :
    iblk m c 7 t (ix3 (0 : Fin 1) (0 : Fin 1) (0 : Fin 1))
      = Sel.A1 (m ((c : Thread nD τ).loc main_arg1)) (m ((c : Thread nD τ).loc main_arg9)) (ix1 (expertOf t)) := by
  obtain ⟨e0, e1, e2⟩ := (par_index t).2.2.2.2.2.2.1
  have he : ((cfg0.win 7).blk t).view.emb (ix3 (0 : Fin 1) (0 : Fin 1) (0 : Fin 1)) = ix3 (expertOf t) (0 : Fin 1) (0 : Fin 1) := by
    funext a; apply Fin.ext
    match a with
    | ⟨0, _⟩ => show win0_7.index t (0 : Fin 3) * 1 + 1 * 0 = t.val % 8; omega
    | ⟨1, _⟩ => show win0_7.index t (1 : Fin 3) * 1 + 1 * 0 = 0; omega
    | ⟨2, _⟩ => show win0_7.index t (2 : Fin 3) * 1 + 1 * 0 = 0; omega
  show V m c main_v70 (((cfg0.win 7).blk t).view.emb (ix3 (0 : Fin 1) (0 : Fin 1) (0 : Fin 1))) = _
  rw [he]
  exact Win.v70_at m c (expertOf t)

/-- The post gate's scale block at point `t`: the expert's selected scale. -/
theorem aPost_blk (c : Dev nD) (t : Fin cfg0.N) :
    iblk m c 8 t (ix3 (0 : Fin 1) (0 : Fin 1) (0 : Fin 1))
      = Sel.A1 (m ((c : Thread nD τ).loc main_arg1)) (m ((c : Thread nD τ).loc main_arg10)) (ix1 (expertOf t)) := by
  obtain ⟨e0, e1, e2⟩ := (par_index t).2.2.2.2.2.2.2.1
  have he : ((cfg0.win 8).blk t).view.emb (ix3 (0 : Fin 1) (0 : Fin 1) (0 : Fin 1)) = ix3 (expertOf t) (0 : Fin 1) (0 : Fin 1) := by
    funext a; apply Fin.ext
    match a with
    | ⟨0, _⟩ => show win0_8.index t (0 : Fin 3) * 1 + 1 * 0 = t.val % 8; omega
    | ⟨1, _⟩ => show win0_8.index t (1 : Fin 3) * 1 + 1 * 0 = 0; omega
    | ⟨2, _⟩ => show win0_8.index t (2 : Fin 3) * 1 + 1 * 0 = 0; omega
  show V m c main_v78 (((cfg0.win 8).blk t).view.emb (ix3 (0 : Fin 1) (0 : Fin 1) (0 : Fin 1))) = _
  rw [he]
  exact Win.v78_at m c (expertOf t)

/-- The residual gate's scale block at point `t`: the expert's selected scale. -/
theorem aRes_blk (c : Dev nD) (t : Fin cfg0.N) :
    iblk m c 9 t (ix3 (0 : Fin 1) (0 : Fin 1) (0 : Fin 1))
      = Sel.A1 (m ((c : Thread nD τ).loc main_arg1)) (m ((c : Thread nD τ).loc main_arg11)) (ix1 (expertOf t)) := by
  obtain ⟨e0, e1, e2⟩ := (par_index t).2.2.2.2.2.2.2.2
  have he : ((cfg0.win 9).blk t).view.emb (ix3 (0 : Fin 1) (0 : Fin 1) (0 : Fin 1)) = ix3 (expertOf t) (0 : Fin 1) (0 : Fin 1) := by
    funext a; apply Fin.ext
    match a with
    | ⟨0, _⟩ => show win0_9.index t (0 : Fin 3) * 1 + 1 * 0 = t.val % 8; omega
    | ⟨1, _⟩ => show win0_9.index t (1 : Fin 3) * 1 + 1 * 0 = 0; omega
    | ⟨2, _⟩ => show win0_9.index t (2 : Fin 3) * 1 + 1 * 0 = 0; omega
  show V m c main_v86 (((cfg0.win 9).blk t).view.emb (ix3 (0 : Fin 1) (0 : Fin 1) (0 : Fin 1))) = _
  rw [he]
  exact Win.v86_at m c (expertOf t)

/-! ## What a point writes back is its block of the whole-array function -/

/-- Point `t` writes block `t` of the pre gate's array. -/
theorem pre_flushed (c : Dev nD) (t : Fin cfg0.N) :
    (dats m 0 c).flushed 10 t = ((cfg0.win 10).blk t).view.read (Elt Ideal) (preOf m c) := by
  rw [Value.flushed10]
  funext y
  have hy0 : (y 0).val < 1 := (y 0).isLt
  have hy1 : (y 1).val < 1 := (y 1).isLt
  obtain ⟨r, j, rfl⟩ : ∃ (r : Fin 1024) (j : Fin 4), y = ix4 (0 : Fin 1) (0 : Fin 1) r j :=
    ⟨y 2, y 3, by
      funext a; apply Fin.ext
      match a with
      | ⟨0, _⟩ => show (y 0).val = 0; omega
      | ⟨1, _⟩ => show (y 1).val = 0; omega
      | ⟨2, _⟩ => rfl
      | ⟨3, _⟩ => rfl⟩
  show out0_10 (iblk m c 0 t) (iblk m c 1 t) (iblk m c 2 t) (iblk m c 3 t) (iblk m c 4 t) (iblk m c 5 t) (iblk m c 6 t) (iblk m c 7 t) (iblk m c 8 t) (iblk m c 9 t) (ix4 (0 : Fin 1) (0 : Fin 1) r j)
    = preOf m c (((cfg0.win 10).blk t).view.emb (ix4 (0 : Fin 1) (0 : Fin 1) r j))
  rw [pre_emb]
  refine (Pay.out10_at (iblk m c 0 t) (iblk m c 1 t) (iblk m c 2 t) (iblk m c 3 t) (iblk m c 4 t) (iblk m c 5 t) (iblk m c 6 t) (iblk m c 7 t) (iblk m c 8 t) (iblk m c 9 t) r j).trans ?_
  rw [tok_blk m c t r, wPre_blk m c t j, aPre_blk m c t, bPre_blk m c t j]
  rfl

/-- Point `t` writes block `t` of the post gate's array. -/
theorem post_flushed (c : Dev nD) (t : Fin cfg0.N) :
    (dats m 0 c).flushed 11 t = ((cfg0.win 11).blk t).view.read (Elt Ideal) (postOf m c) := by
  rw [Value.flushed11]
  funext y
  have hy0 : (y 0).val < 1 := (y 0).isLt
  have hy1 : (y 1).val < 1 := (y 1).isLt
  obtain ⟨r, j, rfl⟩ : ∃ (r : Fin 1024) (j : Fin 4), y = ix4 (0 : Fin 1) (0 : Fin 1) r j :=
    ⟨y 2, y 3, by
      funext a; apply Fin.ext
      match a with
      | ⟨0, _⟩ => show (y 0).val = 0; omega
      | ⟨1, _⟩ => show (y 1).val = 0; omega
      | ⟨2, _⟩ => rfl
      | ⟨3, _⟩ => rfl⟩
  show out0_11 (iblk m c 0 t) (iblk m c 1 t) (iblk m c 2 t) (iblk m c 3 t) (iblk m c 4 t) (iblk m c 5 t) (iblk m c 6 t) (iblk m c 7 t) (iblk m c 8 t) (iblk m c 9 t) (ix4 (0 : Fin 1) (0 : Fin 1) r j)
    = postOf m c (((cfg0.win 11).blk t).view.emb (ix4 (0 : Fin 1) (0 : Fin 1) r j))
  rw [post_emb]
  refine (Pay.out11_at (iblk m c 0 t) (iblk m c 1 t) (iblk m c 2 t) (iblk m c 3 t) (iblk m c 4 t) (iblk m c 5 t) (iblk m c 6 t) (iblk m c 7 t) (iblk m c 8 t) (iblk m c 9 t) r j).trans ?_
  rw [tok_blk m c t r, wPost_blk m c t j, aPost_blk m c t, bPost_blk m c t j]
  rfl

/-- Point `t` writes block `t` of the residual gate's array. -/
theorem res_flushed (c : Dev nD) (t : Fin cfg0.N) :
    (dats m 0 c).flushed 12 t = ((cfg0.win 12).blk t).view.read (Elt Ideal) (resOf m c) := by
  rw [Value.flushed12]
  funext y
  have hy0 : (y 0).val < 1 := (y 0).isLt
  have hy1 : (y 1).val < 1 := (y 1).isLt
  obtain ⟨r, p, q, rfl⟩ : ∃ (r : Fin 1024) (p q : Fin 4), y = ix5 (0 : Fin 1) (0 : Fin 1) r p q :=
    ⟨y 2, y 3, y 4, by
      funext a; apply Fin.ext
      match a with
      | ⟨0, _⟩ => show (y 0).val = 0; omega
      | ⟨1, _⟩ => show (y 1).val = 0; omega
      | ⟨2, _⟩ => rfl
      | ⟨3, _⟩ => rfl
      | ⟨4, _⟩ => rfl⟩
  show out0_12 (iblk m c 0 t) (iblk m c 1 t) (iblk m c 2 t) (iblk m c 3 t) (iblk m c 4 t) (iblk m c 5 t) (iblk m c 6 t) (iblk m c 7 t) (iblk m c 8 t) (iblk m c 9 t) (ix5 (0 : Fin 1) (0 : Fin 1) r p q)
    = resOf m c (((cfg0.win 12).blk t).view.emb (ix5 (0 : Fin 1) (0 : Fin 1) r p q))
  rw [res_emb]
  refine (Pay.out12_at (iblk m c 0 t) (iblk m c 1 t) (iblk m c 2 t) (iblk m c 3 t) (iblk m c 4 t) (iblk m c 5 t) (iblk m c 6 t) (iblk m c 7 t) (iblk m c 8 t) (iblk m c 9 t) r p q).trans ?_
  rw [tok_blk m c t r, aRes_blk m c t]
  have hw : (fun p' q' => Pay.wrow (iblk m c 3 t) (Mhc.ch16 p' q'))
      = fun p' q' => Mhc.wRow (Sel.W16 (m ((c : Thread nD τ).loc main_arg1)) (m ((c : Thread nD τ).loc main_arg2)) (m ((c : Thread nD τ).loc main_arg5)))
          (expertOf t) (Mhc.ch16 p' q') := by
    funext p' q'; exact wRes_blk m c t _
  have hb : (fun p' q' => iblk m c 6 t (ix3 (0 : Fin 1) p' q'))
      = fun p' q' => Sel.B44 (m ((c : Thread nD τ).loc main_arg1)) (m ((c : Thread nD τ).loc main_arg8)) (ix3 (expertOf t) p' q') := by
    funext p' q'; exact bRes_blk m c t p' q'
  rw [hw, hb]
  rfl

/-! ## The blocks tile each result array -/

/-- An entry of the pre gate's array is in point `t`'s block iff each coordinate is in the block's range on its axis. -/
theorem pre_mem_blk (t : Fin cfg0.N) (i : S8x8x4096x4.Idx) :
    i ∈ ((cfg0.win 10).blk t).view.set ↔ ∀ a : Fin 4, win0_10.index t a * S1x1x1024x4.size a ≤ (i a).val
      ∧ (i a).val < win0_10.index t a * S1x1x1024x4.size a + S1x1x1024x4.size a := by
  show i ∈ ((View.whole main_v87_0).slice (win0_10.rect t)).set ↔ _
  rw [View.set_slice_whole, Rect.mem_set_unit]
  exact Iff.rfl

/-- An entry of the post gate's array is in point `t`'s block iff each coordinate is in the block's range on its axis. -/
theorem post_mem_blk (t : Fin cfg0.N) (i : S8x8x4096x4.Idx) :
    i ∈ ((cfg0.win 11).blk t).view.set ↔ ∀ a : Fin 4, win0_11.index t a * S1x1x1024x4.size a ≤ (i a).val
      ∧ (i a).val < win0_11.index t a * S1x1x1024x4.size a + S1x1x1024x4.size a := by
  show i ∈ ((View.whole main_v87_1).slice (win0_11.rect t)).set ↔ _
  rw [View.set_slice_whole, Rect.mem_set_unit]
  exact Iff.rfl

/-- An entry of the residual gate's array is in point `t`'s block iff each coordinate is in the block's range on its axis. -/
theorem res_mem_blk (t : Fin cfg0.N) (i : S8x8x4096x4x4.Idx) :
    i ∈ ((cfg0.win 12).blk t).view.set ↔ ∀ a : Fin 5, win0_12.index t a * S1x1x1024x4x4.size a ≤ (i a).val
      ∧ (i a).val < win0_12.index t a * S1x1x1024x4x4.size a + S1x1x1024x4x4.size a := by
  show i ∈ ((View.whole main_v87_2).slice (win0_12.rect t)).set ↔ _
  rw [View.set_slice_whole, Rect.mem_set_unit]
  exact Iff.rfl

/-- Every entry of the pre gate's array is in the block of the point of its expert, batch and tile. -/
theorem pre_cover (i : S8x8x4096x4.Idx) :
    ∃ t : Fin cfg0.N, (cfg0.win 10).flush t = true ∧ i ∈ ((cfg0.win 10).blk t).view.set := by
  have h0 : (i 0).val < 8 := (i 0).isLt
  have h1 : (i 1).val < 8 := (i 1).isLt
  have h2 : (i 2).val < 4096 := (i 2).isLt
  have h3 : (i 3).val < 4 := (i 3).isLt
  have hN : cfg0.N = 256 := N_0
  obtain ⟨t, hv⟩ : ∃ t : Fin cfg0.N, t.val = ((i 1).val * 4 + (i 2).val / 1024) * 8 + (i 0).val :=
    ⟨⟨((i 1).val * 4 + (i 2).val / 1024) * 8 + (i 0).val, by rw [hN]; omega⟩, rfl⟩
  obtain ⟨e0, e1, e2, e3, -⟩ := out_index t
  refine ⟨t, flush0_10 t, ?_⟩
  rw [pre_mem_blk]
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 1 ≤ (i 1).val ∧ (i 1).val < win0_10.index t (1 : Fin 4) * 1 + 1; omega
  | ⟨2, _⟩ => show win0_10.index t (2 : Fin 4) * 1024 ≤ (i 2).val ∧ (i 2).val < win0_10.index t (2 : Fin 4) * 1024 + 1024; omega
  | ⟨3, _⟩ => show win0_10.index t (3 : Fin 4) * 4 ≤ (i 3).val ∧ (i 3).val < win0_10.index t (3 : Fin 4) * 4 + 4; omega

/-- Every entry of the post gate's array is in the block of the point of its expert, batch and tile. -/
theorem post_cover (i : S8x8x4096x4.Idx) :
    ∃ t : Fin cfg0.N, (cfg0.win 11).flush t = true ∧ i ∈ ((cfg0.win 11).blk t).view.set := by
  have h0 : (i 0).val < 8 := (i 0).isLt
  have h1 : (i 1).val < 8 := (i 1).isLt
  have h2 : (i 2).val < 4096 := (i 2).isLt
  have h3 : (i 3).val < 4 := (i 3).isLt
  have hN : cfg0.N = 256 := N_0
  obtain ⟨t, hv⟩ : ∃ t : Fin cfg0.N, t.val = ((i 1).val * 4 + (i 2).val / 1024) * 8 + (i 0).val :=
    ⟨⟨((i 1).val * 4 + (i 2).val / 1024) * 8 + (i 0).val, by rw [hN]; omega⟩, rfl⟩
  obtain ⟨-, -, -, -, e0, e1, e2, e3, -⟩ := out_index t
  refine ⟨t, flush0_11 t, ?_⟩
  rw [post_mem_blk]
  intro a
  match a with
  | ⟨0, _⟩ => show win0_11.index t (0 : Fin 4) * 1 ≤ (i 0).val ∧ (i 0).val < win0_11.index t (0 : Fin 4) * 1 + 1; omega
  | ⟨1, _⟩ => show win0_11.index t (1 : Fin 4) * 1 ≤ (i 1).val ∧ (i 1).val < win0_11.index t (1 : Fin 4) * 1 + 1; omega
  | ⟨2, _⟩ => show win0_11.index t (2 : Fin 4) * 1024 ≤ (i 2).val ∧ (i 2).val < win0_11.index t (2 : Fin 4) * 1024 + 1024; omega
  | ⟨3, _⟩ => show win0_11.index t (3 : Fin 4) * 4 ≤ (i 3).val ∧ (i 3).val < win0_11.index t (3 : Fin 4) * 4 + 4; omega

/-- Every entry of the residual gate's array is in the block of the point of its expert, batch and tile. -/
theorem res_cover (i : S8x8x4096x4x4.Idx) :
    ∃ t : Fin cfg0.N, (cfg0.win 12).flush t = true ∧ i ∈ ((cfg0.win 12).blk t).view.set := by
  have h0 : (i 0).val < 8 := (i 0).isLt
  have h1 : (i 1).val < 8 := (i 1).isLt
  have h2 : (i 2).val < 4096 := (i 2).isLt
  have h3 : (i 3).val < 4 := (i 3).isLt
  have h4 : (i 4).val < 4 := (i 4).isLt
  have hN : cfg0.N = 256 := N_0
  obtain ⟨t, hv⟩ : ∃ t : Fin cfg0.N, t.val = ((i 1).val * 4 + (i 2).val / 1024) * 8 + (i 0).val :=
    ⟨⟨((i 1).val * 4 + (i 2).val / 1024) * 8 + (i 0).val, by rw [hN]; omega⟩, rfl⟩
  obtain ⟨-, -, -, -, -, -, -, -, e0, e1, e2, e3, e4⟩ := out_index t
  refine ⟨t, flush0_12 t, ?_⟩
  rw [res_mem_blk]
  intro a
  match a with
  | ⟨0, _⟩ => show win0_12.index t (0 : Fin 5) * 1 ≤ (i 0).val ∧ (i 0).val < win0_12.index t (0 : Fin 5) * 1 + 1; omega
  | ⟨1, _⟩ => show win0_12.index t (1 : Fin 5) * 1 ≤ (i 1).val ∧ (i 1).val < win0_12.index t (1 : Fin 5) * 1 + 1; omega
  | ⟨2, _⟩ => show win0_12.index t (2 : Fin 5) * 1024 ≤ (i 2).val ∧ (i 2).val < win0_12.index t (2 : Fin 5) * 1024 + 1024; omega
  | ⟨3, _⟩ => show win0_12.index t (3 : Fin 5) * 4 ≤ (i 3).val ∧ (i 3).val < win0_12.index t (3 : Fin 5) * 4 + 4; omega
  | ⟨4, _⟩ => show win0_12.index t (4 : Fin 5) * 4 ≤ (i 4).val ∧ (i 4).val < win0_12.index t (4 : Fin 5) * 4 + 4; omega

/-! ## The result arrays after the run -/

/-- The pre gate's array after the run. -/
theorem pre_final (c : Dev nD) : (dats m 0 c).arrAt 10 cfg0.N = preOf m c :=
  (dats m 0 c).arrAt_eq_of_cover 10 (preOf m c) (fun t _ => pre_flushed m c t) pre_cover

/-- The post gate's array after the run. -/
theorem post_final (c : Dev nD) : (dats m 0 c).arrAt 11 cfg0.N = postOf m c :=
  (dats m 0 c).arrAt_eq_of_cover 11 (postOf m c) (fun t _ => post_flushed m c t) post_cover

/-- The residual gate's array after the run. -/
theorem res_final (c : Dev nD) : (dats m 0 c).arrAt 12 cfg0.N = resOf m c :=
  (dats m 0 c).arrAt_eq_of_cover 12 (resOf m c) (fun t _ => res_flushed m c t) res_cover

/-- The kernel's run: each result array at its function of the arguments, the arguments unchanged. -/
theorem run : θ_run (defs (F := Ideal)) (onTc (τ := τ) (main (F := Ideal))) ⟨m, fun _ => 0, ρ⟩ fun r => ∀ c : Dev nD,
      r.2.mem ((c : Thread nD τ).loc main_v87_0) = preOf m c
      ∧ r.2.mem ((c : Thread nD τ).loc main_v87_1) = postOf m c
      ∧ r.2.mem ((c : Thread nD τ).loc main_v87_2) = resOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) := by
  exact (θ_run defs _ _).mono (fun r h c => ⟨(h c).1.trans (pre_final m c), (h c).2.1.trans (post_final m c),
    (h c).2.2.1.trans (res_final m c), (h c).2.2.2⟩) (Value.run_blocks m ρ)

end Cert.KernelIdeal.Fin

end
-- ==== Proof.RSel.lean ====
/-
  The selected experts' parameters, as functions of the argument arrays: the index vector with negative entries
  wrapped by the number of experts, the rows it selects from each table, and the selected weight rows scaled entry by
  entry by the selected norm weights. These are carried whole; nothing downstream looks inside a selection.
-/
import proofs.«119140_j39831526703216_1_alg».proof.Proof.Gen.ReferenceIdeal
import Idealize.ShloMosaic.PureOps.Ideal

noncomputable section

namespace Cert.ReferenceIdeal.Sel

open Cert.ReferenceIdeal Cert.ReferenceIdeal.Facts₀ Idealize.ShloMosaic Idealize.ShloMosaic.TcCoe

/-- The index column: an index below zero counts from the end of the 64 experts. -/
def sel (a1 : IVec S8 32) : IVec S8x1 32 :=
  broadcastInDim S8x1 ![0] bcast_S8_S8x1_0 (select (cmpi .slt a1 (broadcastInDim S8 ![] bcast_S_S8 (constantI S_ 32 0#32)))
    (addi a1 (broadcastInDim S8 ![] bcast_S_S8 (constantI S_ 32 64#32))) a1)

/-- The selected experts' norm weights. -/
def nw (a1 : IVec S8 32) (a2 : FVec Ideal S64x2048 .f32) : FVec Ideal S8x2048 .f32 :=
  Host.gather gather_S64x2048_S8x1_S8x2048_1_0_n_n_0_1_12048 a2 (sel a1)

/-- Four selected weight rows per expert, each entry scaled by the expert's norm weight. -/
def W4 (a1 : IVec S8 32) (a2 : FVec Ideal S64x2048 .f32) (a : FVec Ideal S64x4x2048 .f32) : FVec Ideal S8x4x2048 .f32 :=
  mulf (Host.gather gather_S64x4x2048_S8x1_S8x4x2048_12_0_n_n_0_1_142048 a (sel a1))
    (broadcastInDim S8x4x2048 ![0, 1, 2] bcast_S8x1x2048_S8x4x2048_0_1_2
      (broadcastInDim S8x1x2048 ![0, 2] bcast_S8x2048_S8x1x2048_0_2 (nw a1 a2)))

/-- Sixteen selected weight rows per expert, scaled likewise. -/
def W16 (a1 : IVec S8 32) (a2 : FVec Ideal S64x2048 .f32) (a : FVec Ideal S64x16x2048 .f32) : FVec Ideal S8x16x2048 .f32 :=
  mulf (Host.gather gather_S64x16x2048_S8x1_S8x16x2048_12_0_n_n_0_1_1162048 a (sel a1))
    (broadcastInDim S8x16x2048 ![0, 1, 2] bcast_S8x1x2048_S8x16x2048_0_1_2
      (broadcastInDim S8x1x2048 ![0, 2] bcast_S8x2048_S8x1x2048_0_2 (nw a1 a2)))

/-- The selected experts' bias rows. -/
def B4 (a1 : IVec S8 32) (a : FVec Ideal S64x4 .f32) : FVec Ideal S8x4 .f32 :=
  Host.gather gather_S64x4_S8x1_S8x4_1_0_n_n_0_1_14 a (sel a1)

/-- The selected experts' bias matrices. -/
def B44 (a1 : IVec S8 32) (a : FVec Ideal S64x4x4 .f32) : FVec Ideal S8x4x4 .f32 :=
  Host.gather gather_S64x4x4_S8x1_S8x4x4_12_0_n_n_0_1_144 a (sel a1)

/-- The selected experts' scales. -/
def A1 (a1 : IVec S8 32) (a : FVec Ideal S64 .f32) : FVec Ideal S8 .f32 :=
  Host.gather gather_S64_S8x1_S8_n_0_n_n_0_1_1 a (sel a1)

end Cert.ReferenceIdeal.Sel

end
-- ==== Proof.RCore.lean ====
/-
  The reference's shared intermediates read at an index (at the ideal instance).

  The reference lays each token out as one row of 2048 entries (stream `D / 512`, entry `D % 512`), scales every
  entry of the row by the row's reciprocal root mean square, and contracts the scaled rows against every selected
  weight row at once.
-/
import proofs.«119140_j39831526703216_1_alg».proof.Proof.Gen.ReferenceIdeal.Run
import proofs.«119140_j39831526703216_1_alg».proof.Proof.Spec
import proofs.«119140_j39831526703216_1_alg».proof.Proof.RSel
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Ref

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx

variable (V0 : Valuation τ sig (Elt Ideal))

/-- The rows of tokens: entry `D` of row `(b, t)` is the token's flat entry `D`. -/
theorem x1_at (b : Fin 8) (t : Fin 4096) (D : Fin 2048) :
    res_main_v1 V0 (ix3 b t D) = Mhc.flat (Mhc.xRow (V0 (Proc.devRef .tc main_arg0)) b t) D := by
  unfold res_main_v1
  -- the row-major position of (b, t, D) in [8, 4096, 2048] is that of (b, t, D / 512, D % 512) in [8, 4096, 4, 512]
  refine (shapeCast_apply _ _ (ix3 b t D)
    (ix4 b t (⟨D.val / 512, by have := D.isLt; omega⟩ : Fin 4) (⟨D.val % 512, Nat.mod_lt _ (by norm_num)⟩ : Fin 512)) ?_).trans ?_
  · rw [Shape.rowMajor_val_four, Shape.rowMajor_val_three]
    show ((b.val * 4096 + t.val) * 4 + D.val / 512) * 512 + D.val % 512 = (b.val * 4096 + t.val) * 2048 + D.val
    omega
  -- and the transpose exchanges the stream axis with the position axis
  · exact transpose_apply _ _ _ _
      (ix4 b (⟨D.val / 512, by have := D.isLt; omega⟩ : Fin 4) t (⟨D.val % 512, Nat.mod_lt _ (by norm_num)⟩ : Fin 512))
      fun c => match c with | ⟨0, _⟩ => rfl | ⟨1, _⟩ => rfl | ⟨2, _⟩ => rfl | ⟨3, _⟩ => rfl

/-- The reference's reduction facts name the same shapes as a single-axis reduction. -/
private theorem red2 : S8x4096x2048.Reduces [2] S8x4096 := by decide

/-- The inserted index over row `(b, t)` at entry `D` is `(b, t, D)`. -/
private theorem red2_lift (b : Fin 8) (t : Fin 4096) (D : Fin 2048) : red2.lift (ix2 b t) D = ix3 b t D :=
  funext fun a => match a with | ⟨0, _⟩ => Fin.ext rfl | ⟨1, _⟩ => Fin.ext rfl | ⟨2, _⟩ => Fin.ext rfl

/-- The row sums of the squared entries: row `(b, t)`'s is the sum of squares of the token's flat entries. -/
private theorem ssq_at (b : Fin 8) (t : Fin 4096) :
    Host.reduceAdd (F := Ideal) (mulf (res_main_v1 V0) (res_main_v1 V0)) (constant (F := Ideal) S_ .f32 0x00000000#32)
        reducesTo_S8x4096x2048_S8x4096_d2 h_S_ (ix2 b t)
      = Mhc.ssqR (Mhc.flat (Mhc.xRow (V0 (Proc.devRef .tc main_arg0)) b t)) := by
  refine (hostReduceAdd_apply _ _ _ _ _).trans ?_
  refine (Ideal.hostReduceAdd_single reducesTo_S8x4096x2048_S8x4096_d2 red2 _ _ _).trans ?_
  rw [constant_apply, Ideal.ofBits_zero_f32, zero_add]
  unfold Mhc.ssqR
  show (∑ D : Fin 2048, mulf (res_main_v1 V0) (res_main_v1 V0) (red2.lift (ix2 b t) D)) = _
  refine Finset.sum_congr rfl fun D _ => ?_
  rw [red2_lift, mulf_apply, x1_at]

/-- The scaled rows: every entry times its row's reciprocal root mean square, in the reference's spelling. -/
theorem xn_at (b : Fin 8) (t : Fin 4096) (D : Fin 2048) :
    res_main_v11 V0 (ix3 b t D)
      = Mhc.flat (Mhc.xRow (V0 (Proc.devRef .tc main_arg0)) b t) D * Mhc.rmsR (Mhc.flat (Mhc.xRow (V0 (Proc.devRef .tc main_arg0)) b t)) := by
  unfold res_main_v11
  rw [mulf_apply, x1_at]
  congr 1
  -- the column of reciprocal roots, broadcast along the row, reads its row's entry
  refine (broadcastInDim_apply _ _ _ (ix3 b t D) (ix3 b t (0 : Fin 1))
    fun a => match a with | ⟨0, _⟩ => rfl | ⟨1, _⟩ => rfl | ⟨2, _⟩ => rfl).trans ?_
  unfold Mhc.rmsR
  show Ideal.rsqrt (Ideal.div _ _ + _) = _
  refine congrArg Ideal.rsqrt (congrArg₂ (· + ·) (congrArg₂ Ideal.div ?_ ?_) ?_)
  · refine (broadcastInDim_apply _ _ _ (ix3 b t (0 : Fin 1)) (ix2 b t)
      fun a => match a with | ⟨0, _⟩ => rfl | ⟨1, _⟩ => rfl).trans ?_
    exact ssq_at V0 b t
  · exact broadcastInDim_scalar_apply _ _ _
  · exact broadcastInDim_scalar_apply _ _ _

/-- The selected norm weights are the selection of the second argument. -/
theorem nw_eq : res_main_v18 V0 = Sel.nw (V0 (Proc.devRef .tc main_arg1)) (V0 (Proc.devRef .tc main_arg2)) := rfl

/-! The operand indices of the four-row contraction, axis by axis: the weight operand reads the result's first two
    coordinates and the contraction position, the token operand the result's last two and the contraction position. -/

private theorem lhs4_0 (y : S8x4x8x4096.Idx) (q : dot_S8x4x2048_S8x4096x2048_S8x4x8x4096_2_2_01_01_n_n.contr.Idx) :
    (dot_S8x4x2048_S8x4096x2048_S8x4x8x4096_2_2_01_01_n_n.lhsIdx y q 0).val = (y 0).val := by
  unfold DotDims.lhsIdx
  rw [dif_neg (show ¬(0 : Fin S8x4x2048.rank) ∈ dot_S8x4x2048_S8x4096x2048_S8x4x8x4096_2_2_01_01_n_n.lhsBatch by decide),
    dif_pos (show (0 : Fin S8x4x2048.rank) ∈ dot_S8x4x2048_S8x4096x2048_S8x4x8x4096_2_2_01_01_n_n.lhsNonContracting by decide)]
  rfl

private theorem lhs4_1 (y : S8x4x8x4096.Idx) (q : dot_S8x4x2048_S8x4096x2048_S8x4x8x4096_2_2_01_01_n_n.contr.Idx) :
    (dot_S8x4x2048_S8x4096x2048_S8x4x8x4096_2_2_01_01_n_n.lhsIdx y q 1).val = (y 1).val := by
  unfold DotDims.lhsIdx
  rw [dif_neg (show ¬(1 : Fin S8x4x2048.rank) ∈ dot_S8x4x2048_S8x4096x2048_S8x4x8x4096_2_2_01_01_n_n.lhsBatch by decide),
    dif_pos (show (1 : Fin S8x4x2048.rank) ∈ dot_S8x4x2048_S8x4096x2048_S8x4x8x4096_2_2_01_01_n_n.lhsNonContracting by decide)]
  rfl

private theorem rhs4_0 (y : S8x4x8x4096.Idx) (q : dot_S8x4x2048_S8x4096x2048_S8x4x8x4096_2_2_01_01_n_n.contr.Idx) :
    (dot_S8x4x2048_S8x4096x2048_S8x4x8x4096_2_2_01_01_n_n.rhsIdx y q 0).val = (y 2).val := by
  unfold DotDims.rhsIdx
  rw [dif_neg (show ¬(0 : Fin S8x4096x2048.rank) ∈ dot_S8x4x2048_S8x4096x2048_S8x4x8x4096_2_2_01_01_n_n.rhsBatch by decide),
    dif_pos (show (0 : Fin S8x4096x2048.rank) ∈ dot_S8x4x2048_S8x4096x2048_S8x4x8x4096_2_2_01_01_n_n.rhsNonContracting by decide)]
  rfl

private theorem rhs4_1 (y : S8x4x8x4096.Idx) (q : dot_S8x4x2048_S8x4096x2048_S8x4x8x4096_2_2_01_01_n_n.contr.Idx) :
    (dot_S8x4x2048_S8x4096x2048_S8x4x8x4096_2_2_01_01_n_n.rhsIdx y q 1).val = (y 3).val := by
  unfold DotDims.rhsIdx
  rw [dif_neg (show ¬(1 : Fin S8x4096x2048.rank) ∈ dot_S8x4x2048_S8x4096x2048_S8x4x8x4096_2_2_01_01_n_n.rhsBatch by decide),
    dif_pos (show (1 : Fin S8x4096x2048.rank) ∈ dot_S8x4x2048_S8x4096x2048_S8x4x8x4096_2_2_01_01_n_n.rhsNonContracting by decide)]
  rfl

/-- The contraction against four weight rows per expert, at (expert, channel, batch, position). -/
theorem dot4_at (W : FVec Ideal S8x4x2048 .f32) (Y : FVec Ideal S8x4096x2048 .f32) (k : Fin 8) (j : Fin 4) (b : Fin 8) (t : Fin 4096) :
    Host.dotGeneral dot_S8x4x2048_S8x4096x2048_S8x4x8x4096_2_2_01_01_n_n none W Y (ix4 k j b t)
      = ∑ D : Fin 2048, W (ix3 k j D) * Y (ix3 b t D) := by
  refine (Ideal.dotGeneral_apply dot_S8x4x2048_S8x4096x2048_S8x4x8x4096_2_2_01_01_n_n none .single W Y (ix4 k j b t)).trans ?_
  -- the contraction index is its one coordinate
  refine (Equiv.sum_comp (contrEquiv1 dot_S8x4x2048_S8x4096x2048_S8x4x8x4096_2_2_01_01_n_n 2048 rfl rfl).symm _).symm.trans ?_
  refine Finset.sum_congr rfl fun D _ => ?_
  have hq := contrEquiv1_symm_val dot_S8x4x2048_S8x4096x2048_S8x4x8x4096_2_2_01_01_n_n 2048 rfl rfl D
  refine congrArg₂ (· * ·) (congrArg W (funext fun a => Fin.ext ?_)) (congrArg Y (funext fun a => Fin.ext ?_))
  · match a with
    | ⟨0, _⟩ => exact lhs4_0 _ _
    | ⟨1, _⟩ => exact lhs4_1 _ _
    | ⟨2, _⟩ =>
      exact (DotDims.lhsIdx_val_of_single dot_S8x4x2048_S8x4096x2048_S8x4x8x4096_2_2_01_01_n_n (cl := 2) rfl _ _).trans hq
  · match a with
    | ⟨0, _⟩ => exact rhs4_0 _ _
    | ⟨1, _⟩ => exact rhs4_1 _ _
    | ⟨2, _⟩ =>
      exact (DotDims.rhsIdx_val_of_single dot_S8x4x2048_S8x4096x2048_S8x4x8x4096_2_2_01_01_n_n (cr := 2) rfl _ _).trans hq

/-! The same for the sixteen-row contraction. -/

private theorem lhs16_0 (y : S8x16x8x4096.Idx) (q : dot_S8x16x2048_S8x4096x2048_S8x16x8x4096_2_2_01_01_n_n.contr.Idx) :
    (dot_S8x16x2048_S8x4096x2048_S8x16x8x4096_2_2_01_01_n_n.lhsIdx y q 0).val = (y 0).val := by
  unfold DotDims.lhsIdx
  rw [dif_neg (show ¬(0 : Fin S8x16x2048.rank) ∈ dot_S8x16x2048_S8x4096x2048_S8x16x8x4096_2_2_01_01_n_n.lhsBatch by decide),
    dif_pos (show (0 : Fin S8x16x2048.rank) ∈ dot_S8x16x2048_S8x4096x2048_S8x16x8x4096_2_2_01_01_n_n.lhsNonContracting by decide)]
  rfl

private theorem lhs16_1 (y : S8x16x8x4096.Idx) (q : dot_S8x16x2048_S8x4096x2048_S8x16x8x4096_2_2_01_01_n_n.contr.Idx) :
    (dot_S8x16x2048_S8x4096x2048_S8x16x8x4096_2_2_01_01_n_n.lhsIdx y q 1).val = (y 1).val := by
  unfold DotDims.lhsIdx
  rw [dif_neg (show ¬(1 : Fin S8x16x2048.rank) ∈ dot_S8x16x2048_S8x4096x2048_S8x16x8x4096_2_2_01_01_n_n.lhsBatch by decide),
    dif_pos (show (1 : Fin S8x16x2048.rank) ∈ dot_S8x16x2048_S8x4096x2048_S8x16x8x4096_2_2_01_01_n_n.lhsNonContracting by decide)]
  rfl

private theorem rhs16_0 (y : S8x16x8x4096.Idx) (q : dot_S8x16x2048_S8x4096x2048_S8x16x8x4096_2_2_01_01_n_n.contr.Idx) :
    (dot_S8x16x2048_S8x4096x2048_S8x16x8x4096_2_2_01_01_n_n.rhsIdx y q 0).val = (y 2).val := by
  unfold DotDims.rhsIdx
  rw [dif_neg (show ¬(0 : Fin S8x4096x2048.rank) ∈ dot_S8x16x2048_S8x4096x2048_S8x16x8x4096_2_2_01_01_n_n.rhsBatch by decide),
    dif_pos (show (0 : Fin S8x4096x2048.rank) ∈ dot_S8x16x2048_S8x4096x2048_S8x16x8x4096_2_2_01_01_n_n.rhsNonContracting by decide)]
  rfl

private theorem rhs16_1 (y : S8x16x8x4096.Idx) (q : dot_S8x16x2048_S8x4096x2048_S8x16x8x4096_2_2_01_01_n_n.contr.Idx) :
    (dot_S8x16x2048_S8x4096x2048_S8x16x8x4096_2_2_01_01_n_n.rhsIdx y q 1).val = (y 3).val := by
  unfold DotDims.rhsIdx
  rw [dif_neg (show ¬(1 : Fin S8x4096x2048.rank) ∈ dot_S8x16x2048_S8x4096x2048_S8x16x8x4096_2_2_01_01_n_n.rhsBatch by decide),
    dif_pos (show (1 : Fin S8x4096x2048.rank) ∈ dot_S8x16x2048_S8x4096x2048_S8x16x8x4096_2_2_01_01_n_n.rhsNonContracting by decide)]
  rfl

/-- The contraction against sixteen weight rows per expert. -/
theorem dot16_at (W : FVec Ideal S8x16x2048 .f32) (Y : FVec Ideal S8x4096x2048 .f32) (k : Fin 8) (j : Fin 16) (b : Fin 8) (t : Fin 4096) :
    Host.dotGeneral dot_S8x16x2048_S8x4096x2048_S8x16x8x4096_2_2_01_01_n_n none W Y (ix4 k j b t)
      = ∑ D : Fin 2048, W (ix3 k j D) * Y (ix3 b t D) := by
  refine (Ideal.dotGeneral_apply dot_S8x16x2048_S8x4096x2048_S8x16x8x4096_2_2_01_01_n_n none .single W Y (ix4 k j b t)).trans ?_
  -- the contraction index is its one coordinate
  refine (Equiv.sum_comp (contrEquiv1 dot_S8x16x2048_S8x4096x2048_S8x16x8x4096_2_2_01_01_n_n 2048 rfl rfl).symm _).symm.trans ?_
  refine Finset.sum_congr rfl fun D _ => ?_
  have hq := contrEquiv1_symm_val dot_S8x16x2048_S8x4096x2048_S8x16x8x4096_2_2_01_01_n_n 2048 rfl rfl D
  refine congrArg₂ (· * ·) (congrArg W (funext fun a => Fin.ext ?_)) (congrArg Y (funext fun a => Fin.ext ?_))
  · match a with
    | ⟨0, _⟩ => exact lhs16_0 _ _
    | ⟨1, _⟩ => exact lhs16_1 _ _
    | ⟨2, _⟩ =>
      exact (DotDims.lhsIdx_val_of_single dot_S8x16x2048_S8x4096x2048_S8x16x8x4096_2_2_01_01_n_n (cl := 2) rfl _ _).trans hq
  · match a with
    | ⟨0, _⟩ => exact rhs16_0 _ _
    | ⟨1, _⟩ => exact rhs16_1 _ _
    | ⟨2, _⟩ =>
      exact (DotDims.rhsIdx_val_of_single dot_S8x16x2048_S8x4096x2048_S8x16x8x4096_2_2_01_01_n_n (cr := 2) rfl _ _).trans hq

/-- A gate's argument in the reference's spelling is the specification's gate: the scaled row contracted against
    weight row `(k, j)`, times `α`, plus `β`. -/
theorem gate_at {n : Nat} (W : (⟨3, ![8, n, 2048]⟩ : Shape).Idx → EReal) (k : Fin 8) (j : Fin n) (b : Fin 8) (t : Fin 4096) (α β : EReal) :
    α * (∑ D : Fin 2048, W (ix3 k j D) * res_main_v11 V0 (ix3 b t D)) + β
      = Mhc.gate (Mhc.xRow (V0 (Proc.devRef .tc main_arg0)) b t) (Mhc.wRow W k j) α β := by
  rw [← Mhc.gateR_flat]
  unfold Mhc.gateR
  refine congrArg (fun s => α * s + β) (Finset.sum_congr rfl fun D _ => ?_)
  rw [xn_at, Mhc.flat_wRow]

end Cert.ReferenceIdeal.Ref

end
-- ==== Proof.RGate.lean ====
/-
  The reference's pre and post gates as whole arrays: at (expert, batch, position, channel) the logistic, spelt out
  as one over one plus the exponential of the negated argument, of the gate of that token against that expert's row.
-/
import proofs.«119140_j39831526703216_1_alg».proof.Proof.RCore

noncomputable section

namespace Cert.ReferenceIdeal.Ref

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx

variable (V0 : Valuation τ sig (Elt Ideal))

/-- The f32 word of one, broadcast from a scalar, reads one everywhere. -/
private theorem one_at (y : S8x8x4096x4.Idx) :
    broadcastInDim S8x8x4096x4 ![] bcast_S_S8x8x4096x4 (constant (F := Ideal) S_ .f32 0x3F800000#32) y = 1 :=
  (broadcastInDim_scalar_apply _ _ _).trans Ideal.ofBits_one_f32

/-- The f32 word of two, broadcast from a scalar, reads that word everywhere. -/
private theorem two_at (y : S8x8x4096x4.Idx) :
    broadcastInDim S8x8x4096x4 ![] bcast_S_S8x8x4096x4 (constant (F := Ideal) S_ .f32 0x40000000#32) y = Mhc.cTwo :=
  broadcastInDim_scalar_apply _ _ _

/-- The argument of the pre and post gates at (expert, batch, position, channel): the expert's scale times the
    contraction of its weight row with the scaled token, plus the expert's bias for the channel, is the specification's
    gate of that token against that row. -/
private theorem arg_at (A : FVec Ideal S8 .f32) (Wg : FVec Ideal S8x4x2048 .f32) (Bv : FVec Ideal S8x4 .f32)
    (k : Fin 8) (b : Fin 8) (t : Fin 4096) (j : Fin 4) :
    addf (mulf (broadcastInDim S8x8x4096x4 ![0, 1, 2, 3] bcast_S8x1x1x1_S8x8x4096x4_0_1_2_3 (broadcastInDim S8x1x1x1 ![0] bcast_S8_S8x1x1x1_0 A))
        (transpose S8x8x4096x4 [0, 2, 3, 1] (Host.dotGeneral (φ₂ := .f32) dot_S8x4x2048_S8x4096x2048_S8x4x8x4096_2_2_01_01_n_n none Wg (res_main_v11 V0)) transposes_S8x4x8x4096_S8x8x4096x4_0_2_3_1))
      (broadcastInDim S8x8x4096x4 ![0, 1, 2, 3] bcast_S8x1x1x4_S8x8x4096x4_0_1_2_3 (broadcastInDim S8x1x1x4 ![0, 3] bcast_S8x4_S8x1x1x4_0_3 Bv)) (ix4 k b t j)
      = Mhc.gate (Mhc.xRow (V0 (Proc.devRef .tc main_arg0)) b t) (Mhc.wRow Wg k j) (A (ix1 k)) (Bv (ix2 k j)) := by
  rw [addf_apply, mulf_apply, ← gate_at V0 (n := 4) Wg k j b t]
  refine congrArg₂ (· + ·) (congrArg₂ (· * ·) ?_ ?_) ?_
  -- the scale: one per expert, constant along batch, position and channel
  · refine (broadcastInDim_apply _ _ _ (ix4 k b t j) (ix4 k (0 : Fin 1) (0 : Fin 1) (0 : Fin 1))
      fun a => match a with | ⟨0, _⟩ => rfl | ⟨1, _⟩ => rfl | ⟨2, _⟩ => rfl | ⟨3, _⟩ => rfl).trans ?_
    exact broadcastInDim_apply _ _ _ _ (ix1 k) fun a => match a with | ⟨0, _⟩ => rfl
  -- the contraction, its channel axis moved last
  · refine (transpose_apply _ _ _ (ix4 k b t j) (ix4 k j b t)
      fun c => match c with | ⟨0, _⟩ => rfl | ⟨1, _⟩ => rfl | ⟨2, _⟩ => rfl | ⟨3, _⟩ => rfl).trans ?_
    exact dot4_at Wg (res_main_v11 V0) k j b t
  -- the bias: one per expert and channel, constant along batch and position
  · refine (broadcastInDim_apply _ _ _ (ix4 k b t j) (ix4 k (0 : Fin 1) (0 : Fin 1) j)
      fun a => match a with | ⟨0, _⟩ => rfl | ⟨1, _⟩ => rfl | ⟨2, _⟩ => rfl | ⟨3, _⟩ => rfl).trans ?_
    exact broadcastInDim_apply _ _ _ _ (ix2 k j) fun a => match a with | ⟨0, _⟩ => rfl | ⟨1, _⟩ => rfl

theorem v56_G : val4 V0 (Proc.devRef .tc main_v56) = Mhc.GPre (V0 (Proc.devRef .tc main_arg0))
      (Sel.W4 (V0 (Proc.devRef .tc main_arg1)) (V0 (Proc.devRef .tc main_arg2)) (V0 (Proc.devRef .tc main_arg3))) (Sel.A1 (V0 (Proc.devRef .tc main_arg1)) (V0 (Proc.devRef .tc main_arg9))) (Sel.B4 (V0 (Proc.devRef .tc main_arg1)) (V0 (Proc.devRef .tc main_arg6))) := by
  refine (val4_main_v56 V0).trans ?_
  funext y
  obtain ⟨k, b, t, j, rfl⟩ : ∃ (k : Fin 8) (b : Fin 8) (t : Fin 4096) (j : Fin 4), y = ix4 k b t j :=
    ⟨y 0, y 1, y 2, y 3, eq_ix4 y⟩
  have hg := arg_at V0 (Sel.A1 (V0 (Proc.devRef .tc main_arg1)) (V0 (Proc.devRef .tc main_arg9)))
    (Sel.W4 (V0 (Proc.devRef .tc main_arg1)) (V0 (Proc.devRef .tc main_arg2)) (V0 (Proc.devRef .tc main_arg3)))
    (Sel.B4 (V0 (Proc.devRef .tc main_arg1)) (V0 (Proc.devRef .tc main_arg6))) k b t j
  -- the logistic spelt out: one over one plus the exponential of the negated argument
  exact congrArg₂ Ideal.div (one_at _) (congrArg₂ (· + ·) (one_at _) (congrArg (fun z => Ideal.exp (-z)) hg))

theorem v96_G : val4 V0 (Proc.devRef .tc main_v96) = Mhc.GPost (V0 (Proc.devRef .tc main_arg0))
      (Sel.W4 (V0 (Proc.devRef .tc main_arg1)) (V0 (Proc.devRef .tc main_arg2)) (V0 (Proc.devRef .tc main_arg4))) (Sel.A1 (V0 (Proc.devRef .tc main_arg1)) (V0 (Proc.devRef .tc main_arg10))) (Sel.B4 (V0 (Proc.devRef .tc main_arg1)) (V0 (Proc.devRef .tc main_arg7))) := by
  refine (val4_main_v96 V0).trans ?_
  funext y
  obtain ⟨k, b, t, j, rfl⟩ : ∃ (k : Fin 8) (b : Fin 8) (t : Fin 4096) (j : Fin 4), y = ix4 k b t j :=
    ⟨y 0, y 1, y 2, y 3, eq_ix4 y⟩
  have hg := arg_at V0 (Sel.A1 (V0 (Proc.devRef .tc main_arg1)) (V0 (Proc.devRef .tc main_arg10)))
    (Sel.W4 (V0 (Proc.devRef .tc main_arg1)) (V0 (Proc.devRef .tc main_arg2)) (V0 (Proc.devRef .tc main_arg4)))
    (Sel.B4 (V0 (Proc.devRef .tc main_arg1)) (V0 (Proc.devRef .tc main_arg7))) k b t j
  -- twice the logistic
  exact congrArg₂ (· * ·) (two_at _)
    (congrArg₂ Ideal.div (one_at _) (congrArg₂ (· + ·) (one_at _) (congrArg (fun z => Ideal.exp (-z)) hg)))

end Cert.ReferenceIdeal.Ref

end
-- ==== Proof.RRes.lean ====
/-
  The reference's residual gate as a whole array: at (expert, batch, position) the 4×4 matrix of exponentials of the
  sixteen gates, normalised by rows and by columns alternately, six times; each normalisation of the whole array acts
  on every position's matrix separately.
-/
import proofs.«119140_j39831526703216_1_alg».proof.Proof.RCore

noncomputable section

namespace Cert.ReferenceIdeal.Ref

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx

variable (V0 : Valuation τ sig (Elt Ideal))

/-- One entry divided by the broadcast row sums: the entry over the sum of its row within its own position's matrix. -/
theorem rowDiv_at (M : FVec Ideal S8x8x4096x4x4 .f32) (k b : Fin 8) (t : Fin 4096) (p q : Fin 4) :
    Host.divf (F := Ideal) M (broadcastInDim S8x8x4096x4x4 ![0, 1, 2, 3, 4] bcast_S8x8x4096x4x1_S8x8x4096x4x4_0_1_2_3_4
      (broadcastInDim S8x8x4096x4x1 ![0, 1, 2, 3] bcast_S8x8x4096x4_S8x8x4096x4x1_0_1_2_3
        (Host.reduceAdd (F := Ideal) M (constant (F := Ideal) S_ .f32 0x00000000#32) reducesTo_S8x8x4096x4x4_S8x8x4096x4_d4 h_S_))) (ix5 k b t p q)
    = Mhc.rowNorm (fun p q => M (ix5 k b t p q)) p q := by
  show Ideal.div (M (ix5 k b t p q)) _ = Ideal.div (M (ix5 k b t p q)) _
  congr 1
  refine (broadcastInDim_apply _ _ _ (ix5 k b t p q) (ix5 k b t p (0 : Fin 1)) ?_).trans ?_
  · intro a
    match a with
    | ⟨0, _⟩ => rfl
    | ⟨1, _⟩ => rfl
    | ⟨2, _⟩ => rfl
    | ⟨3, _⟩ => rfl
    | ⟨4, _⟩ => rfl
  refine (broadcastInDim_apply _ _ _ (ix5 k b t p (0 : Fin 1)) (ix4 k b t p) ?_).trans ?_
  · intro a
    match a with
    | ⟨0, _⟩ => rfl
    | ⟨1, _⟩ => rfl
    | ⟨2, _⟩ => rfl
    | ⟨3, _⟩ => rfl
  refine (hostReduceAdd_apply _ _ _ _ _).trans ?_
  refine (Ideal.hostReduceAdd_single reducesTo_S8x8x4096x4x4_S8x8x4096x4_d4 (by decide) _ _ _).trans ?_
  rw [show constant (F := Ideal) S_ .f32 0x00000000#32 (Shape.Idx.first h_S_) = 0 from Ideal.ofBits_zero_f32, zero_add]
  refine Finset.sum_congr rfl fun q' _ => congrArg M (funext fun a => Fin.ext ?_)
  match a with
  | ⟨0, _⟩ => rfl
  | ⟨1, _⟩ => rfl
  | ⟨2, _⟩ => rfl
  | ⟨3, _⟩ => rfl
  | ⟨4, _⟩ => rfl

/-- One entry divided by the broadcast column sums: the entry over the sum of its column within its own position's matrix. -/
theorem colDiv_at (M : FVec Ideal S8x8x4096x4x4 .f32) (k b : Fin 8) (t : Fin 4096) (p q : Fin 4) :
    Host.divf (F := Ideal) M (broadcastInDim S8x8x4096x4x4 ![0, 1, 2, 3, 4] bcast_S8x8x4096x1x4_S8x8x4096x4x4_0_1_2_3_4
      (broadcastInDim S8x8x4096x1x4 ![0, 1, 2, 4] bcast_S8x8x4096x4_S8x8x4096x1x4_0_1_2_4
        (Host.reduceAdd (F := Ideal) M (constant (F := Ideal) S_ .f32 0x00000000#32) reducesTo_S8x8x4096x4x4_S8x8x4096x4_d3 h_S_))) (ix5 k b t p q)
    = Mhc.colNorm (fun p q => M (ix5 k b t p q)) p q := by
  show Ideal.div (M (ix5 k b t p q)) _ = Ideal.div (M (ix5 k b t p q)) _
  congr 1
  refine (broadcastInDim_apply _ _ _ (ix5 k b t p q) (ix5 k b t (0 : Fin 1) q) ?_).trans ?_
  · intro a
    match a with
    | ⟨0, _⟩ => rfl
    | ⟨1, _⟩ => rfl
    | ⟨2, _⟩ => rfl
    | ⟨3, _⟩ => rfl
    | ⟨4, _⟩ => rfl
  refine (broadcastInDim_apply _ _ _ (ix5 k b t (0 : Fin 1) q) (ix4 k b t q) ?_).trans ?_
  · intro a
    match a with
    | ⟨0, _⟩ => rfl
    | ⟨1, _⟩ => rfl
    | ⟨2, _⟩ => rfl
    | ⟨3, _⟩ => rfl
  refine (hostReduceAdd_apply _ _ _ _ _).trans ?_
  refine (Ideal.hostReduceAdd_single reducesTo_S8x8x4096x4x4_S8x8x4096x4_d3 (by decide) _ _ _).trans ?_
  rw [show constant (F := Ideal) S_ .f32 0x00000000#32 (Shape.Idx.first h_S_) = 0 from Ideal.ofBits_zero_f32, zero_add]
  refine Finset.sum_congr rfl fun p' _ => congrArg M (funext fun a => Fin.ext ?_)
  match a with
  | ⟨0, _⟩ => rfl
  | ⟨1, _⟩ => rfl
  | ⟨2, _⟩ => rfl
  | ⟨3, _⟩ => rfl
  | ⟨4, _⟩ => rfl

/-- The selected scale, laid along every batch, position and channel pair, reads the expert's scale. -/
theorem scale_at (A : FVec Ideal S8 .f32) (k b : Fin 8) (t : Fin 4096) (p q : Fin 4) :
    broadcastInDim S8x8x4096x4x4 ![0, 1, 2, 3, 4] bcast_S8x1x1x1x1_S8x8x4096x4x4_0_1_2_3_4
      (broadcastInDim S8x1x1x1x1 ![0] bcast_S8_S8x1x1x1x1_0 A) (ix5 k b t p q) = A (ix1 k) := by
  refine (broadcastInDim_apply _ _ _ (ix5 k b t p q) (ix5 k (0 : Fin 1) (0 : Fin 1) (0 : Fin 1) (0 : Fin 1)) ?_).trans ?_
  · intro a
    match a with
    | ⟨0, _⟩ => rfl
    | ⟨1, _⟩ => rfl
    | ⟨2, _⟩ => rfl
    | ⟨3, _⟩ => rfl
    | ⟨4, _⟩ => rfl
  refine broadcastInDim_apply _ _ _ _ (ix1 k) ?_
  intro a
  match a with
  | ⟨0, _⟩ => rfl

/-- The selected bias matrices, laid along every batch and position, read the expert's entry `(p, q)`. -/
theorem bias_at (Bm : FVec Ideal S8x4x4 .f32) (k b : Fin 8) (t : Fin 4096) (p q : Fin 4) :
    broadcastInDim S8x8x4096x4x4 ![0, 1, 2, 3, 4] bcast_S8x1x1x4x4_S8x8x4096x4x4_0_1_2_3_4
      (broadcastInDim S8x1x1x4x4 ![0, 3, 4] bcast_S8x4x4_S8x1x1x4x4_0_3_4 Bm) (ix5 k b t p q) = Bm (ix3 k p q) := by
  refine (broadcastInDim_apply _ _ _ (ix5 k b t p q) (ix5 k (0 : Fin 1) (0 : Fin 1) p q) ?_).trans ?_
  · intro a
    match a with
    | ⟨0, _⟩ => rfl
    | ⟨1, _⟩ => rfl
    | ⟨2, _⟩ => rfl
    | ⟨3, _⟩ => rfl
    | ⟨4, _⟩ => rfl
  refine broadcastInDim_apply _ _ _ _ (ix3 k p q) ?_
  intro a
  match a with
  | ⟨0, _⟩ => rfl
  | ⟨1, _⟩ => rfl
  | ⟨2, _⟩ => rfl

/-- The sixteen contractions per (expert, batch, position), moved last and split 4 × 4: entry `(p, q)` is channel
    `4 p + q`. -/
theorem cast_at (Z : FVec Ideal S8x16x8x4096 .f32) (k b : Fin 8) (t : Fin 4096) (p q : Fin 4) :
    shapeCast S8x8x4096x4x4 (transpose S8x8x4096x16 [0, 2, 3, 1] Z transposes_S8x16x8x4096_S8x8x4096x16_0_2_3_1)
      shapeCasts_S8x8x4096x16_S8x8x4096x4x4 (ix5 k b t p q) = Z (ix4 k (Mhc.ch16 p q) b t) := by
  refine (shapeCast_apply _ _ (ix5 k b t p q) (ix4 k b t (Mhc.ch16 p q)) ?_).trans ?_
  · rw [Shape.rowMajor_val_four, Shape.rowMajor_val_five]
    show ((k.val * 8 + b.val) * 4096 + t.val) * 16 + (4 * p.val + q.val)
      = (((k.val * 8 + b.val) * 4096 + t.val) * 4 + p.val) * 4 + q.val
    omega
  refine transpose_apply _ _ _ _ (ix4 k (Mhc.ch16 p q) b t) ?_
  intro a
  match a with
  | ⟨0, _⟩ => rfl
  | ⟨1, _⟩ => rfl
  | ⟨2, _⟩ => rfl
  | ⟨3, _⟩ => rfl

/-- The matrix of exponentials at (expert, batch, position): entry `(p, q)` is the exponential of the gate of the token
    against the expert's weight row `4 p + q`. -/
theorem v130_at (k b : Fin 8) (t : Fin 4096) (p q : Fin 4) :
    res_main_v130 V0 (ix5 k b t p q)
      = Ideal.exp (Mhc.gate (Mhc.xRow (V0 (Proc.devRef .tc main_arg0)) b t)
          (Mhc.wRow (Sel.W16 (V0 (Proc.devRef .tc main_arg1)) (V0 (Proc.devRef .tc main_arg2)) (V0 (Proc.devRef .tc main_arg5))) k (Mhc.ch16 p q))
          (Sel.A1 (V0 (Proc.devRef .tc main_arg1)) (V0 (Proc.devRef .tc main_arg11)) (ix1 k))
          (Sel.B44 (V0 (Proc.devRef .tc main_arg1)) (V0 (Proc.devRef .tc main_arg8)) (ix3 k p q))) := by
  unfold res_main_v130
  refine congrArg Ideal.exp ?_
  refine Eq.trans ?_ (gate_at V0 (Sel.W16 (V0 (Proc.devRef .tc main_arg1)) (V0 (Proc.devRef .tc main_arg2)) (V0 (Proc.devRef .tc main_arg5))) k (Mhc.ch16 p q) b t _ _)
  refine (addf_apply _ _ _).trans (congrArg₂ (· + ·) ((mulf_apply _ _ _).trans (congrArg₂ (· * ·) ?_ ?_)) ?_)
  · exact scale_at _ k b t p q
  · refine (cast_at _ k b t p q).trans ?_
    refine (dot16_at _ _ k (Mhc.ch16 p q) b t).trans ?_
    rw [nw_eq]
    rfl
  · exact bias_at _ k b t p q

/-- Dividing the whole array by its row sums normalises the rows of every position's matrix. -/
theorem row_slice (M : FVec Ideal S8x8x4096x4x4 .f32) (k b : Fin 8) (t : Fin 4096) :
    (fun p q => Host.divf (F := Ideal) M (broadcastInDim S8x8x4096x4x4 ![0, 1, 2, 3, 4] bcast_S8x8x4096x4x1_S8x8x4096x4x4_0_1_2_3_4
      (broadcastInDim S8x8x4096x4x1 ![0, 1, 2, 3] bcast_S8x8x4096x4_S8x8x4096x4x1_0_1_2_3
        (Host.reduceAdd (F := Ideal) M (constant (F := Ideal) S_ .f32 0x00000000#32) reducesTo_S8x8x4096x4x4_S8x8x4096x4_d4 h_S_))) (ix5 k b t p q))
    = Mhc.rowNorm (fun p q => M (ix5 k b t p q)) :=
  funext fun p => funext fun q => rowDiv_at M k b t p q

/-- Dividing the whole array by its column sums normalises the columns of every position's matrix. -/
theorem col_slice (M : FVec Ideal S8x8x4096x4x4 .f32) (k b : Fin 8) (t : Fin 4096) :
    (fun p q => Host.divf (F := Ideal) M (broadcastInDim S8x8x4096x4x4 ![0, 1, 2, 3, 4] bcast_S8x8x4096x1x4_S8x8x4096x4x4_0_1_2_3_4
      (broadcastInDim S8x8x4096x1x4 ![0, 1, 2, 4] bcast_S8x8x4096x4_S8x8x4096x1x4_0_1_2_4
        (Host.reduceAdd (F := Ideal) M (constant (F := Ideal) S_ .f32 0x00000000#32) reducesTo_S8x8x4096x4x4_S8x8x4096x4_d3 h_S_))) (ix5 k b t p q))
    = Mhc.colNorm (fun p q => M (ix5 k b t p q)) :=
  funext fun p => funext fun q => colDiv_at M k b t p q

/-- Rows then columns, once: one step of the alternating normalisation, position by position. -/
theorem step_slice (M R C : FVec Ideal S8x8x4096x4x4 .f32) (k b : Fin 8) (t : Fin 4096)
    (hR : (fun p q => R (ix5 k b t p q)) = Mhc.rowNorm (fun p q => M (ix5 k b t p q)))
    (hC : (fun p q => C (ix5 k b t p q)) = Mhc.colNorm (fun p q => R (ix5 k b t p q))) :
    (fun p q => C (ix5 k b t p q)) = Mhc.sinkStep (fun p q => M (ix5 k b t p q)) :=
  hC.trans (congrArg Mhc.colNorm hR)

theorem v138_s (k b : Fin 8) (t : Fin 4096) :
    (fun p q => res_main_v138 V0 (ix5 k b t p q)) = Mhc.sinkStep (fun p q => res_main_v130 V0 (ix5 k b t p q)) :=
  step_slice (res_main_v130 V0) (res_main_v134 V0) (res_main_v138 V0) k b t
    (row_slice (res_main_v130 V0) k b t) (col_slice (res_main_v134 V0) k b t)

theorem v146_s (k b : Fin 8) (t : Fin 4096) :
    (fun p q => res_main_v146 V0 (ix5 k b t p q)) = Mhc.sinkStep (fun p q => res_main_v138 V0 (ix5 k b t p q)) :=
  step_slice (res_main_v138 V0) (res_main_v142 V0) (res_main_v146 V0) k b t
    (row_slice (res_main_v138 V0) k b t) (col_slice (res_main_v142 V0) k b t)

theorem v154_s (k b : Fin 8) (t : Fin 4096) :
    (fun p q => res_main_v154 V0 (ix5 k b t p q)) = Mhc.sinkStep (fun p q => res_main_v146 V0 (ix5 k b t p q)) :=
  step_slice (res_main_v146 V0) (res_main_v150 V0) (res_main_v154 V0) k b t
    (row_slice (res_main_v146 V0) k b t) (col_slice (res_main_v150 V0) k b t)

theorem v162_s (k b : Fin 8) (t : Fin 4096) :
    (fun p q => res_main_v162 V0 (ix5 k b t p q)) = Mhc.sinkStep (fun p q => res_main_v154 V0 (ix5 k b t p q)) :=
  step_slice (res_main_v154 V0) (res_main_v158 V0) (res_main_v162 V0) k b t
    (row_slice (res_main_v154 V0) k b t) (col_slice (res_main_v158 V0) k b t)

theorem v170_s (k b : Fin 8) (t : Fin 4096) :
    (fun p q => res_main_v170 V0 (ix5 k b t p q)) = Mhc.sinkStep (fun p q => res_main_v162 V0 (ix5 k b t p q)) :=
  step_slice (res_main_v162 V0) (res_main_v166 V0) (res_main_v170 V0) k b t
    (row_slice (res_main_v162 V0) k b t) (col_slice (res_main_v166 V0) k b t)

/-- The last step is spelt out in the result itself: the sixth row normalisation divided by its column sums. -/
theorem last_s (k b : Fin 8) (t : Fin 4096) :
    (fun p q => Host.divf (F := Ideal) (res_main_v174 V0) (broadcastInDim S8x8x4096x4x4 ![0, 1, 2, 3, 4] bcast_S8x8x4096x1x4_S8x8x4096x4x4_0_1_2_3_4
      (broadcastInDim S8x8x4096x1x4 ![0, 1, 2, 4] bcast_S8x8x4096x4_S8x8x4096x1x4_0_1_2_4
        (Host.reduceAdd (F := Ideal) (res_main_v174 V0) (constant (F := Ideal) S_ .f32 0x00000000#32) reducesTo_S8x8x4096x4x4_S8x8x4096x4_d3 h_S_))) (ix5 k b t p q))
      = Mhc.sinkStep (fun p q => res_main_v170 V0 (ix5 k b t p q)) :=
  (col_slice (res_main_v174 V0) k b t).trans (congrArg Mhc.colNorm (row_slice (res_main_v170 V0) k b t))

/-- Six steps from the matrix of exponentials. -/
theorem sink_s (k b : Fin 8) (t : Fin 4096) :
    (fun p q => Host.divf (F := Ideal) (res_main_v174 V0) (broadcastInDim S8x8x4096x4x4 ![0, 1, 2, 3, 4] bcast_S8x8x4096x1x4_S8x8x4096x4x4_0_1_2_3_4
      (broadcastInDim S8x8x4096x1x4 ![0, 1, 2, 4] bcast_S8x8x4096x4_S8x8x4096x1x4_0_1_2_4
        (Host.reduceAdd (F := Ideal) (res_main_v174 V0) (constant (F := Ideal) S_ .f32 0x00000000#32) reducesTo_S8x8x4096x4x4_S8x8x4096x4_d3 h_S_))) (ix5 k b t p q))
      = Mhc.sink (fun p q => res_main_v130 V0 (ix5 k b t p q)) :=
  (last_s V0 k b t).trans (congrArg Mhc.sinkStep ((v170_s V0 k b t).trans (congrArg Mhc.sinkStep ((v162_s V0 k b t).trans
    (congrArg Mhc.sinkStep ((v154_s V0 k b t).trans (congrArg Mhc.sinkStep ((v146_s V0 k b t).trans
      (congrArg Mhc.sinkStep (v138_s V0 k b t))))))))))

theorem v178_G : val4 V0 (Proc.devRef .tc main_v178) = Mhc.GRes (V0 (Proc.devRef .tc main_arg0))
      (Sel.W16 (V0 (Proc.devRef .tc main_arg1)) (V0 (Proc.devRef .tc main_arg2)) (V0 (Proc.devRef .tc main_arg5))) (Sel.A1 (V0 (Proc.devRef .tc main_arg1)) (V0 (Proc.devRef .tc main_arg11))) (Sel.B44 (V0 (Proc.devRef .tc main_arg1)) (V0 (Proc.devRef .tc main_arg8))) := by
  refine (val4_main_v178 V0).trans (funext fun y => ?_)
  obtain ⟨k, b, t, p, q, rfl⟩ : ∃ (k b : Fin 8) (t : Fin 4096) (p q : Fin 4), y = ix5 k b t p q :=
    ⟨y 0, y 1, y 2, y 3, y 4, eq_ix5 y⟩
  refine (congrFun (congrFun (sink_s V0 k b t) p) q).trans ?_
  have hE : (fun p q => res_main_v130 V0 (ix5 k b t p q))
      = fun p q => Ideal.exp (Mhc.gate (Mhc.xRow (V0 (Proc.devRef .tc main_arg0)) b t)
          (Mhc.wRow (Sel.W16 (V0 (Proc.devRef .tc main_arg1)) (V0 (Proc.devRef .tc main_arg2)) (V0 (Proc.devRef .tc main_arg5))) k (Mhc.ch16 p q))
          (Sel.A1 (V0 (Proc.devRef .tc main_arg1)) (V0 (Proc.devRef .tc main_arg11)) (ix1 k))
          (Sel.B44 (V0 (Proc.devRef .tc main_arg1)) (V0 (Proc.devRef .tc main_arg8)) (ix3 k p q))) :=
    funext fun p => funext fun q => v130_at V0 k b t p q
  rw [hE]
  rfl

end Cert.ReferenceIdeal.Ref

end
-- ==== Proof.RRun.lean ====
/-
  The reference's run: each result at its whole-array function of the arguments, the arguments unchanged.
-/
import proofs.«119140_j39831526703216_1_alg».proof.Proof.RGate
import proofs.«119140_j39831526703216_1_alg».proof.Proof.RRes

noncomputable section

namespace Cert.ReferenceIdeal.Ref

open Cert.ReferenceIdeal Cert.ReferenceIdeal.Gen Cert.ReferenceIdeal.Value Idealize.ShloMosaic Idealize.ShloMosaic.TcCoe
open Idealize.SL.Sem Idealize.ShloMosaic.StableHlo Idealize.ShloMosaic.ValueIdx

variable (m : (ℓ : Loc nD τ sig) → Buf (Elt Ideal) ℓ) (ρ : Dev nD → PrngReg)

theorem run : θ_run (defs (F := Ideal)) (onTc (τ := τ) (main (F := Ideal))) ⟨m, fun _ => 0, ρ⟩ fun r => ∀ c : Dev nD,
      r.2.mem ((c : Thread nD τ).loc main_v178) = Mhc.GRes (m ((c : Thread nD τ).loc main_arg0))
          (Sel.W16 (m ((c : Thread nD τ).loc main_arg1)) (m ((c : Thread nD τ).loc main_arg2)) (m ((c : Thread nD τ).loc main_arg5))) (Sel.A1 (m ((c : Thread nD τ).loc main_arg1)) (m ((c : Thread nD τ).loc main_arg11))) (Sel.B44 (m ((c : Thread nD τ).loc main_arg1)) (m ((c : Thread nD τ).loc main_arg8)))
      ∧ r.2.mem ((c : Thread nD τ).loc main_v56) = Mhc.GPre (m ((c : Thread nD τ).loc main_arg0))
          (Sel.W4 (m ((c : Thread nD τ).loc main_arg1)) (m ((c : Thread nD τ).loc main_arg2)) (m ((c : Thread nD τ).loc main_arg3))) (Sel.A1 (m ((c : Thread nD τ).loc main_arg1)) (m ((c : Thread nD τ).loc main_arg9))) (Sel.B4 (m ((c : Thread nD τ).loc main_arg1)) (m ((c : Thread nD τ).loc main_arg6)))
      ∧ r.2.mem ((c : Thread nD τ).loc main_v96) = Mhc.GPost (m ((c : Thread nD τ).loc main_arg0))
          (Sel.W4 (m ((c : Thread nD τ).loc main_arg1)) (m ((c : Thread nD τ).loc main_arg2)) (m ((c : Thread nD τ).loc main_arg4))) (Sel.A1 (m ((c : Thread nD τ).loc main_arg1)) (m ((c : Thread nD τ).loc main_arg10))) (Sel.B4 (m ((c : Thread nD τ).loc main_arg1)) (m ((c : Thread nD τ).loc main_arg7)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun _ h c =>
    ⟨(h c).1.trans ((val4_main_v178 (launchContents m c)).symm.trans (v178_G (launchContents m c))),
      (h c).2.1.trans ((val4_main_v56 (launchContents m c)).symm.trans (v56_G (launchContents m c))),
      (h c).2.2.1.trans ((val4_main_v96 (launchContents m c)).symm.trans (v96_G (launchContents m c))),
      (h c).2.2.2⟩)
    (Cert.ReferenceIdeal.Value.run (F := Ideal) m ρ)

end Cert.ReferenceIdeal.Ref

end
-- ==== Proof.lean ====
/-
  The certificate of the batched expert-gate kernel against its einsum reference.

  For each of eight selected experts, every batch and every position, both programs take the position's token (the
  four streams' entries, 2048 in all), its reciprocal root mean square, and its contractions with the expert's
  norm-scaled weight rows, and form three gates: the logistic of the scaled, shifted contraction (four channels),
  twice the logistic (four channels), and a 4×4 matrix of exponentials normalised by rows and columns six times.

  The kernel contracts first, stream by stream, and scales the finished sums; the reference scales the token's
  entries and contracts once. Over the extended reals these are the same numbers because the scale is a nonnegative
  real (Proof/Spec.lean). The selection of the experts' rows is the same chain of operations in both programs and is
  carried whole. The kernel's run is read block by block off its generated frame (Proof/KFinal.lean), the reference's
  off its generated run (Proof/RRun.lean); both end at the same functions of the arguments.
-/
import proofs.«119140_j39831526703216_1_alg».proof.Defs
import proofs.«119140_j39831526703216_1_alg».proof.Proof.Gen.Kernel
import proofs.«119140_j39831526703216_1_alg».proof.Proof.Gen.Kernel.Frame
import proofs.«119140_j39831526703216_1_alg».proof.Proof.Gen.KernelIdeal
import proofs.«119140_j39831526703216_1_alg».proof.Proof.Gen.KernelIdeal.Frame
import proofs.«119140_j39831526703216_1_alg».proof.Proof.Gen.ReferenceIdeal
import proofs.«119140_j39831526703216_1_alg».proof.Proof.Gen.ReferenceIdeal.Run
import proofs.«119140_j39831526703216_1_alg».proof.Proof.Gen.Pre_finite_inputs
import proofs.«119140_j39831526703216_1_alg».proof.Proof.KFinal
import proofs.«119140_j39831526703216_1_alg».proof.Proof.RRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-! ## The two programs select the same rows

The selection of an expert's rows is one chain of operations of the index vector and a table, spelt alike in both
programs; applied to equal arguments it gives equal arrays. -/

theorem W4_agree (a1 : IVec Cert.KernelIdeal.S8 32) (a2 : FVec Ideal Cert.KernelIdeal.S64x2048 .f32)
    (a : FVec Ideal Cert.KernelIdeal.S64x4x2048 .f32) :
    Cert.ReferenceIdeal.Sel.W4 a1 a2 a = Cert.KernelIdeal.Sel.W4 a1 a2 a := rfl

theorem W16_agree (a1 : IVec Cert.KernelIdeal.S8 32) (a2 : FVec Ideal Cert.KernelIdeal.S64x2048 .f32)
    (a : FVec Ideal Cert.KernelIdeal.S64x16x2048 .f32) :
    Cert.ReferenceIdeal.Sel.W16 a1 a2 a = Cert.KernelIdeal.Sel.W16 a1 a2 a := rfl

theorem B4_agree (a1 : IVec Cert.KernelIdeal.S8 32) (a : FVec Ideal Cert.KernelIdeal.S64x4 .f32) :
    Cert.ReferenceIdeal.Sel.B4 a1 a = Cert.KernelIdeal.Sel.B4 a1 a := rfl

theorem B44_agree (a1 : IVec Cert.KernelIdeal.S8 32) (a : FVec Ideal Cert.KernelIdeal.S64x4x4 .f32) :
    Cert.ReferenceIdeal.Sel.B44 a1 a = Cert.KernelIdeal.Sel.B44 a1 a := rfl

theorem A1_agree (a1 : IVec Cert.KernelIdeal.S8 32) (a : FVec Ideal Cert.KernelIdeal.S64 .f32) :
    Cert.ReferenceIdeal.Sel.A1 a1 a = Cert.KernelIdeal.Sel.A1 a1 a := rfl

/-- From memories that agree on the arguments both programs end with the same three arrays: each is the same
    whole-array function of the arguments. -/
theorem algebraic : Cert.algebraic_KernelIdeal_ReferenceIdeal := by
  intro m ρ m' ρ' _ hagree
  refine ⟨fun c => Cert.KernelIdeal.Fin.resOf m c, fun c => Cert.KernelIdeal.Fin.preOf m c,
    fun c => Cert.KernelIdeal.Fin.postOf m c, ?_, ?_⟩
  · exact (θ_run Cert.KernelIdeal.defs _ _).mono (fun _ h c => ⟨(h c).2.2.1, (h c).1, (h c).2.1, (h c).2.2.2⟩)
      (Cert.KernelIdeal.Fin.run m ρ)
  · refine (θ_run Cert.ReferenceIdeal.defs _ _).mono (fun _ h c => ?_) (Cert.ReferenceIdeal.Ref.run m' ρ')
    obtain ⟨e0, e1, e2, e3, e4, e5, e6, e7, e8, e9, e10, e11⟩ := hagree c
    refine ⟨(h c).1.trans ?_, (h c).2.1.trans ?_, (h c).2.2.1.trans ?_, (h c).2.2.2⟩
    · rw [e0, e1, e2, e5, e8, e11, W16_agree, A1_agree, B44_agree]
    · rw [e0, e1, e2, e3, e6, e9, W4_agree, A1_agree, B4_agree]
    · rw [e0, e1, e2, e4, e7, e10, W4_agree, A1_agree, B4_agree]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
